-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x768 : Shape := ⟨3, ![8, 1024, 768]⟩
abbrev S768x768 : Shape := ⟨2, ![768, 768]⟩
abbrev S1536x768 : Shape := ⟨2, ![1536, 768]⟩
abbrev S768 : Shape := ⟨1, ![768]⟩
abbrev S_ : Shape := ⟨0, ![]⟩

class Facts : Prop where
  bcast_S_S8x1024x768 : S_.BroadcastsInDim S8x1024x768 (![] : Fin 0 → Fin S8x1024x768.rank)
  reducesTo_S8x1024x768_S_d0_1_2 : S8x1024x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S1536x768 : S_.BroadcastsInDim S1536x768 (![] : Fin 0 → Fin S1536x768.rank)
  reducesTo_S1536x768_S_d0_1 : S1536x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768x768 .f32) (main_arg5 : FVec F S768 .f32) (main_v13 : IVec S_ 1) (main_v16 : IVec S1536x768 1) : IVec S_ 1 :=
  let main_c_5 : IVec S_ 1 := constantI S_ 1 1#1
  let main_v17 : IVec S_ 1 := (fun x v => Host.reduce IntOp.andi x v reducesTo_S1536x768_S_d0_1 h_S_) main_v16 main_c_5
  let main_v18 : IVec S_ 1 := andi main_v13 main_v17
  let main_v19 : FVec F S768x768 .f32 := Host.absf main_arg4
  let main_cst_6 : FVec F S_ .f32 := constant S_ .f32 0x7F800000#32
  let main_v20 : FVec F S768x768 .f32 := broadcastInDim S768x768 ![] bcast_S_S768x768 main_cst_6
  let main_v21 : IVec S768x768 1 := cmpf .olt main_v19 main_v20
  let main_c_7 : IVec S_ 1 := constantI S_ 1 1#1
  let main_v22 : IVec S_ 1 := (fun x v => Host.reduce IntOp.andi x v reducesTo_S768x768_S_d0_1 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  main_v28

def fn {F : FTy → Type} [FloatOps F] (main_arg0 : FVec F S8x1024x768 .f32) (main_arg1 : FVec F S8x1024x768 .f32) (main_arg2 : FVec F S768x768 .f32) (main_arg3 : FVec F S1536x768 .f32) (main_arg4 : FVec F S768x768 .f32) (main_arg5 : FVec F S768 .f32) : IVec S_ 1 :=
  let main_v0 : FVec F S8x1024x768 .f32 := Host.absf main_arg0
  let main_cst : FVec F S_ .f32 := constant S_ .f32 0x7F800000#32
  let main_v1 : FVec F S8x1024x768 .f32 := broadcastInDim S8x1024x768 ![] bcast_S_S8x1024x768 main_cst
  let main_v2 : IVec S8x1024x768 1 := cmpf .olt main_v0 main_v1
  let main_c : IVec S_ 1 := constantI S_ 1 1#1
  let main_v3 : IVec S_ 1 := (fun x v => Host.reduce IntOp.andi x v reducesTo_S8x1024x768_S_d0_1_2 h_S_) main_v2 main_c
  let main_v4 : FVec F S8x1024x768 .f32 := Host.absf main_arg1
  let main_cst_0 : FVec F S_ .f32 := constant S_ .f32 0x7F800000#32
  let main_v5 : FVec F S8x1024x768 .f32 := broadcastInDim S8x1024x768 ![] bcast_S_S8x1024x768 main_cst_0
  let main_v6 : IVec S8x1024x768 1 := cmpf .olt main_v4 main_v5
  let main_c_1 : IVec S_ 1 := constantI S_ 1 1#1
  let main_v7 : IVec S_ 1 := (fun x v => Host.reduce IntOp.andi x v reducesTo_S8x1024x768_S_d0_1_2 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S1536x768 .f32 := Host.absf main_arg3
  let main_cst_4 : FVec F S_ .f32 := constant S_ .f32 0x7F800000#32
  let main_v15 : FVec F S1536x768 .f32 := broadcastInDim S1536x768 ![] bcast_S_S1536x768 main_cst_4
  let main_v16 : IVec S1536x768 1 := cmpf .olt main_v14 main_v15
  fn_part1 (F := F) main_arg4 main_arg5 main_v13 main_v16
-- ==== Kernel.lean ====
abbrev S8x1024x768 : Shape := ⟨3, ![8, 1024, 768]⟩
abbrev S768x768 : Shape := ⟨2, ![768, 768]⟩
abbrev S1536x768 : Shape := ⟨2, ![1536, 768]⟩
abbrev S768 : Shape := ⟨1, ![768]⟩
abbrev S8192x768 : Shape := ⟨2, ![8192, 768]⟩
abbrev S_ : Shape := ⟨0, ![]⟩
abbrev S768x1536 : Shape := ⟨2, ![768, 1536]⟩
abbrev S1536 : Shape := ⟨1, ![1536]⟩
abbrev S1x768 : Shape := ⟨2, ![1, 768]⟩
abbrev S1024x768 : Shape := ⟨2, ![1024, 768]⟩
abbrev S1x1536 : Shape := ⟨2, ![1, 1536]⟩
abbrev S8192x1536 : Shape := ⟨2, ![8192, 1536]⟩
abbrev S1024x1536 : Shape := ⟨2, ![1024, 1536]⟩
abbrev S8x8x1024x96 : Shape := ⟨4, ![8, 8, 1024, 96]⟩
abbrev S8x1024x2x8x96 : Shape := ⟨5, ![8, 1024, 2, 8, 96]⟩
abbrev S8x1024x1x8x96 : Shape := ⟨5, ![8, 1024, 1, 8, 96]⟩
abbrev S8x1024x8x96 : Shape := ⟨4, ![8, 1024, 8, 96]⟩
abbrev S1x1x1024x96 : Shape := ⟨4, ![1, 1, 1024, 96]⟩
abbrev S1x1024x768 : Shape := ⟨3, ![1, 1024, 768]⟩
abbrev S1024x96 : Shape := ⟨2, ![1024, 96]⟩
abbrev S96x1024 : Shape := ⟨2, ![96, 1024]⟩
abbrev S1024x1024 : Shape := ⟨2, ![1024, 1024]⟩
abbrev S1024 : Shape := ⟨1, ![1024]⟩
abbrev S1024x1 : Shape := ⟨2, ![1024, 1]⟩
abbrev S96x768 : Shape := ⟨2, ![96, 768]⟩

abbrev nBuf : Space → Nat
  | .hbm => 35
  | .vmem => 23
  | .smem => 0
  | _ => 0

abbrev bufTy : (tb : Table) → Fin (tcTables nBuf tb) → BufTy
  | .hbm, ⟨0, _⟩ => ⟨S8x1024x768, .f32⟩
  | .hbm, ⟨1, _⟩ => ⟨S8x1024x768, .f32⟩
  | .hbm, ⟨2, _⟩ => ⟨S768x768, .f32⟩
  | .hbm, ⟨3, _⟩ => ⟨S1536x768, .f32⟩
  | .hbm, ⟨4, _⟩ => ⟨S768x768, .f32⟩
  | .hbm, ⟨5, _⟩ => ⟨S768, .f32⟩
  | .hbm, ⟨6, _⟩ => ⟨S8192x768, .f32⟩
  | .hbm, ⟨7, _⟩ => ⟨S8192x768, .f32⟩
  | .hbm, ⟨8, _⟩ => ⟨S768x768, .f32⟩
  | .hbm, ⟨9, _⟩ => ⟨S_, .f32⟩
  | .hbm, ⟨10, _⟩ => ⟨S768x768, .f32⟩
  | .hbm, ⟨11, _⟩ => ⟨S768x768, .f32⟩
  | .hbm, ⟨12, _⟩ => ⟨S768x768, .bf16⟩
  | .hbm, ⟨13, _⟩ => ⟨S768x1536, .f32⟩
  | .hbm, ⟨14, _⟩ => ⟨S768x1536, .bf16⟩
  | .hbm, ⟨15, _⟩ => ⟨S768x768, .f32⟩
  | .hbm, ⟨16, _⟩ => ⟨S768x768, .bf16⟩
  | .hbm, ⟨17, _⟩ => ⟨S_, .f32⟩
  | .hbm, ⟨18, _⟩ => ⟨S768, .f32⟩
  | .hbm, ⟨19, _⟩ => ⟨S_, .f32⟩
  | .hbm, ⟨20, _⟩ => ⟨S1536, .f32⟩
  | .hbm, ⟨21, _⟩ => ⟨S1x768, .f32⟩
  | .hbm, ⟨22, _⟩ => ⟨S8192x768, .bf16⟩
  | .hbm, ⟨23, _⟩ => ⟨S1x1536, .f32⟩
  | .hbm, ⟨24, _⟩ => ⟨S8192x1536, .bf16⟩
  | .hbm, ⟨25, _⟩ => ⟨S8x8x1024x96, .bf16⟩
  | .hbm, ⟨26, _⟩ => ⟨S8x1024x2x8x96, .bf16⟩
  | .hbm, ⟨27, _⟩ => ⟨S8x1024x1x8x96, .bf16⟩
  | .hbm, ⟨28, _⟩ => ⟨S8x1024x8x96, .bf16⟩
  | .hbm, ⟨29, _⟩ => ⟨S8x8x1024x96, .bf16⟩
  | .hbm, ⟨30, _⟩ => ⟨S8x1024x1x8x96, .bf16⟩
  | .hbm, ⟨31, _⟩ => ⟨S8x1024x8x96, .bf16⟩
  | .hbm, ⟨32, _⟩ => ⟨S8x8x1024x96, .bf16⟩
  | .hbm, ⟨33, _⟩ => ⟨S1x768, .f32⟩
  | .hbm, ⟨34, _⟩ => ⟨S8x1024x768, .f32⟩
  | .local _ .vmem, ⟨0, _⟩ => ⟨S1024x768, .f32⟩
  | .local _ .vmem, ⟨1, _⟩ => ⟨S1024x768, .f32⟩
  | .local _ .vmem, ⟨2, _⟩ => ⟨S768x768, .bf16⟩
  | .local _ .vmem, ⟨3, _⟩ => ⟨S1x768, .f32⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | .local _ .vmem, ⟨7, _⟩ => ⟨S1024x768, .f32⟩
  | .local _ .vmem, ⟨8, _⟩ => ⟨S768x1536, .bf16⟩
  | .local _ .vmem, ⟨9, _⟩ => ⟨S1x1536, .f32⟩
  | .local _ .vmem, ⟨10, _⟩ => ⟨S1024x1536, .bf16⟩
  | .local _ .vmem, ⟨11, _⟩ => ⟨S1024x1536, .bf16⟩
  | .local _ .vmem, ⟨12, _⟩ => ⟨S1x1x1024x96, .bf16⟩
  | .local _ .vmem, ⟨13, _⟩ => ⟨S1x1x1024x96, .bf16⟩
  | .local _ .vmem, ⟨14, _⟩ => ⟨S1x1x1024x96, .bf16⟩
  | .local _ .vmem, ⟨15, _⟩ => ⟨S1x1x1024x96, .bf16⟩
  | .local _ .vmem, ⟨16, _⟩ => ⟨S1x1x1024x96, .bf16⟩
  | .local _ .vmem, ⟨17, _⟩ => ⟨S1x1x1024x96, .bf16⟩
  | .local _ .vmem, ⟨18, _⟩ => ⟨S768x768, .bf16⟩
  | .local _ .vmem, ⟨19, _⟩ => ⟨S1x768, .f32⟩
  | .local _ .vmem, ⟨20, _⟩ => ⟨S1x1024x768, .f32⟩
  | .local _ .vmem, ⟨21, _⟩ => ⟨S1x1024x768, .f32⟩
  | .local _ .vmem, ⟨22, _⟩ => ⟨S1024x768, .f32⟩
  | _, _ => ⟨S8x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc2_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem5_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S768x1536 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1536 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1536 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![8, 8], ![false, false]⟩

def k2_mult1 (i : grid2.Coords) : BitVec 32 :=
  let arg1 : BitVec 32 := BitVec.ofNat 32 (i 1).val
  let c96_i32 : BitVec 32 := 96#32
  let v20 : BitVec 32 := Scalar.muli arg1 c96_i32
  v20
def k2_off1 (i : grid2.Coords) : Fin 2 → Nat :=
  let arg1 : BitVec 32 := BitVec.ofNat 32 (i 1).val
  let c96_i32 : BitVec 32 := 96#32
  let v20 : BitVec 32 := Scalar.muli arg1 c96_i32
  let v21 : BitVec 32 := v20
  let v22 : Index := Scalar.indexCast v21
  let c0_14 : Index := 0#32
  ![v22.toNat, 0]
def k2_cond2 (i : grid2.Coords) : BitVec 1 :=
  let arg1 : BitVec 32 := BitVec.ofNat 32 (i 1).val
  let c7_i32 : BitVec 32 := 7#32
  let v34 : BitVec 1 := Scalar.cmpi .eq arg1 c7_i32
  let v35 : BitVec 32 := Scalar.extui v34
  let c0_i32_21 : BitVec 32 := 0#32
  let v36 : BitVec 1 := Scalar.cmpi .ne v35 c0_i32_21
  v36

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1x1024x96 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1x1024x96 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x1x1024x96 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S768x768 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x768 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x1024x768 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

class Facts₀ : Prop where
  shapeCasts_S8x1024x768_S8192x768 : S8x1024x768.ShapeCasts S8192x768
  transposes_S768x768_S768x768_1_0 : S768x768.Transposes [1, 0] S768x768
  bcast_S_S768x768 : S_.BroadcastsInDim S768x768 (![] : Fin 0 → Fin S768x768.rank)
  bitsLt_bf16_f32 : FTy.bits .bf16 < FTy.bits .f32
  transposes_S1536x768_S768x1536_1_0 : S1536x768.Transposes [1, 0] S768x1536
  bcast_S_S768 : S_.BroadcastsInDim S768 (![] : Fin 0 → Fin S768.rank)
  bcast_S_S1536 : S_.BroadcastsInDim S1536 (![] : Fin 0 → Fin S1536.rank)
  shapeCasts_S768_S1x768 : S768.ShapeCasts S1x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  packedbf16_S1024x768_S1024x768_0_0 : (Rect.unit (s := S1024x768) ![0, 0] S1024x768.size inb_S1024x768_S1024x768_0_0).PackedRows (EltTy.packing .bf16)
  shapeCasts_S1536_S1x1536 : S1536.ShapeCasts S1x1536
  inb_S768x1536_S768x1536_0_0 : ∀ a, (![0, 0] : Fin 2 → Nat) a + S768x1536.size a ≤ S768x1536.size a
  h_S768x1536 : 0 < S768x1536.numel
  shapeCasts_S768x1536_S768x1536 : S768x1536.ShapeCasts S768x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S1024x1536 : S1x1536.Broadcasts S1024x1536
  inb_S1024x1536_S1024x1536_0_0 : ∀ a, (![0, 0] : Fin 2 → Nat) a + S1024x1536.size a ≤ S1024x1536.size a
  h_S1024x1536 : 0 < S1024x1536.numel
  packedbf16_S1024x1536_S1024x1536_0_0 : (Rect.unit (s := S1024x1536) ![0, 0] S1024x1536.size inb_S1024x1536_S1024x1536_0_0).PackedRows (EltTy.packing .bf16)
  shapeCasts_S8192x768_S8x8x1024x96 : S8192x768.ShapeCasts S8x8x1024x96
  shapeCasts_S8192x1536_S8x1024x2x8x96 : S8192x1536.ShapeCasts S8x1024x2x8x96
  slices_S8x1024x2x8x96_S8x1024x1x8x96_0_0_0_0_0 : S8x1024x2x8x96.Slices ![0, 0, 0, 0, 0] S8x1024x1x8x96
  shapeCasts_S8x1024x1x8x96_S8x1024x8x96 : S8x1024x1x8x96.ShapeCasts S8x1024x8x96
  transposes_S8x1024x8x96_S8x8x1024x96_0_2_1_3 : S8x1024x8x96.Transposes [0, 2, 1, 3] S8x8x1024x96
  slices_S8x1024x2x8x96_S8x1024x1x8x96_0_0_1_0_0 : S8x1024x2x8x96.Slices ![0, 0, 1, 0, 0] S8x1024x1x8x96
  inb_S1x1x1024x96_S1x1x1024x96_0_0_0_0 : ∀ a, (![0, 0, 0, 0] : Fin 4 → Nat) a + S1x1x1024x96.size a ≤ S1x1x1024x96.size a
  h_S1x1x1024x96 : 0 < S1x1x1024x96.numel
  shapeCasts_S1x1x1024x96_S1024x96 : S1x1x1024x96.ShapeCasts S1024x96
  transposes_S1024x96_p1_0_S96x1024 : S1024x96.Transposes [1, 0] S96x1024
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x96 : S1024x1.Broadcasts S1024x96
  h_S96x768 : 0 < S96x768.numel
  shapeCasts_S96x768_S96x768 : S96x768.ShapeCasts S96x768
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  shapeCasts_S1024x768_S1x1024x768 : S1024x768.ShapeCasts S1x1024x768
  dot_S1024x768_S768x768_S1024x768_1_0_0_1_n_n_wf : DotDims.WF S1024x768 S768x768 S1024x768 [1] [0] [0] [1] [] []
  dot_S1024x768_S768x1536_S1024x1536_1_0_0_1_n_n_wf : DotDims.WF S1024x768 S768x1536 S1024x1536 [1] [0] [0] [1] [] []
  dot_S1024x96_S96x1024_S1024x1024_1_0_0_1_n_n_wf : DotDims.WF S1024x96 S96x1024 S1024x1024 [1] [0] [0] [1] [] []
  dot_S1024x1024_S1024x96_S1024x96_1_0_0_1_n_n_wf : DotDims.WF S1024x1024 S1024x96 S1024x96 [1] [0] [0] [1] [] []
  dot_S1024x96_S96x768_S1024x768_1_0_0_1_n_n_wf : DotDims.WF S1024x96 S96x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S8192x768.size a
  hwx0_0 : ∀ i : grid0.Coords, EltTy.bits .f32 = 32 ∨ (Rect.block (s := S8192x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .bf16 = 32 ∨ (Rect.block (s := S768x768) S768x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x768.size a ≤ S8192x768.size a
  hwx0_3 : ∀ i : grid0.Coords, EltTy.bits .bf16 = 32 ∨ (Rect.block (s := S8192x768) S1024x768.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x768.size a ≤ S8192x768.size a
  hwx1_0 : ∀ i : grid1.Coords, EltTy.bits .f32 = 32 ∨ (Rect.block (s := S8192x768) S1024x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S768x1536.size a ≤ S768x1536.size a
  hwx1_1 : ∀ i : grid1.Coords, EltTy.bits .bf16 = 32 ∨ (Rect.block (s := S768x1536) S768x1536.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1536.size a ≤ S1x1536.size a
  hwx1_2 : ∀ i : grid1.Coords, EltTy.bits .f32 = 32 ∨ (Rect.block (s := S1x1536) S1x1536.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1536.size a ≤ S8192x1536.size a
  hwx1_3 : ∀ i : grid1.Coords, EltTy.bits .bf16 = 32 ∨ (Rect.block (s := S8192x1536) S1024x1536.size (cc1_transform_3 i) (hinb1_3 i)).WholeWords (EltTy.packing .bf16)
  hrank2 : 0 < grid2.rank
  k2_mult1_dvd : ∀ i : grid2.Coords, 16 ∣ (k2_mult1 i).toNat
  k2_off1_inb : ∀ i : grid2.Coords, ∀ a, (k2_off1 i) a + S96x768.size a ≤ S768x768.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1x1024x96.size a ≤ S8x8x1024x96.size a
  hwx2_0 : ∀ i : grid2.Coords, EltTy.bits .bf16 = 32 ∨ (Rect.block (s := S8x8x1024x96) S1x1x1024x96.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1x1024x96.size a ≤ S8x8x1024x96.size a
  hwx2_1 : ∀ i : grid2.Coords, EltTy.bits .bf16 = 32 ∨ (Rect.block (s := S8x8x1024x96) S1x1x1024x96.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x1024x96.size a ≤ S8x8x1024x96.size a
  hwx2_2 : ∀ i : grid2.Coords, EltTy.bits .bf16 = 32 ∨ (Rect.block (s := S8x8x1024x96) S1x1x1024x96.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S768x768.size a ≤ S768x768.size a
  hwx2_3 : ∀ i : grid2.Coords, EltTy.bits .bf16 = 32 ∨ (Rect.block (s := S768x768) S768x768.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x768.size a ≤ S1x768.size a
  hwx2_4 : ∀ i : grid2.Coords, EltTy.bits .f32 = 32 ∨ (Rect.block (s := S1x768) S1x768.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x1024x768.size a ≤ S8x1024x768.size a
  hwx2_5 : ∀ i : grid2.Coords, EltTy.bits .f32 = 32 ∨ (Rect.block (s := S8x1024x768) S1x1024x768.size (cc2_transform_5 i) (hinb2_5 i)).WholeWords (EltTy.packing .f32)

variable [Facts₀]

def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf
def dot_S1024x768_S768x1536_S1024x1536_1_0_0_1_n_n : DotDims S1024x768 S768x1536 S1024x1536 where
  lhsContracting := [1]
  rhsContracting := [0]
  lhsNonContracting := [0]
  rhsNonContracting := [1]
  lhsBatch := []
  rhsBatch := []
  wf := dot_S1024x768_S768x1536_S1024x1536_1_0_0_1_n_n_wf
def dot_S1024x96_S96x1024_S1024x1024_1_0_0_1_n_n : DotDims S1024x96 S96x1024 S1024x1024 where
  lhsContracting := [1]
  rhsContracting := [0]
  lhsNonContracting := [0]
  rhsNonContracting := [1]
  lhsBatch := []
  rhsBatch := []
  wf := dot_S1024x96_S96x1024_S1024x1024_1_0_0_1_n_n_wf
def dot_S1024x1024_S1024x96_S1024x96_1_0_0_1_n_n : DotDims S1024x1024 S1024x96 S1024x96 where
  lhsContracting := [1]
  rhsContracting := [0]
  lhsNonContracting := [0]
  rhsNonContracting := [1]
  lhsBatch := []
  rhsBatch := []
  wf := dot_S1024x1024_S1024x96_S1024x96_1_0_0_1_n_n_wf
def dot_S1024x96_S96x768_S1024x768_1_0_0_1_n_n : DotDims S1024x96 S96x768 S1024x768 where
  lhsContracting := [1]
  rhsContracting := [0]
  lhsNonContracting := [0]
  rhsNonContracting := [1]
  lhsBatch := []
  rhsBatch := []
  wf := dot_S1024x96_S96x768_S1024x768_1_0_0_1_n_n_wf

abbrev win0_0 : Pipeline.Window sig grid0 :=
  Pipeline.Window.ofSpec (Memref.whole main_v0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1024x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1024x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S768x1536.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x1536.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1024x1536.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v16) S1x1x1024x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S1x1x1024x96.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S1x1x1024x96.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v9) S768x768.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v24) S1x768.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v25) S1x1024x768.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S8x1024x768 : Shape := ⟨3, ![8, 1024, 768]⟩
abbrev S768x768 : Shape := ⟨2, ![768, 768]⟩
abbrev S1536x768 : Shape := ⟨2, ![1536, 768]⟩
abbrev S768 : Shape := ⟨1, ![768]⟩
abbrev S8x1024x1536 : Shape := ⟨3, ![8, 1024, 1536]⟩
abbrev S8x1024x2x8x96 : Shape := ⟨5, ![8, 1024, 2, 8, 96]⟩
abbrev S2x8x8x1024x96 : Shape := ⟨5, ![2, 8, 8, 1024, 96]⟩
abbrev S1x8x8x1024x96 : Shape := ⟨5, ![1, 8, 8, 1024, 96]⟩
abbrev S8x8x1024x96 : Shape := ⟨4, ![8, 8, 1024, 96]⟩
abbrev S_ : Shape := ⟨0, ![]⟩
abbrev S8x8x1024x1024 : Shape := ⟨4, ![8, 8, 1024, 1024]⟩
abbrev S8x8x1024 : Shape := ⟨3, ![8, 8, 1024]⟩
abbrev S8x8x1024x1 : Shape := ⟨4, ![8, 8, 1024, 1]⟩
abbrev S8x1024x8x96 : Shape := ⟨4, ![8, 1024, 8, 96]⟩
abbrev S1x1x768 : Shape := ⟨3, ![1, 1, 768]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x768, .f32⟩
  | .hbm, ⟨1, _⟩ => ⟨S8x1024x768, .f32⟩
  | .hbm, ⟨2, _⟩ => ⟨S768x768, .f32⟩
  | .hbm, ⟨3, _⟩ => ⟨S1536x768, .f32⟩
  | .hbm, ⟨4, _⟩ => ⟨S768x768, .f32⟩
  | .hbm, ⟨5, _⟩ => ⟨S768, .f32⟩
  | .hbm, ⟨6, _⟩ => ⟨S8x1024x1536, .f32⟩
  | .hbm, ⟨7, _⟩ => ⟨S8x1024x2x8x96, .f32⟩
  | .hbm, ⟨8, _⟩ => ⟨S2x8x8x1024x96, .f32⟩
  | .hbm, ⟨9, _⟩ => ⟨S1x8x8x1024x96, .f32⟩
  | .hbm, ⟨10, _⟩ => ⟨S8x8x1024x96, .f32⟩
  | .hbm, ⟨11, _⟩ => ⟨S1x8x8x1024x96, .f32⟩
  | .hbm, ⟨12, _⟩ => ⟨S8x8x1024x96, .f32⟩
  | .hbm, ⟨13, _⟩ => ⟨S8x1024x768, .f32⟩
  | .hbm, ⟨14, _⟩ => ⟨S8x8x1024x96, .f32⟩
  | .hbm, ⟨15, _⟩ => ⟨S_, .f32⟩
  | .hbm, ⟨16, _⟩ => ⟨S8x8x1024x96, .f32⟩
  | .hbm, ⟨17, _⟩ => ⟨S8x8x1024x96, .f32⟩
  | .hbm, ⟨18, _⟩ => ⟨S8x8x1024x1024, .f32⟩
  | .hbm, ⟨19, _⟩ => ⟨S_, .f32⟩
  | .hbm, ⟨20, _⟩ => ⟨S8x8x1024, .f32⟩
  | .hbm, ⟨21, _⟩ => ⟨S_, .f32⟩
  | .hbm, ⟨22, _⟩ => ⟨S8x8x1024, .f32⟩
  | .hbm, ⟨23, _⟩ => ⟨S8x8x1024, .f32⟩
  | .hbm, ⟨24, _⟩ => ⟨S8x8x1024x1, .f32⟩
  | .hbm, ⟨25, _⟩ => ⟨S8x8x1024x1024, .f32⟩
  | .hbm, ⟨26, _⟩ => ⟨S8x8x1024x1024, .f32⟩
  | .hbm, ⟨27, _⟩ => ⟨S8x8x1024x1024, .f32⟩
  | .hbm, ⟨28, _⟩ => ⟨S_, .f32⟩
  | .hbm, ⟨29, _⟩ => ⟨S8x8x1024, .f32⟩
  | .hbm, ⟨30, _⟩ => ⟨S8x8x1024x1, .f32⟩
  | .hbm, ⟨31, _⟩ => ⟨S8x8x1024x1024, .f32⟩
  | .hbm, ⟨32, _⟩ => ⟨S8x8x1024x1024, .f32⟩
  | .hbm, ⟨33, _⟩ => ⟨S8x8x1024x96, .f32⟩
  | .hbm, ⟨34, _⟩ => ⟨S8x1024x8x96, .f32⟩
  | .hbm, ⟨35, _⟩ => ⟨S8x1024x768, .f32⟩
  | .hbm, ⟨36, _⟩ => ⟨S8x1024x768, .f32⟩
  | .hbm, ⟨37, _⟩ => ⟨S1x1x768, .f32⟩
  | .hbm, ⟨38, _⟩ => ⟨S8x1024x768, .f32⟩
  | .hbm, ⟨39, _⟩ => ⟨S8x1024x768, .f32⟩
  | _, _ => ⟨S8x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]

class Facts₀ : Prop where
  shapeCasts_S8x1024x1536_S8x1024x2x8x96 : S8x1024x1536.ShapeCasts S8x1024x2x8x96
  transposes_S8x1024x2x8x96_S2x8x8x1024x96_2_0_3_1_4 : S8x1024x2x8x96.Transposes [2, 0, 3, 1, 4] S2x8x8x1024x96
  slices_S2x8x8x1024x96_S1x8x8x1024x96_0_0_0_0_0 : S2x8x8x1024x96.Slices ![0, 0, 0, 0, 0] S1x8x8x1024x96
  shapeCasts_S1x8x8x1024x96_S8x8x1024x96 : S1x8x8x1024x96.ShapeCasts S8x8x1024x96
  slices_S2x8x8x1024x96_S1x8x8x1024x96_1_0_0_0_0 : S2x8x8x1024x96.Slices ![1, 0, 0, 0, 0] S1x8x8x1024x96
  shapeCasts_S8x1024x768_S8x8x1024x96 : S8x1024x768.ShapeCasts S8x8x1024x96
  bcast_S_S8x8x1024x96 : S_.BroadcastsInDim S8x8x1024x96 (![] : Fin 0 → Fin S8x8x1024x96.rank)
  reducesTo_S8x8x1024x1024_S8x8x1024_d3 : S8x8x1024x1024.ReducesTo [3] S8x8x1024
  h_S_ : 0 < S_.numel
  bcast_S_S8x8x1024 : S_.BroadcastsInDim S8x8x1024 (![] : Fin 0 → Fin S8x8x1024.rank)
  bcast_S8x8x1024_S8x8x1024x1_0_1_2 : S8x8x1024.BroadcastsInDim S8x8x1024x1 (![0, 1, 2] : Fin 3 → Fin S8x8x1024x1.rank)
  bcast_S8x8x1024x1_S8x8x1024x1024_0_1_2_3 : S8x8x1024x1.BroadcastsInDim S8x8x1024x1024 (![0, 1, 2, 3] : Fin 4 → Fin S8x8x1024x1024.rank)
  transposes_S8x8x1024x96_S8x1024x8x96_0_2_1_3 : S8x8x1024x96.Transposes [0, 2, 1, 3] S8x1024x8x96
  shapeCasts_S8x1024x8x96_S8x1024x768 : S8x1024x8x96.ShapeCasts S8x1024x768
  bcast_S768_S1x1x768_2 : S768.BroadcastsInDim S1x1x768 (![2] : Fin 1 → Fin S1x1x768.rank)
  bcast_S1x1x768_S8x1024x768_0_1_2 : S1x1x768.BroadcastsInDim S8x1024x768 (![0, 1, 2] : Fin 3 → Fin S8x1024x768.rank)
  dot_S8x1024x768_S1536x768_S8x1024x1536_2_1_01_0_n_n_wf : DotDims.WF S8x1024x768 S1536x768 S8x1024x1536 [2] [1] [0, 1] [0] [] []
  dot_S8x1024x768_S768x768_S8x1024x768_2_1_01_0_n_n_wf : DotDims.WF S8x1024x768 S768x768 S8x1024x768 [2] [1] [0, 1] [0] [] []
  dot_S8x8x1024x96_S8x8x1024x96_S8x8x1024x1024_3_3_2_2_01_01_wf : DotDims.WF S8x8x1024x96 S8x8x1024x96 S8x8x1024x1024 [3] [3] [2] [2] [0, 1] [0, 1]
  dot_S8x8x1024x1024_S8x8x1024x96_S8x8x1024x96_3_2_2_3_01_01_wf : DotDims.WF S8x8x1024x1024 S8x8x1024x96 S8x8x1024x96 [3] [2] [2] [3] [0, 1] [0, 1]

variable [Facts₀]

def dot_S8x1024x768_S1536x768_S8x1024x1536_2_1_01_0_n_n : DotDims S8x1024x768 S1536x768 S8x1024x1536 where
  lhsContracting := [2]
  rhsContracting := [1]
  lhsNonContracting := [0, 1]
  rhsNonContracting := [0]
  lhsBatch := []
  rhsBatch := []
  wf := dot_S8x1024x768_S1536x768_S8x1024x1536_2_1_01_0_n_n_wf
def dot_S8x1024x768_S768x768_S8x1024x768_2_1_01_0_n_n : DotDims S8x1024x768 S768x768 S8x1024x768 where
  lhsContracting := [2]
  rhsContracting := [1]
  lhsNonContracting := [0, 1]
  rhsNonContracting := [0]
  lhsBatch := []
  rhsBatch := []
  wf := dot_S8x1024x768_S768x768_S8x1024x768_2_1_01_0_n_n_wf
def dot_S8x8x1024x96_S8x8x1024x96_S8x8x1024x1024_3_3_2_2_01_01 : DotDims S8x8x1024x96 S8x8x1024x96 S8x8x1024x1024 where
  lhsContracting := [3]
  rhsContracting := [3]
  lhsNonContracting := [2]
  rhsNonContracting := [2]
  lhsBatch := [0, 1]
  rhsBatch := [0, 1]
  wf := dot_S8x8x1024x96_S8x8x1024x96_S8x8x1024x1024_3_3_2_2_01_01_wf
def dot_S8x8x1024x1024_S8x8x1024x96_S8x8x1024x96_3_2_2_3_01_01 : DotDims S8x8x1024x1024 S8x8x1024x96 S8x8x1024x96 where
  lhsContracting := [3]
  rhsContracting := [2]
  lhsNonContracting := [2]
  rhsNonContracting := [3]
  lhsBatch := [0, 1]
  rhsBatch := [0, 1]
  wf := dot_S8x8x1024x1024_S8x8x1024x96_S8x8x1024x96_3_2_2_3_01_01_wf

class Facts : Prop extends Facts₀ where

variable [Facts]
-- ==== Proof.K.Lin0Defs.lean ====
/-
  Region 0 (a row-block linear map): for each block of 1024 rows, the block of the input times the whole weight
  matrix plus the bias row, narrowed. Here: the blocks the region's body reads, what it leaves in the output
  window's buffer (one store covering the block), and the region's proof data at entry contents `V`.
-/
import proofs.«425593_j41592463294467_3_alg».proof.Proof.Gen.Kernel.Launch
import proofs.«425593_j41592463294467_3_alg».proof.Proof.Gen.Kernel.Skeleton
import proofs.«425593_j41592463294467_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array at the region's entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev r0_x : Rect S1024x768 := Rect.unit (s := S1024x768) ![0, 0] S1024x768.size inb_S1024x768_S1024x768_0_0
abbrev r0_w : Rect S768x768 := Rect.unit (s := S768x768) ![0, 0] S768x768.size inb_S768x768_S768x768_0_0
abbrev r0_b : Rect S1x768 := Rect.unit (s := S1x768) ![0, 0] S1x768.size inb_S1x768_S1x768_0_0
abbrev r0_o : Rect S1024x768 := Rect.unit (s := S1024x768) ![0, 0] S1024x768.size inb_S1024x768_S1024x768_0_0

/-- What the body leaves in the output window's buffer, from the three input blocks: its one store. -/
def out0_3 (x0 : Vec F S1024x768 .f32) (x1 : Vec F S768x768 .bf16) (x2 : Vec F S1x768 .f32) : Vec F S1024x768 .bf16 :=
  View.canon [⟨r0_o, k0_pay1 (View.ld x0 r0_x) (View.ld x1 r0_w) (View.ld x2 r0_b)⟩]

/-- That store covers the buffer. -/
theorem cover0_3 (p0 : Vec F S1024x768 .bf16) (y : S1024x768.Idx) :
    ∃ pc ∈ ([⟨r0_o, p0⟩] : List (View.Piece (Elt F) S1024x768 .bf16)), y ∈ pc.1.set :=
  View.cover_of_tiled [⟨r0_o, p0⟩] S1024x768.size (by rfl) y

/-- The region's proof data on core `c`: the arrays at the entry contents; after the body each input buffer at its
    block, the output buffer at `out0_3` of the blocks; the invariant untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

end Cert.Kernel.Hand

end
-- ==== Proof.K.Lin0Body.lean ====
/-
  Region 0's body obligation: at every grid point, from the input buffers at their blocks, the body runs to the
  output buffer at `out0_3` of the blocks, the inputs as they were.
-/
import proofs.«425593_j41592463294467_3_alg».proof.Proof.Gen.Kernel.Launch
import proofs.«425593_j41592463294467_3_alg».proof.Proof.Gen.Kernel.Skeleton
import proofs.«425593_j41592463294467_3_alg».proof.Proof.Gen.Kernel.Points
import proofs.«425593_j41592463294467_3_alg».proof.Proof.K.Lin0Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- Input window 0's current buffer holds its block at every point, fetched there or not, for any proof data whose
    array is the entry contents' and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (the weight matrix, fetched once: its block index never moves) likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 (the bias row, fetched once) likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's triple -/

set_option maxHeartbeats 1000000 in
/-- The kernel body on whole staging memrefs, the three inputs' at contents `x0 x1 x2` and the output's at anything,
    runs to the continuation holding the inputs' as they were and the output's at `out0_3 x0 x1 x2`: three loads, a
    load of the output buffer whose value is not used, and one store covering the buffer. -/
theorem sound_kernel0 (c : Dev nD) (E : Set ℕ) (i : grid0.Coords) (arg1 : Memref sig .tc .vmem S1024x768 .f32) (harg1 : arg1.IsWhole) (arg2 : Memref sig .tc .vmem S768x768 .bf16) (harg2 : arg2.IsWhole) (arg3 : Memref sig .tc .vmem S1x768 .f32) (harg3 : arg3.IsWhole) (arg4 : Memref sig .tc .vmem S1024x768 .bf16) (harg4 : arg4.IsWhole)
    (x0 : Vec F S1024x768 .f32) (x1 : Vec F S768x768 .bf16) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The inputs' buffers at the region's proof data -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Lin1Defs.lean ====
/-
  Region 1 (a row-block linear map): for each block of 1024 rows, the block of the input times the whole weight
  matrix plus the bias row, narrowed. Here: the blocks the region's body reads, what it leaves in the output
  window's buffer (one store covering the block), and the region's proof data at entry contents `V`.
-/
import proofs.«425593_j41592463294467_3_alg».proof.Proof.Gen.Kernel.Launch
import proofs.«425593_j41592463294467_3_alg».proof.Proof.Gen.Kernel.Skeleton
import proofs.«425593_j41592463294467_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array at the region's entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev r1_x : Rect S1024x768 := Rect.unit (s := S1024x768) ![0, 0] S1024x768.size inb_S1024x768_S1024x768_0_0
abbrev r1_w : Rect S768x1536 := Rect.unit (s := S768x1536) ![0, 0] S768x1536.size inb_S768x1536_S768x1536_0_0
abbrev r1_b : Rect S1x1536 := Rect.unit (s := S1x1536) ![0, 0] S1x1536.size inb_S1x1536_S1x1536_0_0
abbrev r1_o : Rect S1024x1536 := Rect.unit (s := S1024x1536) ![0, 0] S1024x1536.size inb_S1024x1536_S1024x1536_0_0

/-- What the body leaves in the output window's buffer, from the three input blocks: its one store. -/
def out1_3 (x0 : Vec F S1024x768 .f32) (x1 : Vec F S768x1536 .bf16) (x2 : Vec F S1x1536 .f32) : Vec F S1024x1536 .bf16 :=
  View.canon [⟨r1_o, k1_pay1 (View.ld x0 r1_x) (View.ld x1 r1_w) (View.ld x2 r1_b)⟩]

/-- That store covers the buffer. -/
theorem cover1_3 (p0 : Vec F S1024x1536 .bf16) (y : S1024x1536.Idx) :
    ∃ pc ∈ ([⟨r1_o, p0⟩] : List (View.Piece (Elt F) S1024x1536 .bf16)), y ∈ pc.1.set :=
  View.cover_of_tiled [⟨r1_o, p0⟩] S1024x1536.size (by rfl) y

/-- The region's proof data on core `c`: the arrays at the entry contents; after the body each input buffer at its
    block, the output buffer at `out1_3` of the blocks; the invariant untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

end Cert.Kernel.Hand

end
-- ==== Proof.K.Lin1Body.lean ====
/-
  Region 1's body obligation: at every grid point, from the input buffers at their blocks, the body runs to the
  output buffer at `out1_3` of the blocks, the inputs as they were.
-/
import proofs.«425593_j41592463294467_3_alg».proof.Proof.Gen.Kernel.Launch
import proofs.«425593_j41592463294467_3_alg».proof.Proof.Gen.Kernel.Skeleton
import proofs.«425593_j41592463294467_3_alg».proof.Proof.Gen.Kernel.Points
import proofs.«425593_j41592463294467_3_alg».proof.Proof.K.Lin1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- Input window 0's current buffer holds its block at every point, fetched there or not, for any proof data whose
    array is the entry contents' and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 (the weight matrix, fetched once: its block index never moves) likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 (the bias row, fetched once) likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's triple -/

set_option maxHeartbeats 1000000 in
/-- The kernel body on whole staging memrefs, the three inputs' at contents `x0 x1 x2` and the output's at anything,
    runs to the continuation holding the inputs' as they were and the output's at `out1_3 x0 x1 x2`: three loads, a
    load of the output buffer whose value is not used, and one store covering the buffer. -/
theorem sound_kernel1 (c : Dev nD) (E : Set ℕ) (i : grid1.Coords) (arg1 : Memref sig .tc .vmem S1024x768 .f32) (harg1 : arg1.IsWhole) (arg2 : Memref sig .tc .vmem S768x1536 .bf16) (harg2 : arg2.IsWhole) (arg3 : Memref sig .tc .vmem S1x1536 .f32) (harg3 : arg3.IsWhole) (arg4 : Memref sig .tc .vmem S1024x1536 .bf16) (harg4 : arg4.IsWhole)
    (x0 : Vec F S1024x768 .f32) (x1 : Vec F S768x1536 .bf16) (x2 : Vec F S1x1536 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The inputs' buffers at the region's proof data -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.AttnDefs.lean ====
/-
  Region 2 (attention fused with the output projection), one grid point per (batch b, head h), t = 8 b + h.
  At a point the body forms the head's scores q kᵀ, subtracts each row's maximum, exponentiates, sums each row,
  multiplies by v and divides by the row sums, multiplies by rows 96 h … 96 h + 95 of the transposed projection
  weight, and adds the result to a scratch accumulator that it first clears when h = 0; when h = 7 it adds the bias
  row to the accumulator and stores that as the batch's output block. Here: the blocks read at a point, the
  accumulator after each point (by recursion on the point), and the output block.
-/
import proofs.«425593_j41592463294467_3_alg».proof.Proof.Gen.Kernel.Launch
import proofs.«425593_j41592463294467_3_alg».proof.Proof.Gen.Kernel.Skeleton
import proofs.«425593_j41592463294467_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array at the region's entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rectangles the body loads and stores through: the whole q / k / v block, rows 96 h … 96 h + 95 of the
    projection weight, the whole bias row, the whole output block, the whole accumulator. -/
abbrev r2_q : Rect S1x1x1024x96 := Rect.unit (s := S1x1x1024x96) ![0, 0, 0, 0] S1x1x1024x96.size inb_S1x1x1024x96_S1x1x1024x96_0_0_0_0
abbrev r2_w (i : grid2.Coords) : Rect S768x768 := Rect.unit (s := S768x768) (k2_off1 i) S96x768.size (k2_off1_inb i)
abbrev r2_b : Rect S1x768 := Rect.unit (s := S1x768) ![0, 0] S1x768.size inb_S1x768_S1x768_0_0
abbrev r2_o : Rect S1x1024x768 := Rect.unit (s := S1x1024x768) ![0, 0, 0] S1x1024x768.size inb_S1x1024x768_S1x1024x768_0_0_0
abbrev r2_s : Rect S1024x768 := Rect.unit (s := S1024x768) ![0, 0] S1024x768.size inb_S1024x768_S1024x768_0_0

/-- The accumulator memref: the kernel's own scratch buffer, whole. -/
abbrev scM2 : Memref sig .tc .vmem S1024x768 .f32 := Memref.whole cc2_scratch0

/-- The accumulator after the body at a point with coordinates `i`, from the point's q, k, v blocks, the projection
    weight and what the accumulator held when the addition is made (`prev`: zero at a head-0 point, else what the point
    before left). -/
def acc2 (i : grid2.Coords) (xq xk xv : Vec F S1x1x1024x96 .bf16) (xw : Vec F S768x768 .bf16) (prev : Vec F S1024x768 .f32) :
    Vec F S1024x768 .f32 :=
  k2_pay1 (k2_pay4 (View.ld xq r2_q) (View.ld xk r2_q) (View.ld xv r2_q) (View.ld xw (r2_w i)) prev)

/-- THE ACCUMULATION: what the accumulator holds after the body at position `n`: at a head-0 point the point's
    contribution added to the zero fill, elsewhere added to what position `n - 1` left. -/
def scAt2 (c : Dev nD) : (n : ℕ) → n < cfg2.N → Vec F S1024x768 .f32
  | 0, hn => acc2 (grid2.coords ⟨0, hn⟩) (iblk2 V c 0 ⟨0, hn⟩) (iblk2 V c 1 ⟨0, hn⟩) (iblk2 V c 2 ⟨0, hn⟩) (iblk2 V c 3 ⟨0, hn⟩) (k2_pay3 (F := F))
  | n + 1, hn => acc2 (grid2.coords ⟨n + 1, hn⟩) (iblk2 V c 0 ⟨n + 1, hn⟩) (iblk2 V c 1 ⟨n + 1, hn⟩) (iblk2 V c 2 ⟨n + 1, hn⟩) (iblk2 V c 3 ⟨n + 1, hn⟩)
      (if (n + 1) % 8 = 0 then (k2_pay3 (F := F)) else scAt2 c n (Nat.lt_of_succ_lt hn))

theorem scAt2_zero (c : Dev nD) (hn : 0 < cfg2.N) :
    scAt2 V c 0 hn = acc2 (grid2.coords ⟨0, hn⟩) (iblk2 V c 0 ⟨0, hn⟩) (iblk2 V c 1 ⟨0, hn⟩) (iblk2 V c 2 ⟨0, hn⟩) (iblk2 V c 3 ⟨0, hn⟩) (k2_pay3 (F := F)) := rfl

theorem scAt2_succ (c : Dev nD) (n : ℕ) (hn : n + 1 < cfg2.N) :
    scAt2 V c (n + 1) hn = acc2 (grid2.coords ⟨n + 1, hn⟩) (iblk2 V c 0 ⟨n + 1, hn⟩) (iblk2 V c 1 ⟨n + 1, hn⟩) (iblk2 V c 2 ⟨n + 1, hn⟩) (iblk2 V c 3 ⟨n + 1, hn⟩)
      (if (n + 1) % 8 = 0 then (k2_pay3 (F := F)) else scAt2 V c n (Nat.lt_of_succ_lt hn)) := rfl

/-- The output block a head-7 point stores: the accumulator plus the bias row, as the one store that covers the block. -/
def out2_5 (sc : Vec F S1024x768 .f32) (xb : Vec F S1x768 .f32) : Vec F S1x1024x768 .f32 :=
  View.canon [⟨r2_o, k2_pay2 sc (View.ld xb r2_b)⟩]

/-- That store covers the block. -/
theorem cover2_5 (p0 : Vec F S1x1024x768 .f32) (y : S1x1024x768.Idx) :
    ∃ pc ∈ ([⟨r2_o, p0⟩] : List (View.Piece (Elt F) S1x1024x768 .f32)), y ∈ pc.1.set :=
  View.cover_of_tiled [⟨r2_o, p0⟩] S1x1024x768.size (by rfl) y

end Cert.Kernel.Hand

end
-- ==== Proof.K.AttnDat.lean ====
/-
  Region 2's proof data: the arrays at the entry contents; after the body each input buffer at its block and the
  output buffer at the stored block; the invariant, which from the first point on holds the accumulator at what the
  point before left in it.
-/
import proofs.«425593_j41592463294467_3_alg».proof.Proof.Gen.Kernel.Launch
import proofs.«425593_j41592463294467_3_alg».proof.Proof.Gen.Kernel.Skeleton
import proofs.«425593_j41592463294467_3_alg».proof.Proof.Gen.Kernel.Points
import proofs.«425593_j41592463294467_3_alg».proof.Proof.K.AttnDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The core's scoped buffers that are neither a staging buffer of this region nor its accumulator (the other two
    regions' staging buffers), each whole at some contents. -/
def others2 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f))

/-- The region invariant before position `n`: before the first point what the launch hands over (every scoped buffer
    no window stages at some contents, the generator register at some state); afterwards the accumulator at what
    position `n - 1` left, the other scoped buffers and the register as before. -/
def PhiS2 (c : Dev nD) : (n : ℕ) → n ≤ cfg2.N → sProp 𝕄
  | 0, _ => Pipeline.ΦA spec2 c
  | n + 1, hn => iprop(owns (c : Thread nD τ) scM2 fullShare (scAt2 V c n hn) ∗ others2 (F := F) c ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(owns (c : Thread nD τ) scM2 fullShare (scAt2 V c n hn) ∗ others2 (F := F) c ∗ (∃ r, prngReg c r)) := rfl

theorem PhiS2_pos (c : Dev nD) (n : ℕ) (h : n ≤ cfg2.N) (hz : n ≠ 0) :
    PhiS2 V c n h = iprop(owns (c : Thread nD τ) scM2 fullShare (scAt2 V c (n - 1) (by omega)) ∗ others2 (F := F) c ∗ (∃ r, prngReg c r)) := by
  cases n with
  | zero => exact absurd rfl hz
  | succ n => rfl

/-- The region's proof data on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (scAt2 V c t.val t.isLt) (iblk2 V c 4 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (scAt2 V c t.val t.isLt) (iblk2 V c 4 t) := by dsimp only [dat2]

/-- The invariant at a point's start, restated at the point's number. -/
theorem PhiS2_castSucc (c : Dev nD) (t : Fin cfg2.N) :
    (dat2 V c).Φ t.castSucc = PhiS2 V c t.val (Nat.le_of_lt t.isLt) := by
  dsimp only [dat2]; simp only [Fin.coe_castSucc]

end Cert.Kernel.Hand

end
-- ==== Proof.K.AttnRuns.lean ====
/-
  Region 2: what the three runs of its body share — the two conditions of the body in closed form over the grid,
  where the output window is idle, the launch's invariant with the accumulator set apart, and the input staging
  buffers' contents at every point.
-/
import proofs.«425593_j41592463294467_3_alg».proof.Proof.Gen.Kernel.Launch
import proofs.«425593_j41592463294467_3_alg».proof.Proof.Gen.Kernel.Skeleton
import proofs.«425593_j41592463294467_3_alg».proof.Proof.Gen.Kernel.Points
import proofs.«425593_j41592463294467_3_alg».proof.Proof.K.AttnDat
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditions, in closed form -/

/-- The condition of the body's first conditional (the head is 0), from the grid coordinates. -/
abbrev cond2_0 (i : grid2.Coords) : Prop := (Scalar.cmpi .ne (Scalar.extui (Scalar.cmpi .eq (BitVec.ofNat 32 (i 1).val) 0#32)) 0#32) = 1#1
/-- It holds at the points ≡ 0 (mod 8): decided over the grid. -/
theorem hcond2_0 : ∀ t : Fin cfg2.N, cond2_0 (grid2.coords t) ↔ t.val % 8 = 0 :=
  (by decide +kernel : ∀ t : Fin grid2.N, cond2_0 (grid2.coords t) ↔ t.val % 8 = 0)

/-- The condition of the body's second conditional (the head is 7). -/
abbrev cond2_1 (i : grid2.Coords) : Prop := k2_cond2 i = 1#1
/-- It holds at the points ≡ 7 (mod 8): decided over the grid. -/
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

/-- The five inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
/-- At a head-0 point the output window is idle (nothing is stored into it) -/
theorem idleAt2_5_A : ∀ t : Fin cfg2.N, cond2_0 (grid2.coords t) → ¬cond2_1 (grid2.coords t) → cfg2.idle 5 (grid2.coords t) = true := by decide +kernel
/-- and its block is not written back there. -/
theorem noFlush2_5_A : ∀ t : Fin cfg2.N, cond2_0 (grid2.coords t) → ¬cond2_1 (grid2.coords t) → (cfg2.win 5).flush t = false := by decide +kernel
/-- The same at the points of heads 1 … 6. -/
theorem idleAt2_5_B : ∀ t : Fin cfg2.N, ¬cond2_0 (grid2.coords t) → ¬cond2_1 (grid2.coords t) → cfg2.idle 5 (grid2.coords t) = true := by decide +kernel
theorem noFlush2_5_B : ∀ t : Fin cfg2.N, ¬cond2_0 (grid2.coords t) → ¬cond2_1 (grid2.coords t) → (cfg2.win 5).flush t = false := by decide +kernel
/-- At a head-7 point the output window is live: the body stores the block. -/
theorem liveAt2_5_C : ∀ t : Fin cfg2.N, ¬cond2_0 (grid2.coords t) → cond2_1 (grid2.coords t) → cfg2.idle 5 (grid2.coords t) = false := by decide +kernel

/-! ## What the launch hands the region, with the accumulator set apart -/

/-- The class's invariant is: the accumulator as a memref owned at some contents, the other regions' staging buffers,
    the generator register. -/
theorem PhiA2_eq (c : Dev nD) :
    (Pipeline.ΦA spec2 c : sProp 𝕄)
      = iprop((∃ d, owns (c : Thread nD τ) scM2 fullShare d) ∗ others2 (F := F) c ∗ (∃ r, prngReg c r)) := by
  unfold Pipeline.ΦA; rw [scopedRest2_eq]; unfold others2; simp only [scM2, owns_whole]
  refine BI.equiv_iff.mp ⟨?_, ?_⟩
  · show (_ : sProp 𝕄) ⊢ _
    iintro ⟨⟨H1, H2, H3, H4, H5, H6, H7, H8, H9, H10, H11, H12, HS⟩, Hg⟩
    isplitl [HS]; · iexact HS
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · iexact Hg
  · show (_ : sProp 𝕄) ⊢ _
    iintro ⟨HS, ⟨H1, H2, H3, H4, H5, H6, H7, H8, H9, H10, H11, H12⟩, Hg⟩
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact HS
    · iexact Hg

/-! ## The inputs' staging buffers hold their blocks -/

/-- Input window 0's current staging buffer holds its block at every point, fetched there or not, for any proof
    data whose array is the entry contents and whose body leaves the block in place: unfetched, the block index has
    not moved since the point that fetched it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is the entry contents and whose body leaves the block in place: unfetched, the block index has
    not moved since the point that fetched it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is the entry contents and whose body leaves the block in place: unfetched, the block index has
    not moved since the point that fetched it. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is the entry contents and whose body leaves the block in place: unfetched, the block index has
    not moved since the point that fetched it. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is the entry contents and whose body leaves the block in place: unfetched, the block index has
    not moved since the point that fetched it. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## Reading back a buffer whose last store covers it -/

/-- The zero offsets of a whole-buffer rectangle, however spelt. -/
theorem hz2 : (![0, 0] : Fin 2 → Nat) = fun _ => 0 := by funext a; fin_cases a <;> rfl
theorem hz3 : (![0, 0, 0] : Fin 3 → Nat) = fun _ => 0 := by funext a; fin_cases a <;> rfl

/-- After a list of stores whose LAST one is through the whole-shape rectangle at zero offsets, the buffer reads that
    store's payload, whatever the earlier stores and the prior contents were. -/
theorem read_writes_cons_unit_zero {sig' : RefSig} {κ : Kind} {sp : Space} {S : Shape} {e : EltTy}
    (v : View sig' κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

end Cert.Kernel.Hand

end
-- ==== Proof.K.AttnRunA.lean ====
/-
  Region 2's body at a head-0 point: the accumulator is cleared, read back, the head's contribution added and stored;
  nothing is stored into the output buffer.
-/
import proofs.«425593_j41592463294467_3_alg».proof.Proof.K.AttnRuns
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- THE BODY AT A HEAD-0 POINT (first conditional taken, second not): on whole staging memrefs holding the point's
    q, k, v blocks, the projection weight and the bias row, the output buffer at any contents (handed back untouched)
    and the accumulator at any contents, the body runs and leaves the accumulator at the point's contribution added to
    the zero fill. -/
theorem kernelRun2_A (c : Dev nD) (i : grid2.Coords) (arg2 : Memref sig .tc .vmem S1x1x1024x96 .bf16) (harg2 : arg2.IsWhole) (arg3 : Memref sig .tc .vmem S1x1x1024x96 .bf16) (harg3 : arg3.IsWhole) (arg4 : Memref sig .tc .vmem S1x1x1024x96 .bf16) (harg4 : arg4.IsWhole) (arg5 : Memref sig .tc .vmem S768x768 .bf16) (harg5 : arg5.IsWhole) (arg6 : Memref sig .tc .vmem S1x768 .f32) (harg6 : arg6.IsWhole) (arg7 : Memref sig .tc .vmem S1x1024x768 .f32) (harg7 : arg7.IsWhole) (arg8 : Memref sig .tc .vmem S1024x768 .f32) (harg8 : arg8.IsWhole) (hc0 : cond2_0 i) (hc1 : ¬cond2_1 i)
    (x0 x1 x2 : Vec F S1x1x1024x96 .bf16) (x3 : Vec F S768x768 .bf16) (x4 : Vec F S1x768 .f32) (xi5 : Vec F S1x1024x768 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xi5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xi5
            ∗ owns (c : Thread nD τ) arg8 fullShare (acc2 i x0 x1 x2 x3 (k2_pay3 (F := F)))) -∗ K ⟨⟩))
      ⊢ wp frame (wpE (defs₀ (F := F)) Variants.none c none) E (cc2__attn_proj_kernel i arg2 harg2 arg3 harg3 arg4 harg4 arg5 harg5 arg6 harg6 arg7 harg7 arg8 harg8) K := by
  simp only [cc2__attn_proj_kernel_eq_skeleton]; unfold cc2__attn_proj_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact HS0
  ipureintro
  refine (read_writes_cons_unit_zero (S := S1024x768) _ _ hz2 _ _ _).trans ?_
  unfold acc2
  sl_unfold_run_names
  simp only [View.readAt_eq_ld, harg2.read_unread, harg3.read_unread, harg4.read_unread, harg5.read_unread, View.readCov_unit_zero (S := S1024x768) _ hz2]
  <;> rfl

end Cert.Kernel.Hand

end
-- ==== Proof.K.AttnRunB.lean ====
/-
  Region 2's body at a point of heads 1 … 6: the accumulator is read at what the point before left, the head's
  contribution added and stored; nothing is stored into the output buffer.
-/
import proofs.«425593_j41592463294467_3_alg».proof.Proof.K.AttnRuns
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- THE BODY AT A POINT OF HEADS 1 … 6 (neither conditional taken): on whole staging memrefs holding the point's
    q, k, v blocks, the projection weight and the bias row, the output buffer at any contents (handed back untouched)
    and the accumulator at what the point before left (`xs`), the body runs and leaves the accumulator at the point's
    contribution added to `xs`. -/
theorem kernelRun2_B (c : Dev nD) (i : grid2.Coords) (arg2 : Memref sig .tc .vmem S1x1x1024x96 .bf16) (harg2 : arg2.IsWhole) (arg3 : Memref sig .tc .vmem S1x1x1024x96 .bf16) (harg3 : arg3.IsWhole) (arg4 : Memref sig .tc .vmem S1x1x1024x96 .bf16) (harg4 : arg4.IsWhole) (arg5 : Memref sig .tc .vmem S768x768 .bf16) (harg5 : arg5.IsWhole) (arg6 : Memref sig .tc .vmem S1x768 .f32) (harg6 : arg6.IsWhole) (arg7 : Memref sig .tc .vmem S1x1024x768 .f32) (harg7 : arg7.IsWhole) (arg8 : Memref sig .tc .vmem S1024x768 .f32) (harg8 : arg8.IsWhole) (hc0 : ¬cond2_0 i) (hc1 : ¬cond2_1 i)
    (x0 x1 x2 : Vec F S1x1x1024x96 .bf16) (x3 : Vec F S768x768 .bf16) (x4 : Vec F S1x768 .f32) (xs : Vec F S1024x768 .f32) (xi5 : Vec F S1x1024x768 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xi5
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xi5
            ∗ owns (c : Thread nD τ) arg8 fullShare (acc2 i x0 x1 x2 x3 xs)) -∗ K ⟨⟩))
      ⊢ wp frame (wpE (defs₀ (F := F)) Variants.none c none) E (cc2__attn_proj_kernel i arg2 harg2 arg3 harg3 arg4 harg4 arg5 harg5 arg6 harg6 arg7 harg7 arg8 harg8) K := by
  simp only [cc2__attn_proj_kernel_eq_skeleton]; unfold cc2__attn_proj_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact HS0
  ipureintro
  refine (read_writes_cons_unit_zero (S := S1024x768) _ _ hz2 _ _ _).trans ?_
  unfold acc2
  sl_unfold_run_names
  simp only [View.readAt_eq_ld, harg2.read_unread, harg3.read_unread, harg4.read_unread, harg5.read_unread, harg8.read_unread, View.ld_unit_zero (S := S1024x768) hz2]
  <;> rfl

end Cert.Kernel.Hand

end
-- ==== Proof.K.AttnRunC.lean ====
/-
  Region 2's body at a head-7 point: the accumulator is read at what the point before left, the head's contribution
  added and stored; then the accumulator is read back, the bias row added, and the result stored as the output block.
-/
import proofs.«425593_j41592463294467_3_alg».proof.Proof.K.AttnRuns
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- THE BODY AT A HEAD-7 POINT (second conditional taken, first not): on whole staging memrefs holding the point's
    q, k, v blocks, the projection weight and the bias row, the output buffer at any contents and the accumulator at
    what the point before left (`xs`), the body runs and leaves the accumulator at the point's contribution added to
    `xs`, and the output buffer at that plus the bias row. -/
theorem kernelRun2_C (c : Dev nD) (i : grid2.Coords) (arg2 : Memref sig .tc .vmem S1x1x1024x96 .bf16) (harg2 : arg2.IsWhole) (arg3 : Memref sig .tc .vmem S1x1x1024x96 .bf16) (harg3 : arg3.IsWhole) (arg4 : Memref sig .tc .vmem S1x1x1024x96 .bf16) (harg4 : arg4.IsWhole) (arg5 : Memref sig .tc .vmem S768x768 .bf16) (harg5 : arg5.IsWhole) (arg6 : Memref sig .tc .vmem S1x768 .f32) (harg6 : arg6.IsWhole) (arg7 : Memref sig .tc .vmem S1x1024x768 .f32) (harg7 : arg7.IsWhole) (arg8 : Memref sig .tc .vmem S1024x768 .f32) (harg8 : arg8.IsWhole) (hc0 : ¬cond2_0 i) (hc1 : cond2_1 i)
    (x0 x1 x2 : Vec F S1x1x1024x96 .bf16) (x3 : Vec F S768x768 .bf16) (x4 : Vec F S1x768 .f32) (xs : Vec F S1024x768 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out2_5 (acc2 i x0 x1 x2 x3 xs) x4)
            ∗ owns (c : Thread nD τ) arg8 fullShare (acc2 i x0 x1 x2 x3 xs)) -∗ K ⟨⟩))
      ⊢ wp frame (wpE (defs₀ (F := F)) Variants.none c none) E (cc2__attn_proj_kernel i arg2 harg2 arg3 harg3 arg4 harg4 arg5 harg5 arg6 harg6 arg7 harg7 arg8 harg8) K := by
  simp only [cc2__attn_proj_kernel_eq_skeleton]; unfold cc2__attn_proj_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
  obtain rfl := harg2.eq_unread hf0; obtain rfl := harg3.eq_unread hf1; obtain rfl := harg4.eq_unread hf2
  obtain rfl := harg5.eq_unread hf3; obtain rfl := harg6.eq_unread hf4
  obtain rfl := harg8.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    refine (read_writes_cons_unit_zero (S := S1x1024x768) _ _ hz3 _ _ _).trans ?_
    unfold out2_5 acc2
    rw [View.canon_unit_zero (S := S1x1024x768) hz3]
    sl_unfold_run_names
    simp only [View.readAt_eq_ld, harg2.read_unread, harg3.read_unread, harg4.read_unread, harg5.read_unread, harg6.read_unread, harg8.read_unread, View.ld_unit_zero (S := S1024x768) hz2, View.readCov_unit_zero (S := S1024x768) _ hz2]
    <;> rfl
  iexists _; isplitr
  swap; · iexact HS0
  ipureintro
  refine (read_writes_cons_unit_zero (S := S1024x768) _ _ hz2 _ _ _).trans ?_
  unfold acc2
  sl_unfold_run_names
  simp only [View.readAt_eq_ld, harg2.read_unread, harg3.read_unread, harg4.read_unread, harg5.read_unread, harg6.read_unread, harg8.read_unread, View.ld_unit_zero (S := S1024x768) hz2, View.readCov_unit_zero (S := S1024x768) _ hz2]
  <;> rfl

end Cert.Kernel.Hand

end
-- ==== Proof.K.AttnBody.lean ====
/-
  Region 2's body obligation, and the invariant's two ends.
-/
import proofs.«425593_j41592463294467_3_alg».proof.Proof.K.AttnRunA
import proofs.«425593_j41592463294467_3_alg».proof.Proof.K.AttnRunB
import proofs.«425593_j41592463294467_3_alg».proof.Proof.K.AttnRunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulator after a point, by the point's head -/

/-- At a head-0 point the contribution is added to the zero fill. -/
theorem scAt2_A (c : Dev nD) (t : Fin cfg2.N) (h0 : t.val % 8 = 0) :
    scAt2 V c t.val t.isLt = acc2 (grid2.coords t) (iblk2 V c 0 t) (iblk2 V c 1 t) (iblk2 V c 2 t) (iblk2 V c 3 t) (k2_pay3 (F := F)) := by
  obtain ⟨n, hn⟩ := t
  cases n with
  | zero => rfl
  | succ n => exact (scAt2_succ V c n hn).trans (by rw [if_pos (show (n + 1) % 8 = 0 from h0)])

/-- At any other point it is added to what the point before left. -/
theorem scAt2_B (c : Dev nD) (t : Fin cfg2.N) (h0 : ¬t.val % 8 = 0) :
    scAt2 V c t.val t.isLt = acc2 (grid2.coords t) (iblk2 V c 0 t) (iblk2 V c 1 t) (iblk2 V c 2 t) (iblk2 V c 3 t)
      (scAt2 V c (t.val - 1) (Nat.lt_of_le_of_lt (Nat.sub_le _ _) t.isLt)) := by
  obtain ⟨n, hn⟩ := t
  cases n with
  | zero => exact absurd (Nat.zero_mod _) h0
  | succ n => exact (scAt2_succ V c n hn).trans (by rw [if_neg (show ¬(n + 1) % 8 = 0 from h0)] <;> rfl)

/-! ## The body obligation, at a generic point -/

/-- Each window's current staging memref at point `t`, as the pipeline passes it to the body, and its wholeness. -/
abbrev ms2_0 (t : Fin cfg2.N) : Memref sig .tc .vmem S1x1x1024x96 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x1x1024x96 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1x1024x96 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S768x768 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x768 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x1024x768 .f32 := win2_5.stage (cfg2.slots t 5)
abbrev hs2_5 (t : Fin cfg2.N) : (ms2_5 t).IsWhole := hstage2_5 ((cfg2.slots t 5).cast nbuf2_5)

/-- What the body is called with at point `t`: the invariant, the (empty) debt, each window's current buffer. -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- What it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point: the inputs' buffers hold their blocks; the point's head says which of the three runs
    applies; the invariant hands the accumulator at what the point before left (at anything before the first point) and
    takes it back at this point's contents; the output buffer is handed back untouched except at a head-7 point, where
    it holds the stored block; nothing is owed throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  by_cases h0 : t.val % 8 = 0
  · by_cases h1 : t.val % 8 = 7
    · exfalso; omega
    · rw [Dat.leavesExact_idle (dat2 V c) 5 t (idleAt2_5_A t ((hcond2_0 t).mpr h0) (fun h => h1 ((hcond2_1 t).mp h))) (noFlush2_5_A t ((hcond2_0 t).mpr h0) (fun h => h1 ((hcond2_1 t).mp h)))]
      rw [scAt2_A V c t h0]
      by_cases hz : t.val = 0
      · rw [PhiS2_castSucc V c t, PhiS2_zero V c _ _ hz, PhiA2_eq]
        iintro ⟨⟨HS0, Ho, Hg⟩, Howe, ⟨%d0, H0⟩, ⟨%d1, H1⟩, ⟨%d2, H2⟩, ⟨%d3, H3⟩, ⟨%d4, H4⟩, ⟨%d5, H5⟩⟩
        iapply (kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, HS0⟩
        isplitl [HS0 Ho Hg]
        · isplitl [HS0]; · iexact HS0
          isplitl [Ho]; · iexact Ho
          iexact Hg
        isplitl [Howe]; · iexact Howe
        isplitl [H0]; · iexact H0
        isplitl [H1]; · iexact H1
        isplitl [H2]; · iexact H2
        isplitl [H3]; · iexact H3
        isplitl [H4]; · iexact H4
        iexists _; iexact H5
      · rw [PhiS2_castSucc V c t, PhiS2_pos V c _ _ hz]
        iintro ⟨⟨HS0, Ho, Hg⟩, Howe, ⟨%d0, H0⟩, ⟨%d1, H1⟩, ⟨%d2, H2⟩, ⟨%d3, H3⟩, ⟨%d4, H4⟩, ⟨%d5, H5⟩⟩
        iapply (kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, HS0⟩
        isplitl [HS0 Ho Hg]
        · isplitl [HS0]; · iexact HS0
          isplitl [Ho]; · iexact Ho
          iexact Hg
        isplitl [Howe]; · iexact Howe
        isplitl [H0]; · iexact H0
        isplitl [H1]; · iexact H1
        isplitl [H2]; · iexact H2
        isplitl [H3]; · iexact H3
        isplitl [H4]; · iexact H4
        iexists _; iexact H5
  · have hz : t.val ≠ 0 := fun e => h0 (by rw [e])
    rw [scAt2_B V c t h0]
    rw [PhiS2_castSucc V c t, PhiS2_pos V c _ _ hz]
    by_cases h1 : t.val % 8 = 7
    · rw [show (dat2 V c).leavesExact 5 t = owns (c : Thread nD τ) (ms2_5 t) fullShare ((dat2 V c).after 5 t) from by
        unfold Dat.leavesExact; rw [liveAt2_5_C t (fun h => h0 ((hcond2_0 t).mp h)) ((hcond2_1 t).mpr h1)], after2_5, scAt2_B V c t h0]
      · iintro ⟨⟨HS0, Ho, Hg⟩, Howe, ⟨%d0, H0⟩, ⟨%d1, H1⟩, ⟨%d2, H2⟩, ⟨%d3, H3⟩, ⟨%d4, H4⟩, ⟨%d5, H5⟩⟩
        iapply (kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (scAt2 V c (t.val - 1) (Nat.lt_of_le_of_lt (Nat.sub_le _ _) t.isLt)) Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, H5, HS0⟩
        isplitl [HS0 Ho Hg]
        · isplitl [HS0]; · iexact HS0
          isplitl [Ho]; · iexact Ho
          iexact Hg
        isplitl [Howe]; · iexact Howe
        isplitl [H0]; · iexact H0
        isplitl [H1]; · iexact H1
        isplitl [H2]; · iexact H2
        isplitl [H3]; · iexact H3
        isplitl [H4]; · iexact H4
        iexact H5
    · rw [Dat.leavesExact_idle (dat2 V c) 5 t (idleAt2_5_B t (fun h => h0 ((hcond2_0 t).mp h)) (fun h => h1 ((hcond2_1 t).mp h))) (noFlush2_5_B t (fun h => h0 ((hcond2_0 t).mp h)) (fun h => h1 ((hcond2_1 t).mp h)))]
      · iintro ⟨⟨HS0, Ho, Hg⟩, Howe, ⟨%d0, H0⟩, ⟨%d1, H1⟩, ⟨%d2, H2⟩, ⟨%d3, H3⟩, ⟨%d4, H4⟩, ⟨%d5, H5⟩⟩
        iapply (kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (scAt2 V c (t.val - 1) (Nat.lt_of_le_of_lt (Nat.sub_le _ _) t.isLt)) _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, HS0⟩
        isplitl [HS0 Ho Hg]
        · isplitl [HS0]; · iexact HS0
          isplitl [Ho]; · iexact Ho
          iexact Hg
        isplitl [Howe]; · iexact Howe
        isplitl [H0]; · iexact H0
        isplitl [H1]; · iexact H1
        isplitl [H2]; · iexact H2
        isplitl [H3]; · iexact H3
        isplitl [H4]; · iexact H4
        iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the launch's back: the accumulator's contents are forgotten. -/
theorem Phi_out2 (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨HS0, Ho, Hg⟩
  isplitl [HS0]
  · iexists _; iexact HS0
  isplitl [Ho]; · iexact Ho
  iexact Hg

/-- After the last point the invariant gives it back: the accumulator's contents are forgotten. -/
theorem hout2 (c : Dev nD) : (dat2 V c).Φ (Fin.last cfg2.N) ⊢ (Pipeline.ΦA spec2 c : sProp 𝕄) :=
  Phi_out2 V c _ (by rw [Fin.val_last]; have : cfg2.N = 64 := N_2; omega)

end Cert.Kernel.Hand

end
-- ==== Proof.K.Run.lean ====
/-
  The run: the program's six segments (three host stretches, three kernel regions) launched as one program. The buffer
  contents at every segment boundary are a fold from the launch memory: a host stretch's results computed from the
  boundary before it; a region's windows' arrays at what its pipeline leaves, every other buffer as it was. Each region
  is a segment over the thread state "every unscoped buffer at the boundary's contents, the generator register at some
  state, nothing owed"; the launch over the segments then reads the last boundary's contents off the final state.
-/
import proofs.«425593_j41592463294467_3_alg».proof.Proof.Gen.Kernel.Launch
import proofs.«425593_j41592463294467_3_alg».proof.Proof.Gen.Kernel.Skeleton
import proofs.«425593_j41592463294467_3_alg».proof.Proof.Gen.Kernel.Points
import proofs.«425593_j41592463294467_3_alg».proof.Proof.K.Lin0Body
import proofs.«425593_j41592463294467_3_alg».proof.Proof.K.Lin1Body
import proofs.«425593_j41592463294467_3_alg».proof.Proof.K.AttnBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The host stretches: what each writes, and what it keeps -/

/-- The references the first host stretch writes: each operation's result. -/
abbrev host0_W : List (Ref sig .tc) := [main_v0, main_v1, main_v2, main_cst, main_v3, main_v4, main_v5, main_v6, main_v7, main_v8, main_v9, main_cst_0, main_v10, main_cst_1, main_v11, main_v12]
theorem host0_writes : (hostOps0 : List (HloOp τ sig (Elt F))).Forall fun op => op.writes ⊆ (host0_W.map (Proc.devRef (τ := τ) .tc)).toFinset := by
  simp only [List.Forall, StableHlo.nullary_writes, StableHlo.unary_writes, StableHlo.binary_writes, StableHlo.reshape_writes,
    Finset.singleton_subset_iff, List.mem_toFinset]
  repeat' apply And.intro
  all_goals exact List.mem_map_of_mem (by decide)
/-- A reference the stretch does not write keeps its contents through it, from any contents. -/
theorem host0_keeps (W : Valuation τ sig (Elt F)) (r : Ref sig .tc) (h : r ∉ host0_W) :
    StableHlo.after hostOps0 W (Proc.devRef .tc r) = W (Proc.devRef .tc r) :=
  StableHlo.after_of_writes_sub hostOps0 W host0_writes h
/-- No operation of the stretch allocates a buffer. -/
theorem hostOps0_fresh : (hostOps0 : List (HloOp τ sig (Elt F))).Forall fun op => op.fresh = ∅ := by
  simp only [List.Forall]; repeat' constructor

/-- The references the second host stretch writes: each operation's result. -/
abbrev host1_W : List (Ref sig .tc) := [main_v14]
theorem host1_writes : (hostOps1 : List (HloOp τ sig (Elt F))).Forall fun op => op.writes ⊆ (host1_W.map (Proc.devRef (τ := τ) .tc)).toFinset := by
  simp only [List.Forall, StableHlo.nullary_writes, StableHlo.unary_writes, StableHlo.binary_writes, StableHlo.reshape_writes,
    Finset.singleton_subset_iff, List.mem_toFinset]
  repeat' apply And.intro
  all_goals exact List.mem_map_of_mem (by decide)
/-- A reference the stretch does not write keeps its contents through it, from any contents. -/
theorem host1_keeps (W : Valuation τ sig (Elt F)) (r : Ref sig .tc) (h : r ∉ host1_W) :
    StableHlo.after hostOps1 W (Proc.devRef .tc r) = W (Proc.devRef .tc r) :=
  StableHlo.after_of_writes_sub hostOps1 W host1_writes h
/-- No operation of the stretch allocates a buffer. -/
theorem hostOps1_fresh : (hostOps1 : List (HloOp τ sig (Elt F))).Forall fun op => op.fresh = ∅ := by
  simp only [List.Forall]; repeat' constructor

/-- The references the third host stretch writes: each operation's result. -/
abbrev host2_W : List (Ref sig .tc) := [main_v16, main_v17, main_v18, main_v19, main_v20, main_v21, main_v22, main_v23, main_v24]
theorem host2_writes : (hostOps2 : List (HloOp τ sig (Elt F))).Forall fun op => op.writes ⊆ (host2_W.map (Proc.devRef (τ := τ) .tc)).toFinset := by
  simp only [List.Forall, StableHlo.nullary_writes, StableHlo.unary_writes, StableHlo.binary_writes, StableHlo.reshape_writes,
    Finset.singleton_subset_iff, List.mem_toFinset]
  repeat' apply And.intro
  all_goals exact List.mem_map_of_mem (by decide)
/-- A reference the stretch does not write keeps its contents through it, from any contents. -/
theorem host2_keeps (W : Valuation τ sig (Elt F)) (r : Ref sig .tc) (h : r ∉ host2_W) :
    StableHlo.after hostOps2 W (Proc.devRef .tc r) = W (Proc.devRef .tc r) :=
  StableHlo.after_of_writes_sub hostOps2 W host2_writes h
/-- No operation of the stretch allocates a buffer. -/
theorem hostOps2_fresh : (hostOps2 : List (HloOp τ sig (Elt F))).Forall fun op => op.fresh = ∅ := by
  simp only [List.Forall]; repeat' constructor

/-! # The buffer contents at each segment boundary: a fold through the program from the launch memory -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same, read at the TensorCore's references (what region 0's proof data are stated at). -/
abbrev V1 : (c : Dev nD) → (b : Ref sig .tc) → Buf (Elt F) ((c : Thread nD τ).loc b) := fun c b => W1 m ρ c b
theorem V1_def (c : Dev nD) (b : Ref sig .tc) :
    V1 m ρ c b = StableHlo.after hostOps0 (W0 m ρ c) (Proc.devRef .tc b) := rfl

/-- At region 0's exit: its windows' arrays at what the pipeline leaves in them (an input as entered, the output with
    every write-back folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references (region 0's exit contents). -/
abbrev V2 : (c : Dev nD) → (b : Ref sig .tc) → Buf (Elt F) ((c : Thread nD τ).loc b) := fun c b => W2 m ρ c b
/-- At the exit each window's array holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
/-- The same, read at the TensorCore's references (what region 1's proof data are stated at). -/
abbrev V3 : (c : Dev nD) → (b : Ref sig .tc) → Buf (Elt F) ((c : Thread nD τ).loc b) := fun c b => W3 m ρ c b
theorem V3_def (c : Dev nD) (b : Ref sig .tc) :
    V3 m ρ c b = StableHlo.after hostOps1 (W2 m ρ c) (Proc.devRef .tc b) := rfl

/-- At region 1's exit: its windows' arrays at what the pipeline leaves in them (an input as entered, the output with
    every write-back folded in), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the TensorCore's references (region 1's exit contents). -/
abbrev V4 : (c : Dev nD) → (b : Ref sig .tc) → Buf (Elt F) ((c : Thread nD τ).loc b) := fun c b => W4 m ρ c b
/-- At the exit each window's array holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (region 2's entry). -/
abbrev W5 : Dev nD → Valuation τ sig (Elt F) := fun c => StableHlo.after hostOps2 (W4 m ρ c)
/-- The same, read at the TensorCore's references (what region 2's proof data are stated at). -/
abbrev V5 : (c : Dev nD) → (b : Ref sig .tc) → Buf (Elt F) ((c : Thread nD τ).loc b) := fun c b => W5 m ρ c b
theorem V5_def (c : Dev nD) (b : Ref sig .tc) :
    V5 m ρ c b = StableHlo.after hostOps2 (W4 m ρ c) (Proc.devRef .tc b) := rfl

/-- At region 2's exit: its windows' arrays at what the pipeline leaves in them (an input as entered, the output with
    every write-back folded in), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same, read at the TensorCore's references (region 2's exit contents). -/
abbrev V6 : (c : Dev nD) → (b : Ref sig .tc) → Buf (Elt F) ((c : Thread nD τ).loc b) := fun c b => W6 m ρ c b
/-- At the exit each window's array holds what the pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## A buffer no stretch writes and no region has as a window ends as launched -/

theorem W6_untouched (c : Dev nD) (r : Ref sig .tc)
    (h5 : ∀ w, Pipeline.arrRef spec2 w ≠ r) (h4 : r ∉ host2_W) (h3 : ∀ w, Pipeline.arrRef spec1 w ≠ r) (h2 : r ∉ host1_W)
    (h1 : ∀ w, Pipeline.arrRef spec0 w ≠ r) (h0 : r ∉ host0_W) :
    W6 m ρ c (Proc.devRef .tc r) = m ((c : Thread nD τ).loc r) :=
  calc W6 m ρ c (Proc.devRef .tc r)
    _ = W5 m ρ c (Proc.devRef .tc r) := W6_of_ne m ρ c r h5
    _ = W4 m ρ c (Proc.devRef .tc r) := host2_keeps _ r h4
    _ = W3 m ρ c (Proc.devRef .tc r) := W4_of_ne m ρ c r h3
    _ = W2 m ρ c (Proc.devRef .tc r) := host1_keeps _ r h2
    _ = W1 m ρ c (Proc.devRef .tc r) := W2_of_ne m ρ c r h1
    _ = W0 m ρ c (Proc.devRef .tc r) := host0_keeps _ r h0
    _ = m ((c : Thread nD τ).loc r) := rfl

/-- Each argument ends as launched: it is no stretch's result and no region's window. -/
theorem W6_main_arg0 (c : Dev nD) : W6 m ρ c (Proc.devRef .tc main_arg0) = m ((c : Thread nD τ).loc main_arg0) :=
  W6_untouched m ρ c main_arg0 (by decide) (by decide) (by decide) (by decide) (by decide) (by decide)
theorem W6_main_arg1 (c : Dev nD) : W6 m ρ c (Proc.devRef .tc main_arg1) = m ((c : Thread nD τ).loc main_arg1) :=
  W6_untouched m ρ c main_arg1 (by decide) (by decide) (by decide) (by decide) (by decide) (by decide)
theorem W6_main_arg2 (c : Dev nD) : W6 m ρ c (Proc.devRef .tc main_arg2) = m ((c : Thread nD τ).loc main_arg2) :=
  W6_untouched m ρ c main_arg2 (by decide) (by decide) (by decide) (by decide) (by decide) (by decide)
theorem W6_main_arg3 (c : Dev nD) : W6 m ρ c (Proc.devRef .tc main_arg3) = m ((c : Thread nD τ).loc main_arg3) :=
  W6_untouched m ρ c main_arg3 (by decide) (by decide) (by decide) (by decide) (by decide) (by decide)
theorem W6_main_arg4 (c : Dev nD) : W6 m ρ c (Proc.devRef .tc main_arg4) = m ((c : Thread nD τ).loc main_arg4) :=
  W6_untouched m ρ c main_arg4 (by decide) (by decide) (by decide) (by decide) (by decide) (by decide)
theorem W6_main_arg5 (c : Dev nD) : W6 m ρ c (Proc.devRef .tc main_arg5) = m ((c : Thread nD τ).loc main_arg5) :=
  W6_untouched m ρ c main_arg5 (by decide) (by decide) (by decide) (by decide) (by decide) (by decide)

/-- The result's buffer ends at what the third region's pipeline leaves in its output window's array. -/
theorem W6_main_v25 (c : Dev nD) : W6 m ρ c (Proc.devRef .tc main_v25) = (dat2 (V5 m ρ) c).arrAt 5 cfg2.N :=
  W6_arr m ρ c 5

/-! # The proof data family and the thread state -/

/-- The prefetched tables' admissible contents: no region has a table. -/
abbrev adm : (p : Fin 3) → (pcfgs (F := F) p).Adm := fun p => (cfgs p).toPCfg_adm
/-- Every region's proof data, each at its region's entry contents: a literal match on the region's number, so that
    the data of a numbered region reduce to the ones stated for it. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at the contents the stretch computes from `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W6 m ρ c) ∗ ∃ r, prngReg c r)

/-! # The regions as segments -/

-- a library lemma stated over the pinned configuration unifies with the printed one only when unification may unfold
-- plain definitions in a metavariable's type
set_option backward.isDefEq.respectTransparency.types false in
/-- The first region (a row-block linear map): entered from every unscoped buffer at `W1`, left at `W2`.
    Its windows' arrays are split out of the unscoped buffers at entry and put back at their final contents at exit;
    the generator register goes into the region's invariant and comes back; nothing is owed; the kernel has no
    semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The second region (a row-block linear map): entered from every unscoped buffer at `W3`, left at `W4`.
    Its windows' arrays are split out of the unscoped buffers at entry and put back at their final contents at exit;
    the generator register goes into the region's invariant and comes back; nothing is owed; the kernel has no
    semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The third region (the attention and projection call): entered from every unscoped buffer at `W5`, left at `W6`.
    As the two before it, except that its invariant is not constant: what the launch hands over makes the invariant
    before the first point (`hin2`), and after the last point the invariant gives it back (`hout2`). -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec2 c : sProp 𝕄) ⊢ (pdats m ρ 2 c).Φ 0 := hin2 (V5 m ρ) c
    iintro ⟨Hp, -, Hr⟩
    iapply h
    unfold Pipeline.ΦA
    isplitl [Hr]; · iexact Hr
    iexact Hp
  hout c := by
    rw [Pipeline.ownSems0_none]
    have h : (pdats m ρ 2 c).Φ (Fin.last _) ⊢ (Pipeline.ΦA spec2 c : sProp 𝕄) := hout2 (V5 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # The program as segments, and the launch -/

/-- The program's six segments in order: a host segment per stretch from its boundary's contents, a region per call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- The program is the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN. From any memory with zero counters every weakly fair execution of the program on the TensorCores
    terminates, nothing faulting, and in every final state each core's unscoped buffers hold the last boundary's
    contents `W6`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h => h)

/-- THE FRAME: the program runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r h c =>
    ⟨(h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c)⟩) (run_main m ρ)

/-- THE RUN WITH THE RESULT: the program runs to the end, the result's buffer ends at what the third region's pipeline
    leaves in its output window's array, and every argument array ends as launched. -/
theorem run_value : θ_run defs (onTc (τ := τ) (main (F := F))) ⟨m, fun _ => 0, ρ⟩ (fun r => ∀ c : Dev nD,
      r.2.mem ((c.tc : Thread nD τ).loc main_v25) = (dat2 (V5 m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r h c =>
    ⟨(h c _ (mem_uc main_v25 (by decide))).trans (W6_main_v25 m ρ c),
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c)⟩) (run_main m ρ)

end Cert.Kernel.Hand

end
-- ==== Proof.KI.Lin0Defs.lean ====
/-
  Region 0 (a row-block linear map): for each block of 1024 rows, the block of the input times the whole weight
  matrix plus the bias row, narrowed. Here: the blocks the region's body reads, what it leaves in the output
  window's buffer (one store covering the block), and the region's proof data at entry contents `V`.
-/
import proofs.«425593_j41592463294467_3_alg».proof.Proof.Gen.KernelIdeal.Launch
import proofs.«425593_j41592463294467_3_alg».proof.Proof.Gen.KernelIdeal.Skeleton
import proofs.«425593_j41592463294467_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array at the region's entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev r0_x : Rect S1024x768 := Rect.unit (s := S1024x768) ![0, 0] S1024x768.size inb_S1024x768_S1024x768_0_0
abbrev r0_w : Rect S768x768 := Rect.unit (s := S768x768) ![0, 0] S768x768.size inb_S768x768_S768x768_0_0
abbrev r0_b : Rect S1x768 := Rect.unit (s := S1x768) ![0, 0] S1x768.size inb_S1x768_S1x768_0_0
abbrev r0_o : Rect S1024x768 := Rect.unit (s := S1024x768) ![0, 0] S1024x768.size inb_S1024x768_S1024x768_0_0

/-- What the body leaves in the output window's buffer, from the three input blocks: its one store. -/
def out0_3 (x0 : Vec F S1024x768 .f32) (x1 : Vec F S768x768 .bf16) (x2 : Vec F S1x768 .f32) : Vec F S1024x768 .bf16 :=
  View.canon [⟨r0_o, k0_pay1 (View.ld x0 r0_x) (View.ld x1 r0_w) (View.ld x2 r0_b)⟩]

/-- That store covers the buffer. -/
theorem cover0_3 (p0 : Vec F S1024x768 .bf16) (y : S1024x768.Idx) :
    ∃ pc ∈ ([⟨r0_o, p0⟩] : List (View.Piece (Elt F) S1024x768 .bf16)), y ∈ pc.1.set :=
  View.cover_of_tiled [⟨r0_o, p0⟩] S1024x768.size (by rfl) y

/-- The region's proof data on core `c`: the arrays at the entry contents; after the body each input buffer at its
    block, the output buffer at `out0_3` of the blocks; the invariant untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

end Cert.KernelIdeal.Hand

end
-- ==== Proof.KI.Lin0Body.lean ====
/-
  Region 0's body obligation: at every grid point, from the input buffers at their blocks, the body runs to the
  output buffer at `out0_3` of the blocks, the inputs as they were.
-/
import proofs.«425593_j41592463294467_3_alg».proof.Proof.Gen.KernelIdeal.Launch
import proofs.«425593_j41592463294467_3_alg».proof.Proof.Gen.KernelIdeal.Skeleton
import proofs.«425593_j41592463294467_3_alg».proof.Proof.Gen.KernelIdeal.Points
import proofs.«425593_j41592463294467_3_alg».proof.Proof.KI.Lin0Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- Input window 0's current buffer holds its block at every point, fetched there or not, for any proof data whose
    array is the entry contents' and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (the weight matrix, fetched once: its block index never moves) likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 (the bias row, fetched once) likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's triple -/

set_option maxHeartbeats 1000000 in
/-- The kernel body on whole staging memrefs, the three inputs' at contents `x0 x1 x2` and the output's at anything,
    runs to the continuation holding the inputs' as they were and the output's at `out0_3 x0 x1 x2`: three loads, a
    load of the output buffer whose value is not used, and one store covering the buffer. -/
theorem sound_kernel0 (c : Dev nD) (E : Set ℕ) (i : grid0.Coords) (arg1 : Memref sig .tc .vmem S1024x768 .f32) (harg1 : arg1.IsWhole) (arg2 : Memref sig .tc .vmem S768x768 .bf16) (harg2 : arg2.IsWhole) (arg3 : Memref sig .tc .vmem S1x768 .f32) (harg3 : arg3.IsWhole) (arg4 : Memref sig .tc .vmem S1024x768 .bf16) (harg4 : arg4.IsWhole)
    (x0 : Vec F S1024x768 .f32) (x1 : Vec F S768x768 .bf16) (x2 : Vec F S1x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The inputs' buffers at the region's proof data -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Lin1Defs.lean ====
/-
  Region 1 (a row-block linear map): for each block of 1024 rows, the block of the input times the whole weight
  matrix plus the bias row, narrowed. Here: the blocks the region's body reads, what it leaves in the output
  window's buffer (one store covering the block), and the region's proof data at entry contents `V`.
-/
import proofs.«425593_j41592463294467_3_alg».proof.Proof.Gen.KernelIdeal.Launch
import proofs.«425593_j41592463294467_3_alg».proof.Proof.Gen.KernelIdeal.Skeleton
import proofs.«425593_j41592463294467_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array at the region's entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev r1_x : Rect S1024x768 := Rect.unit (s := S1024x768) ![0, 0] S1024x768.size inb_S1024x768_S1024x768_0_0
abbrev r1_w : Rect S768x1536 := Rect.unit (s := S768x1536) ![0, 0] S768x1536.size inb_S768x1536_S768x1536_0_0
abbrev r1_b : Rect S1x1536 := Rect.unit (s := S1x1536) ![0, 0] S1x1536.size inb_S1x1536_S1x1536_0_0
abbrev r1_o : Rect S1024x1536 := Rect.unit (s := S1024x1536) ![0, 0] S1024x1536.size inb_S1024x1536_S1024x1536_0_0

/-- What the body leaves in the output window's buffer, from the three input blocks: its one store. -/
def out1_3 (x0 : Vec F S1024x768 .f32) (x1 : Vec F S768x1536 .bf16) (x2 : Vec F S1x1536 .f32) : Vec F S1024x1536 .bf16 :=
  View.canon [⟨r1_o, k1_pay1 (View.ld x0 r1_x) (View.ld x1 r1_w) (View.ld x2 r1_b)⟩]

/-- That store covers the buffer. -/
theorem cover1_3 (p0 : Vec F S1024x1536 .bf16) (y : S1024x1536.Idx) :
    ∃ pc ∈ ([⟨r1_o, p0⟩] : List (View.Piece (Elt F) S1024x1536 .bf16)), y ∈ pc.1.set :=
  View.cover_of_tiled [⟨r1_o, p0⟩] S1024x1536.size (by rfl) y

/-- The region's proof data on core `c`: the arrays at the entry contents; after the body each input buffer at its
    block, the output buffer at `out1_3` of the blocks; the invariant untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

end Cert.KernelIdeal.Hand

end
-- ==== Proof.KI.Lin1Body.lean ====
/-
  Region 1's body obligation: at every grid point, from the input buffers at their blocks, the body runs to the
  output buffer at `out1_3` of the blocks, the inputs as they were.
-/
import proofs.«425593_j41592463294467_3_alg».proof.Proof.Gen.KernelIdeal.Launch
import proofs.«425593_j41592463294467_3_alg».proof.Proof.Gen.KernelIdeal.Skeleton
import proofs.«425593_j41592463294467_3_alg».proof.Proof.Gen.KernelIdeal.Points
import proofs.«425593_j41592463294467_3_alg».proof.Proof.KI.Lin1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- Input window 0's current buffer holds its block at every point, fetched there or not, for any proof data whose
    array is the entry contents' and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 (the weight matrix, fetched once: its block index never moves) likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 (the bias row, fetched once) likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's triple -/

set_option maxHeartbeats 1000000 in
/-- The kernel body on whole staging memrefs, the three inputs' at contents `x0 x1 x2` and the output's at anything,
    runs to the continuation holding the inputs' as they were and the output's at `out1_3 x0 x1 x2`: three loads, a
    load of the output buffer whose value is not used, and one store covering the buffer. -/
theorem sound_kernel1 (c : Dev nD) (E : Set ℕ) (i : grid1.Coords) (arg1 : Memref sig .tc .vmem S1024x768 .f32) (harg1 : arg1.IsWhole) (arg2 : Memref sig .tc .vmem S768x1536 .bf16) (harg2 : arg2.IsWhole) (arg3 : Memref sig .tc .vmem S1x1536 .f32) (harg3 : arg3.IsWhole) (arg4 : Memref sig .tc .vmem S1024x1536 .bf16) (harg4 : arg4.IsWhole)
    (x0 : Vec F S1024x768 .f32) (x1 : Vec F S768x1536 .bf16) (x2 : Vec F S1x1536 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The inputs' buffers at the region's proof data -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.AttnDefs.lean ====
/-
  Region 2 (attention fused with the output projection), one grid point per (batch b, head h), t = 8 b + h.
  At a point the body forms the head's scores q kᵀ, subtracts each row's maximum, exponentiates, sums each row,
  multiplies by v and divides by the row sums, multiplies by rows 96 h … 96 h + 95 of the transposed projection
  weight, and adds the result to a scratch accumulator that it first clears when h = 0; when h = 7 it adds the bias
  row to the accumulator and stores that as the batch's output block. Here: the blocks read at a point, the
  accumulator after each point (by recursion on the point), and the output block.
-/
import proofs.«425593_j41592463294467_3_alg».proof.Proof.Gen.KernelIdeal.Launch
import proofs.«425593_j41592463294467_3_alg».proof.Proof.Gen.KernelIdeal.Skeleton
import proofs.«425593_j41592463294467_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array at the region's entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rectangles the body loads and stores through: the whole q / k / v block, rows 96 h … 96 h + 95 of the
    projection weight, the whole bias row, the whole output block, the whole accumulator. -/
abbrev r2_q : Rect S1x1x1024x96 := Rect.unit (s := S1x1x1024x96) ![0, 0, 0, 0] S1x1x1024x96.size inb_S1x1x1024x96_S1x1x1024x96_0_0_0_0
abbrev r2_w (i : grid2.Coords) : Rect S768x768 := Rect.unit (s := S768x768) (k2_off1 i) S96x768.size (k2_off1_inb i)
abbrev r2_b : Rect S1x768 := Rect.unit (s := S1x768) ![0, 0] S1x768.size inb_S1x768_S1x768_0_0
abbrev r2_o : Rect S1x1024x768 := Rect.unit (s := S1x1024x768) ![0, 0, 0] S1x1024x768.size inb_S1x1024x768_S1x1024x768_0_0_0
abbrev r2_s : Rect S1024x768 := Rect.unit (s := S1024x768) ![0, 0] S1024x768.size inb_S1024x768_S1024x768_0_0

/-- The accumulator memref: the kernel's own scratch buffer, whole. -/
abbrev scM2 : Memref sig .tc .vmem S1024x768 .f32 := Memref.whole cc2_scratch0

/-- The accumulator after the body at a point with coordinates `i`, from the point's q, k, v blocks, the projection
    weight and what the accumulator held when the addition is made (`prev`: zero at a head-0 point, else what the point
    before left). -/
def acc2 (i : grid2.Coords) (xq xk xv : Vec F S1x1x1024x96 .bf16) (xw : Vec F S768x768 .bf16) (prev : Vec F S1024x768 .f32) :
    Vec F S1024x768 .f32 :=
  k2_pay1 (k2_pay4 (View.ld xq r2_q) (View.ld xk r2_q) (View.ld xv r2_q) (View.ld xw (r2_w i)) prev)

/-- THE ACCUMULATION: what the accumulator holds after the body at position `n`: at a head-0 point the point's
    contribution added to the zero fill, elsewhere added to what position `n - 1` left. -/
def scAt2 (c : Dev nD) : (n : ℕ) → n < cfg2.N → Vec F S1024x768 .f32
  | 0, hn => acc2 (grid2.coords ⟨0, hn⟩) (iblk2 V c 0 ⟨0, hn⟩) (iblk2 V c 1 ⟨0, hn⟩) (iblk2 V c 2 ⟨0, hn⟩) (iblk2 V c 3 ⟨0, hn⟩) (k2_pay3 (F := F))
  | n + 1, hn => acc2 (grid2.coords ⟨n + 1, hn⟩) (iblk2 V c 0 ⟨n + 1, hn⟩) (iblk2 V c 1 ⟨n + 1, hn⟩) (iblk2 V c 2 ⟨n + 1, hn⟩) (iblk2 V c 3 ⟨n + 1, hn⟩)
      (if (n + 1) % 8 = 0 then (k2_pay3 (F := F)) else scAt2 c n (Nat.lt_of_succ_lt hn))

theorem scAt2_zero (c : Dev nD) (hn : 0 < cfg2.N) :
    scAt2 V c 0 hn = acc2 (grid2.coords ⟨0, hn⟩) (iblk2 V c 0 ⟨0, hn⟩) (iblk2 V c 1 ⟨0, hn⟩) (iblk2 V c 2 ⟨0, hn⟩) (iblk2 V c 3 ⟨0, hn⟩) (k2_pay3 (F := F)) := rfl

theorem scAt2_succ (c : Dev nD) (n : ℕ) (hn : n + 1 < cfg2.N) :
    scAt2 V c (n + 1) hn = acc2 (grid2.coords ⟨n + 1, hn⟩) (iblk2 V c 0 ⟨n + 1, hn⟩) (iblk2 V c 1 ⟨n + 1, hn⟩) (iblk2 V c 2 ⟨n + 1, hn⟩) (iblk2 V c 3 ⟨n + 1, hn⟩)
      (if (n + 1) % 8 = 0 then (k2_pay3 (F := F)) else scAt2 V c n (Nat.lt_of_succ_lt hn)) := rfl

/-- The output block a head-7 point stores: the accumulator plus the bias row, as the one store that covers the block. -/
def out2_5 (sc : Vec F S1024x768 .f32) (xb : Vec F S1x768 .f32) : Vec F S1x1024x768 .f32 :=
  View.canon [⟨r2_o, k2_pay2 sc (View.ld xb r2_b)⟩]

/-- That store covers the block. -/
theorem cover2_5 (p0 : Vec F S1x1024x768 .f32) (y : S1x1024x768.Idx) :
    ∃ pc ∈ ([⟨r2_o, p0⟩] : List (View.Piece (Elt F) S1x1024x768 .f32)), y ∈ pc.1.set :=
  View.cover_of_tiled [⟨r2_o, p0⟩] S1x1024x768.size (by rfl) y

end Cert.KernelIdeal.Hand

end
-- ==== Proof.KI.AttnDat.lean ====
/-
  Region 2's proof data: the arrays at the entry contents; after the body each input buffer at its block and the
  output buffer at the stored block; the invariant, which from the first point on holds the accumulator at what the
  point before left in it.
-/
import proofs.«425593_j41592463294467_3_alg».proof.Proof.Gen.KernelIdeal.Launch
import proofs.«425593_j41592463294467_3_alg».proof.Proof.Gen.KernelIdeal.Skeleton
import proofs.«425593_j41592463294467_3_alg».proof.Proof.Gen.KernelIdeal.Points
import proofs.«425593_j41592463294467_3_alg».proof.Proof.KI.AttnDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The core's scoped buffers that are neither a staging buffer of this region nor its accumulator (the other two
    regions' staging buffers), each whole at some contents. -/
def others2 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f))

/-- The region invariant before position `n`: before the first point what the launch hands over (every scoped buffer
    no window stages at some contents, the generator register at some state); afterwards the accumulator at what
    position `n - 1` left, the other scoped buffers and the register as before. -/
def PhiS2 (c : Dev nD) : (n : ℕ) → n ≤ cfg2.N → sProp 𝕄
  | 0, _ => Pipeline.ΦA spec2 c
  | n + 1, hn => iprop(owns (c : Thread nD τ) scM2 fullShare (scAt2 V c n hn) ∗ others2 (F := F) c ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(owns (c : Thread nD τ) scM2 fullShare (scAt2 V c n hn) ∗ others2 (F := F) c ∗ (∃ r, prngReg c r)) := rfl

theorem PhiS2_pos (c : Dev nD) (n : ℕ) (h : n ≤ cfg2.N) (hz : n ≠ 0) :
    PhiS2 V c n h = iprop(owns (c : Thread nD τ) scM2 fullShare (scAt2 V c (n - 1) (by omega)) ∗ others2 (F := F) c ∗ (∃ r, prngReg c r)) := by
  cases n with
  | zero => exact absurd rfl hz
  | succ n => rfl

/-- The region's proof data on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (scAt2 V c t.val t.isLt) (iblk2 V c 4 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (scAt2 V c t.val t.isLt) (iblk2 V c 4 t) := by dsimp only [dat2]

/-- The invariant at a point's start, restated at the point's number. -/
theorem PhiS2_castSucc (c : Dev nD) (t : Fin cfg2.N) :
    (dat2 V c).Φ t.castSucc = PhiS2 V c t.val (Nat.le_of_lt t.isLt) := by
  dsimp only [dat2]; simp only [Fin.coe_castSucc]

end Cert.KernelIdeal.Hand

end
-- ==== Proof.KI.AttnRuns.lean ====
/-
  Region 2: what the three runs of its body share — the two conditions of the body in closed form over the grid,
  where the output window is idle, the launch's invariant with the accumulator set apart, and the input staging
  buffers' contents at every point.
-/
import proofs.«425593_j41592463294467_3_alg».proof.Proof.Gen.KernelIdeal.Launch
import proofs.«425593_j41592463294467_3_alg».proof.Proof.Gen.KernelIdeal.Skeleton
import proofs.«425593_j41592463294467_3_alg».proof.Proof.Gen.KernelIdeal.Points
import proofs.«425593_j41592463294467_3_alg».proof.Proof.KI.AttnDat
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditions, in closed form -/

/-- The condition of the body's first conditional (the head is 0), from the grid coordinates. -/
abbrev cond2_0 (i : grid2.Coords) : Prop := (Scalar.cmpi .ne (Scalar.extui (Scalar.cmpi .eq (BitVec.ofNat 32 (i 1).val) 0#32)) 0#32) = 1#1
/-- It holds at the points ≡ 0 (mod 8): decided over the grid. -/
theorem hcond2_0 : ∀ t : Fin cfg2.N, cond2_0 (grid2.coords t) ↔ t.val % 8 = 0 :=
  (by decide +kernel : ∀ t : Fin grid2.N, cond2_0 (grid2.coords t) ↔ t.val % 8 = 0)

/-- The condition of the body's second conditional (the head is 7). -/
abbrev cond2_1 (i : grid2.Coords) : Prop := k2_cond2 i = 1#1
/-- It holds at the points ≡ 7 (mod 8): decided over the grid. -/
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

/-- The five inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
/-- At a head-0 point the output window is idle (nothing is stored into it) -/
theorem idleAt2_5_A : ∀ t : Fin cfg2.N, cond2_0 (grid2.coords t) → ¬cond2_1 (grid2.coords t) → cfg2.idle 5 (grid2.coords t) = true := by decide +kernel
/-- and its block is not written back there. -/
theorem noFlush2_5_A : ∀ t : Fin cfg2.N, cond2_0 (grid2.coords t) → ¬cond2_1 (grid2.coords t) → (cfg2.win 5).flush t = false := by decide +kernel
/-- The same at the points of heads 1 … 6. -/
theorem idleAt2_5_B : ∀ t : Fin cfg2.N, ¬cond2_0 (grid2.coords t) → ¬cond2_1 (grid2.coords t) → cfg2.idle 5 (grid2.coords t) = true := by decide +kernel
theorem noFlush2_5_B : ∀ t : Fin cfg2.N, ¬cond2_0 (grid2.coords t) → ¬cond2_1 (grid2.coords t) → (cfg2.win 5).flush t = false := by decide +kernel
/-- At a head-7 point the output window is live: the body stores the block. -/
theorem liveAt2_5_C : ∀ t : Fin cfg2.N, ¬cond2_0 (grid2.coords t) → cond2_1 (grid2.coords t) → cfg2.idle 5 (grid2.coords t) = false := by decide +kernel

/-! ## What the launch hands the region, with the accumulator set apart -/

/-- The class's invariant is: the accumulator as a memref owned at some contents, the other regions' staging buffers,
    the generator register. -/
theorem PhiA2_eq (c : Dev nD) :
    (Pipeline.ΦA spec2 c : sProp 𝕄)
      = iprop((∃ d, owns (c : Thread nD τ) scM2 fullShare d) ∗ others2 (F := F) c ∗ (∃ r, prngReg c r)) := by
  unfold Pipeline.ΦA; rw [scopedRest2_eq]; unfold others2; simp only [scM2, owns_whole]
  refine BI.equiv_iff.mp ⟨?_, ?_⟩
  · show (_ : sProp 𝕄) ⊢ _
    iintro ⟨⟨H1, H2, H3, H4, H5, H6, H7, H8, H9, H10, H11, H12, HS⟩, Hg⟩
    isplitl [HS]; · iexact HS
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · iexact Hg
  · show (_ : sProp 𝕄) ⊢ _
    iintro ⟨HS, ⟨H1, H2, H3, H4, H5, H6, H7, H8, H9, H10, H11, H12⟩, Hg⟩
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact HS
    · iexact Hg

/-! ## The inputs' staging buffers hold their blocks -/

/-- Input window 0's current staging buffer holds its block at every point, fetched there or not, for any proof
    data whose array is the entry contents and whose body leaves the block in place: unfetched, the block index has
    not moved since the point that fetched it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is the entry contents and whose body leaves the block in place: unfetched, the block index has
    not moved since the point that fetched it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is the entry contents and whose body leaves the block in place: unfetched, the block index has
    not moved since the point that fetched it. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is the entry contents and whose body leaves the block in place: unfetched, the block index has
    not moved since the point that fetched it. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is the entry contents and whose body leaves the block in place: unfetched, the block index has
    not moved since the point that fetched it. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## Reading back a buffer whose last store covers it -/

/-- The zero offsets of a whole-buffer rectangle, however spelt. -/
theorem hz2 : (![0, 0] : Fin 2 → Nat) = fun _ => 0 := by funext a; fin_cases a <;> rfl
theorem hz3 : (![0, 0, 0] : Fin 3 → Nat) = fun _ => 0 := by funext a; fin_cases a <;> rfl

/-- After a list of stores whose LAST one is through the whole-shape rectangle at zero offsets, the buffer reads that
    store's payload, whatever the earlier stores and the prior contents were. -/
theorem read_writes_cons_unit_zero {sig' : RefSig} {κ : Kind} {sp : Space} {S : Shape} {e : EltTy}
    (v : View sig' κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

end Cert.KernelIdeal.Hand

end
-- ==== Proof.KI.AttnRunA.lean ====
/-
  Region 2's body at a head-0 point: the accumulator is cleared, read back, the head's contribution added and stored;
  nothing is stored into the output buffer.
-/
import proofs.«425593_j41592463294467_3_alg».proof.Proof.KI.AttnRuns
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- THE BODY AT A HEAD-0 POINT (first conditional taken, second not): on whole staging memrefs holding the point's
    q, k, v blocks, the projection weight and the bias row, the output buffer at any contents (handed back untouched)
    and the accumulator at any contents, the body runs and leaves the accumulator at the point's contribution added to
    the zero fill. -/
theorem kernelRun2_A (c : Dev nD) (i : grid2.Coords) (arg2 : Memref sig .tc .vmem S1x1x1024x96 .bf16) (harg2 : arg2.IsWhole) (arg3 : Memref sig .tc .vmem S1x1x1024x96 .bf16) (harg3 : arg3.IsWhole) (arg4 : Memref sig .tc .vmem S1x1x1024x96 .bf16) (harg4 : arg4.IsWhole) (arg5 : Memref sig .tc .vmem S768x768 .bf16) (harg5 : arg5.IsWhole) (arg6 : Memref sig .tc .vmem S1x768 .f32) (harg6 : arg6.IsWhole) (arg7 : Memref sig .tc .vmem S1x1024x768 .f32) (harg7 : arg7.IsWhole) (arg8 : Memref sig .tc .vmem S1024x768 .f32) (harg8 : arg8.IsWhole) (hc0 : cond2_0 i) (hc1 : ¬cond2_1 i)
    (x0 x1 x2 : Vec F S1x1x1024x96 .bf16) (x3 : Vec F S768x768 .bf16) (x4 : Vec F S1x768 .f32) (xi5 : Vec F S1x1024x768 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xi5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xi5
            ∗ owns (c : Thread nD τ) arg8 fullShare (acc2 i x0 x1 x2 x3 (k2_pay3 (F := F)))) -∗ K ⟨⟩))
      ⊢ wp frame (wpE (defs₀ (F := F)) Variants.none c none) E (cc2__attn_proj_kernel i arg2 harg2 arg3 harg3 arg4 harg4 arg5 harg5 arg6 harg6 arg7 harg7 arg8 harg8) K := by
  simp only [cc2__attn_proj_kernel_eq_skeleton]; unfold cc2__attn_proj_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact HS0
  ipureintro
  refine (read_writes_cons_unit_zero (S := S1024x768) _ _ hz2 _ _ _).trans ?_
  unfold acc2
  sl_unfold_run_names
  simp only [View.readAt_eq_ld, harg2.read_unread, harg3.read_unread, harg4.read_unread, harg5.read_unread, View.readCov_unit_zero (S := S1024x768) _ hz2]
  <;> rfl

end Cert.KernelIdeal.Hand

end
-- ==== Proof.KI.AttnRunB.lean ====
/-
  Region 2's body at a point of heads 1 … 6: the accumulator is read at what the point before left, the head's
  contribution added and stored; nothing is stored into the output buffer.
-/
import proofs.«425593_j41592463294467_3_alg».proof.Proof.KI.AttnRuns
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- THE BODY AT A POINT OF HEADS 1 … 6 (neither conditional taken): on whole staging memrefs holding the point's
    q, k, v blocks, the projection weight and the bias row, the output buffer at any contents (handed back untouched)
    and the accumulator at what the point before left (`xs`), the body runs and leaves the accumulator at the point's
    contribution added to `xs`. -/
theorem kernelRun2_B (c : Dev nD) (i : grid2.Coords) (arg2 : Memref sig .tc .vmem S1x1x1024x96 .bf16) (harg2 : arg2.IsWhole) (arg3 : Memref sig .tc .vmem S1x1x1024x96 .bf16) (harg3 : arg3.IsWhole) (arg4 : Memref sig .tc .vmem S1x1x1024x96 .bf16) (harg4 : arg4.IsWhole) (arg5 : Memref sig .tc .vmem S768x768 .bf16) (harg5 : arg5.IsWhole) (arg6 : Memref sig .tc .vmem S1x768 .f32) (harg6 : arg6.IsWhole) (arg7 : Memref sig .tc .vmem S1x1024x768 .f32) (harg7 : arg7.IsWhole) (arg8 : Memref sig .tc .vmem S1024x768 .f32) (harg8 : arg8.IsWhole) (hc0 : ¬cond2_0 i) (hc1 : ¬cond2_1 i)
    (x0 x1 x2 : Vec F S1x1x1024x96 .bf16) (x3 : Vec F S768x768 .bf16) (x4 : Vec F S1x768 .f32) (xs : Vec F S1024x768 .f32) (xi5 : Vec F S1x1024x768 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xi5
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xi5
            ∗ owns (c : Thread nD τ) arg8 fullShare (acc2 i x0 x1 x2 x3 xs)) -∗ K ⟨⟩))
      ⊢ wp frame (wpE (defs₀ (F := F)) Variants.none c none) E (cc2__attn_proj_kernel i arg2 harg2 arg3 harg3 arg4 harg4 arg5 harg5 arg6 harg6 arg7 harg7 arg8 harg8) K := by
  simp only [cc2__attn_proj_kernel_eq_skeleton]; unfold cc2__attn_proj_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact HS0
  ipureintro
  refine (read_writes_cons_unit_zero (S := S1024x768) _ _ hz2 _ _ _).trans ?_
  unfold acc2
  sl_unfold_run_names
  simp only [View.readAt_eq_ld, harg2.read_unread, harg3.read_unread, harg4.read_unread, harg5.read_unread, harg8.read_unread, View.ld_unit_zero (S := S1024x768) hz2]
  <;> rfl

end Cert.KernelIdeal.Hand

end
-- ==== Proof.KI.AttnRunC.lean ====
/-
  Region 2's body at a head-7 point: the accumulator is read at what the point before left, the head's contribution
  added and stored; then the accumulator is read back, the bias row added, and the result stored as the output block.
-/
import proofs.«425593_j41592463294467_3_alg».proof.Proof.KI.AttnRuns
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- THE BODY AT A HEAD-7 POINT (second conditional taken, first not): on whole staging memrefs holding the point's
    q, k, v blocks, the projection weight and the bias row, the output buffer at any contents and the accumulator at
    what the point before left (`xs`), the body runs and leaves the accumulator at the point's contribution added to
    `xs`, and the output buffer at that plus the bias row. -/
theorem kernelRun2_C (c : Dev nD) (i : grid2.Coords) (arg2 : Memref sig .tc .vmem S1x1x1024x96 .bf16) (harg2 : arg2.IsWhole) (arg3 : Memref sig .tc .vmem S1x1x1024x96 .bf16) (harg3 : arg3.IsWhole) (arg4 : Memref sig .tc .vmem S1x1x1024x96 .bf16) (harg4 : arg4.IsWhole) (arg5 : Memref sig .tc .vmem S768x768 .bf16) (harg5 : arg5.IsWhole) (arg6 : Memref sig .tc .vmem S1x768 .f32) (harg6 : arg6.IsWhole) (arg7 : Memref sig .tc .vmem S1x1024x768 .f32) (harg7 : arg7.IsWhole) (arg8 : Memref sig .tc .vmem S1024x768 .f32) (harg8 : arg8.IsWhole) (hc0 : ¬cond2_0 i) (hc1 : cond2_1 i)
    (x0 x1 x2 : Vec F S1x1x1024x96 .bf16) (x3 : Vec F S768x768 .bf16) (x4 : Vec F S1x768 .f32) (xs : Vec F S1024x768 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out2_5 (acc2 i x0 x1 x2 x3 xs) x4)
            ∗ owns (c : Thread nD τ) arg8 fullShare (acc2 i x0 x1 x2 x3 xs)) -∗ K ⟨⟩))
      ⊢ wp frame (wpE (defs₀ (F := F)) Variants.none c none) E (cc2__attn_proj_kernel i arg2 harg2 arg3 harg3 arg4 harg4 arg5 harg5 arg6 harg6 arg7 harg7 arg8 harg8) K := by
  simp only [cc2__attn_proj_kernel_eq_skeleton]; unfold cc2__attn_proj_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
  obtain rfl := harg2.eq_unread hf0; obtain rfl := harg3.eq_unread hf1; obtain rfl := harg4.eq_unread hf2
  obtain rfl := harg5.eq_unread hf3; obtain rfl := harg6.eq_unread hf4
  obtain rfl := harg8.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    refine (read_writes_cons_unit_zero (S := S1x1024x768) _ _ hz3 _ _ _).trans ?_
    unfold out2_5 acc2
    rw [View.canon_unit_zero (S := S1x1024x768) hz3]
    sl_unfold_run_names
    simp only [View.readAt_eq_ld, harg2.read_unread, harg3.read_unread, harg4.read_unread, harg5.read_unread, harg6.read_unread, harg8.read_unread, View.ld_unit_zero (S := S1024x768) hz2, View.readCov_unit_zero (S := S1024x768) _ hz2]
    <;> rfl
  iexists _; isplitr
  swap; · iexact HS0
  ipureintro
  refine (read_writes_cons_unit_zero (S := S1024x768) _ _ hz2 _ _ _).trans ?_
  unfold acc2
  sl_unfold_run_names
  simp only [View.readAt_eq_ld, harg2.read_unread, harg3.read_unread, harg4.read_unread, harg5.read_unread, harg6.read_unread, harg8.read_unread, View.ld_unit_zero (S := S1024x768) hz2, View.readCov_unit_zero (S := S1024x768) _ hz2]
  <;> rfl

end Cert.KernelIdeal.Hand

end
-- ==== Proof.KI.AttnBody.lean ====
/-
  Region 2's body obligation, and the invariant's two ends.
-/
import proofs.«425593_j41592463294467_3_alg».proof.Proof.KI.AttnRunA
import proofs.«425593_j41592463294467_3_alg».proof.Proof.KI.AttnRunB
import proofs.«425593_j41592463294467_3_alg».proof.Proof.KI.AttnRunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulator after a point, by the point's head -/

/-- At a head-0 point the contribution is added to the zero fill. -/
theorem scAt2_A (c : Dev nD) (t : Fin cfg2.N) (h0 : t.val % 8 = 0) :
    scAt2 V c t.val t.isLt = acc2 (grid2.coords t) (iblk2 V c 0 t) (iblk2 V c 1 t) (iblk2 V c 2 t) (iblk2 V c 3 t) (k2_pay3 (F := F)) := by
  obtain ⟨n, hn⟩ := t
  cases n with
  | zero => rfl
  | succ n => exact (scAt2_succ V c n hn).trans (by rw [if_pos (show (n + 1) % 8 = 0 from h0)])

/-- At any other point it is added to what the point before left. -/
theorem scAt2_B (c : Dev nD) (t : Fin cfg2.N) (h0 : ¬t.val % 8 = 0) :
    scAt2 V c t.val t.isLt = acc2 (grid2.coords t) (iblk2 V c 0 t) (iblk2 V c 1 t) (iblk2 V c 2 t) (iblk2 V c 3 t)
      (scAt2 V c (t.val - 1) (Nat.lt_of_le_of_lt (Nat.sub_le _ _) t.isLt)) := by
  obtain ⟨n, hn⟩ := t
  cases n with
  | zero => exact absurd (Nat.zero_mod _) h0
  | succ n => exact (scAt2_succ V c n hn).trans (by rw [if_neg (show ¬(n + 1) % 8 = 0 from h0)] <;> rfl)

/-! ## The body obligation, at a generic point -/

/-- Each window's current staging memref at point `t`, as the pipeline passes it to the body, and its wholeness. -/
abbrev ms2_0 (t : Fin cfg2.N) : Memref sig .tc .vmem S1x1x1024x96 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x1x1024x96 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1x1024x96 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S768x768 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x768 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x1024x768 .f32 := win2_5.stage (cfg2.slots t 5)
abbrev hs2_5 (t : Fin cfg2.N) : (ms2_5 t).IsWhole := hstage2_5 ((cfg2.slots t 5).cast nbuf2_5)

/-- What the body is called with at point `t`: the invariant, the (empty) debt, each window's current buffer. -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- What it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point: the inputs' buffers hold their blocks; the point's head says which of the three runs
    applies; the invariant hands the accumulator at what the point before left (at anything before the first point) and
    takes it back at this point's contents; the output buffer is handed back untouched except at a head-7 point, where
    it holds the stored block; nothing is owed throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  by_cases h0 : t.val % 8 = 0
  · by_cases h1 : t.val % 8 = 7
    · exfalso; omega
    · rw [Dat.leavesExact_idle (dat2 V c) 5 t (idleAt2_5_A t ((hcond2_0 t).mpr h0) (fun h => h1 ((hcond2_1 t).mp h))) (noFlush2_5_A t ((hcond2_0 t).mpr h0) (fun h => h1 ((hcond2_1 t).mp h)))]
      rw [scAt2_A V c t h0]
      by_cases hz : t.val = 0
      · rw [PhiS2_castSucc V c t, PhiS2_zero V c _ _ hz, PhiA2_eq]
        iintro ⟨⟨HS0, Ho, Hg⟩, Howe, ⟨%d0, H0⟩, ⟨%d1, H1⟩, ⟨%d2, H2⟩, ⟨%d3, H3⟩, ⟨%d4, H4⟩, ⟨%d5, H5⟩⟩
        iapply (kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, HS0⟩
        isplitl [HS0 Ho Hg]
        · isplitl [HS0]; · iexact HS0
          isplitl [Ho]; · iexact Ho
          iexact Hg
        isplitl [Howe]; · iexact Howe
        isplitl [H0]; · iexact H0
        isplitl [H1]; · iexact H1
        isplitl [H2]; · iexact H2
        isplitl [H3]; · iexact H3
        isplitl [H4]; · iexact H4
        iexists _; iexact H5
      · rw [PhiS2_castSucc V c t, PhiS2_pos V c _ _ hz]
        iintro ⟨⟨HS0, Ho, Hg⟩, Howe, ⟨%d0, H0⟩, ⟨%d1, H1⟩, ⟨%d2, H2⟩, ⟨%d3, H3⟩, ⟨%d4, H4⟩, ⟨%d5, H5⟩⟩
        iapply (kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, HS0⟩
        isplitl [HS0 Ho Hg]
        · isplitl [HS0]; · iexact HS0
          isplitl [Ho]; · iexact Ho
          iexact Hg
        isplitl [Howe]; · iexact Howe
        isplitl [H0]; · iexact H0
        isplitl [H1]; · iexact H1
        isplitl [H2]; · iexact H2
        isplitl [H3]; · iexact H3
        isplitl [H4]; · iexact H4
        iexists _; iexact H5
  · have hz : t.val ≠ 0 := fun e => h0 (by rw [e])
    rw [scAt2_B V c t h0]
    rw [PhiS2_castSucc V c t, PhiS2_pos V c _ _ hz]
    by_cases h1 : t.val % 8 = 7
    · rw [show (dat2 V c).leavesExact 5 t = owns (c : Thread nD τ) (ms2_5 t) fullShare ((dat2 V c).after 5 t) from by
        unfold Dat.leavesExact; rw [liveAt2_5_C t (fun h => h0 ((hcond2_0 t).mp h)) ((hcond2_1 t).mpr h1)], after2_5, scAt2_B V c t h0]
      · iintro ⟨⟨HS0, Ho, Hg⟩, Howe, ⟨%d0, H0⟩, ⟨%d1, H1⟩, ⟨%d2, H2⟩, ⟨%d3, H3⟩, ⟨%d4, H4⟩, ⟨%d5, H5⟩⟩
        iapply (kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (scAt2 V c (t.val - 1) (Nat.lt_of_le_of_lt (Nat.sub_le _ _) t.isLt)) Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, H5, HS0⟩
        isplitl [HS0 Ho Hg]
        · isplitl [HS0]; · iexact HS0
          isplitl [Ho]; · iexact Ho
          iexact Hg
        isplitl [Howe]; · iexact Howe
        isplitl [H0]; · iexact H0
        isplitl [H1]; · iexact H1
        isplitl [H2]; · iexact H2
        isplitl [H3]; · iexact H3
        isplitl [H4]; · iexact H4
        iexact H5
    · rw [Dat.leavesExact_idle (dat2 V c) 5 t (idleAt2_5_B t (fun h => h0 ((hcond2_0 t).mp h)) (fun h => h1 ((hcond2_1 t).mp h))) (noFlush2_5_B t (fun h => h0 ((hcond2_0 t).mp h)) (fun h => h1 ((hcond2_1 t).mp h)))]
      · iintro ⟨⟨HS0, Ho, Hg⟩, Howe, ⟨%d0, H0⟩, ⟨%d1, H1⟩, ⟨%d2, H2⟩, ⟨%d3, H3⟩, ⟨%d4, H4⟩, ⟨%d5, H5⟩⟩
        iapply (kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (scAt2 V c (t.val - 1) (Nat.lt_of_le_of_lt (Nat.sub_le _ _) t.isLt)) _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, HS0⟩
        isplitl [HS0 Ho Hg]
        · isplitl [HS0]; · iexact HS0
          isplitl [Ho]; · iexact Ho
          iexact Hg
        isplitl [Howe]; · iexact Howe
        isplitl [H0]; · iexact H0
        isplitl [H1]; · iexact H1
        isplitl [H2]; · iexact H2
        isplitl [H3]; · iexact H3
        isplitl [H4]; · iexact H4
        iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the launch's back: the accumulator's contents are forgotten. -/
theorem Phi_out2 (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨HS0, Ho, Hg⟩
  isplitl [HS0]
  · iexists _; iexact HS0
  isplitl [Ho]; · iexact Ho
  iexact Hg

/-- After the last point the invariant gives it back: the accumulator's contents are forgotten. -/
theorem hout2 (c : Dev nD) : (dat2 V c).Φ (Fin.last cfg2.N) ⊢ (Pipeline.ΦA spec2 c : sProp 𝕄) :=
  Phi_out2 V c _ (by rw [Fin.val_last]; have : cfg2.N = 64 := N_2; omega)

end Cert.KernelIdeal.Hand

end
-- ==== Proof.KI.Run.lean ====
/-
  The run: the program's six segments (three host stretches, three kernel regions) launched as one program. The buffer
  contents at every segment boundary are a fold from the launch memory: a host stretch's results computed from the
  boundary before it; a region's windows' arrays at what its pipeline leaves, every other buffer as it was. Each region
  is a segment over the thread state "every unscoped buffer at the boundary's contents, the generator register at some
  state, nothing owed"; the launch over the segments then reads the last boundary's contents off the final state.
-/
import proofs.«425593_j41592463294467_3_alg».proof.Proof.Gen.KernelIdeal.Launch
import proofs.«425593_j41592463294467_3_alg».proof.Proof.Gen.KernelIdeal.Skeleton
import proofs.«425593_j41592463294467_3_alg».proof.Proof.Gen.KernelIdeal.Points
import proofs.«425593_j41592463294467_3_alg».proof.Proof.KI.Lin0Body
import proofs.«425593_j41592463294467_3_alg».proof.Proof.KI.Lin1Body
import proofs.«425593_j41592463294467_3_alg».proof.Proof.KI.AttnBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The host stretches: what each writes, and what it keeps -/

/-- The references the first host stretch writes: each operation's result. -/
abbrev host0_W : List (Ref sig .tc) := [main_v0, main_v1, main_v2, main_cst, main_v3, main_v4, main_v5, main_v6, main_v7, main_v8, main_v9, main_cst_0, main_v10, main_cst_1, main_v11, main_v12]
theorem host0_writes : (hostOps0 : List (HloOp τ sig (Elt F))).Forall fun op => op.writes ⊆ (host0_W.map (Proc.devRef (τ := τ) .tc)).toFinset := by
  simp only [List.Forall, StableHlo.nullary_writes, StableHlo.unary_writes, StableHlo.binary_writes, StableHlo.reshape_writes,
    Finset.singleton_subset_iff, List.mem_toFinset]
  repeat' apply And.intro
  all_goals exact List.mem_map_of_mem (by decide)
/-- A reference the stretch does not write keeps its contents through it, from any contents. -/
theorem host0_keeps (W : Valuation τ sig (Elt F)) (r : Ref sig .tc) (h : r ∉ host0_W) :
    StableHlo.after hostOps0 W (Proc.devRef .tc r) = W (Proc.devRef .tc r) :=
  StableHlo.after_of_writes_sub hostOps0 W host0_writes h
/-- No operation of the stretch allocates a buffer. -/
theorem hostOps0_fresh : (hostOps0 : List (HloOp τ sig (Elt F))).Forall fun op => op.fresh = ∅ := by
  simp only [List.Forall]; repeat' constructor

/-- The references the second host stretch writes: each operation's result. -/
abbrev host1_W : List (Ref sig .tc) := [main_v14]
theorem host1_writes : (hostOps1 : List (HloOp τ sig (Elt F))).Forall fun op => op.writes ⊆ (host1_W.map (Proc.devRef (τ := τ) .tc)).toFinset := by
  simp only [List.Forall, StableHlo.nullary_writes, StableHlo.unary_writes, StableHlo.binary_writes, StableHlo.reshape_writes,
    Finset.singleton_subset_iff, List.mem_toFinset]
  repeat' apply And.intro
  all_goals exact List.mem_map_of_mem (by decide)
/-- A reference the stretch does not write keeps its contents through it, from any contents. -/
theorem host1_keeps (W : Valuation τ sig (Elt F)) (r : Ref sig .tc) (h : r ∉ host1_W) :
    StableHlo.after hostOps1 W (Proc.devRef .tc r) = W (Proc.devRef .tc r) :=
  StableHlo.after_of_writes_sub hostOps1 W host1_writes h
/-- No operation of the stretch allocates a buffer. -/
theorem hostOps1_fresh : (hostOps1 : List (HloOp τ sig (Elt F))).Forall fun op => op.fresh = ∅ := by
  simp only [List.Forall]; repeat' constructor

/-- The references the third host stretch writes: each operation's result. -/
abbrev host2_W : List (Ref sig .tc) := [main_v16, main_v17, main_v18, main_v19, main_v20, main_v21, main_v22, main_v23, main_v24]
theorem host2_writes : (hostOps2 : List (HloOp τ sig (Elt F))).Forall fun op => op.writes ⊆ (host2_W.map (Proc.devRef (τ := τ) .tc)).toFinset := by
  simp only [List.Forall, StableHlo.nullary_writes, StableHlo.unary_writes, StableHlo.binary_writes, StableHlo.reshape_writes,
    Finset.singleton_subset_iff, List.mem_toFinset]
  repeat' apply And.intro
  all_goals exact List.mem_map_of_mem (by decide)
/-- A reference the stretch does not write keeps its contents through it, from any contents. -/
theorem host2_keeps (W : Valuation τ sig (Elt F)) (r : Ref sig .tc) (h : r ∉ host2_W) :
    StableHlo.after hostOps2 W (Proc.devRef .tc r) = W (Proc.devRef .tc r) :=
  StableHlo.after_of_writes_sub hostOps2 W host2_writes h
/-- No operation of the stretch allocates a buffer. -/
theorem hostOps2_fresh : (hostOps2 : List (HloOp τ sig (Elt F))).Forall fun op => op.fresh = ∅ := by
  simp only [List.Forall]; repeat' constructor

/-! # The buffer contents at each segment boundary: a fold through the program from the launch memory -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same, read at the TensorCore's references (what region 0's proof data are stated at). -/
abbrev V1 : (c : Dev nD) → (b : Ref sig .tc) → Buf (Elt F) ((c : Thread nD τ).loc b) := fun c b => W1 m ρ c b
theorem V1_def (c : Dev nD) (b : Ref sig .tc) :
    V1 m ρ c b = StableHlo.after hostOps0 (W0 m ρ c) (Proc.devRef .tc b) := rfl

/-- At region 0's exit: its windows' arrays at what the pipeline leaves in them (an input as entered, the output with
    every write-back folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references (region 0's exit contents). -/
abbrev V2 : (c : Dev nD) → (b : Ref sig .tc) → Buf (Elt F) ((c : Thread nD τ).loc b) := fun c b => W2 m ρ c b
/-- At the exit each window's array holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
/-- The same, read at the TensorCore's references (what region 1's proof data are stated at). -/
abbrev V3 : (c : Dev nD) → (b : Ref sig .tc) → Buf (Elt F) ((c : Thread nD τ).loc b) := fun c b => W3 m ρ c b
theorem V3_def (c : Dev nD) (b : Ref sig .tc) :
    V3 m ρ c b = StableHlo.after hostOps1 (W2 m ρ c) (Proc.devRef .tc b) := rfl

/-- At region 1's exit: its windows' arrays at what the pipeline leaves in them (an input as entered, the output with
    every write-back folded in), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the TensorCore's references (region 1's exit contents). -/
abbrev V4 : (c : Dev nD) → (b : Ref sig .tc) → Buf (Elt F) ((c : Thread nD τ).loc b) := fun c b => W4 m ρ c b
/-- At the exit each window's array holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (region 2's entry). -/
abbrev W5 : Dev nD → Valuation τ sig (Elt F) := fun c => StableHlo.after hostOps2 (W4 m ρ c)
/-- The same, read at the TensorCore's references (what region 2's proof data are stated at). -/
abbrev V5 : (c : Dev nD) → (b : Ref sig .tc) → Buf (Elt F) ((c : Thread nD τ).loc b) := fun c b => W5 m ρ c b
theorem V5_def (c : Dev nD) (b : Ref sig .tc) :
    V5 m ρ c b = StableHlo.after hostOps2 (W4 m ρ c) (Proc.devRef .tc b) := rfl

/-- At region 2's exit: its windows' arrays at what the pipeline leaves in them (an input as entered, the output with
    every write-back folded in), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same, read at the TensorCore's references (region 2's exit contents). -/
abbrev V6 : (c : Dev nD) → (b : Ref sig .tc) → Buf (Elt F) ((c : Thread nD τ).loc b) := fun c b => W6 m ρ c b
/-- At the exit each window's array holds what the pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## A buffer no stretch writes and no region has as a window ends as launched -/

theorem W6_untouched (c : Dev nD) (r : Ref sig .tc)
    (h5 : ∀ w, Pipeline.arrRef spec2 w ≠ r) (h4 : r ∉ host2_W) (h3 : ∀ w, Pipeline.arrRef spec1 w ≠ r) (h2 : r ∉ host1_W)
    (h1 : ∀ w, Pipeline.arrRef spec0 w ≠ r) (h0 : r ∉ host0_W) :
    W6 m ρ c (Proc.devRef .tc r) = m ((c : Thread nD τ).loc r) :=
  calc W6 m ρ c (Proc.devRef .tc r)
    _ = W5 m ρ c (Proc.devRef .tc r) := W6_of_ne m ρ c r h5
    _ = W4 m ρ c (Proc.devRef .tc r) := host2_keeps _ r h4
    _ = W3 m ρ c (Proc.devRef .tc r) := W4_of_ne m ρ c r h3
    _ = W2 m ρ c (Proc.devRef .tc r) := host1_keeps _ r h2
    _ = W1 m ρ c (Proc.devRef .tc r) := W2_of_ne m ρ c r h1
    _ = W0 m ρ c (Proc.devRef .tc r) := host0_keeps _ r h0
    _ = m ((c : Thread nD τ).loc r) := rfl

/-- Each argument ends as launched: it is no stretch's result and no region's window. -/
theorem W6_main_arg0 (c : Dev nD) : W6 m ρ c (Proc.devRef .tc main_arg0) = m ((c : Thread nD τ).loc main_arg0) :=
  W6_untouched m ρ c main_arg0 (by decide) (by decide) (by decide) (by decide) (by decide) (by decide)
theorem W6_main_arg1 (c : Dev nD) : W6 m ρ c (Proc.devRef .tc main_arg1) = m ((c : Thread nD τ).loc main_arg1) :=
  W6_untouched m ρ c main_arg1 (by decide) (by decide) (by decide) (by decide) (by decide) (by decide)
theorem W6_main_arg2 (c : Dev nD) : W6 m ρ c (Proc.devRef .tc main_arg2) = m ((c : Thread nD τ).loc main_arg2) :=
  W6_untouched m ρ c main_arg2 (by decide) (by decide) (by decide) (by decide) (by decide) (by decide)
theorem W6_main_arg3 (c : Dev nD) : W6 m ρ c (Proc.devRef .tc main_arg3) = m ((c : Thread nD τ).loc main_arg3) :=
  W6_untouched m ρ c main_arg3 (by decide) (by decide) (by decide) (by decide) (by decide) (by decide)
theorem W6_main_arg4 (c : Dev nD) : W6 m ρ c (Proc.devRef .tc main_arg4) = m ((c : Thread nD τ).loc main_arg4) :=
  W6_untouched m ρ c main_arg4 (by decide) (by decide) (by decide) (by decide) (by decide) (by decide)
theorem W6_main_arg5 (c : Dev nD) : W6 m ρ c (Proc.devRef .tc main_arg5) = m ((c : Thread nD τ).loc main_arg5) :=
  W6_untouched m ρ c main_arg5 (by decide) (by decide) (by decide) (by decide) (by decide) (by decide)

/-- The result's buffer ends at what the third region's pipeline leaves in its output window's array. -/
theorem W6_main_v25 (c : Dev nD) : W6 m ρ c (Proc.devRef .tc main_v25) = (dat2 (V5 m ρ) c).arrAt 5 cfg2.N :=
  W6_arr m ρ c 5

/-! # The proof data family and the thread state -/

/-- The prefetched tables' admissible contents: no region has a table. -/
abbrev adm : (p : Fin 3) → (pcfgs (F := F) p).Adm := fun p => (cfgs p).toPCfg_adm
/-- Every region's proof data, each at its region's entry contents: a literal match on the region's number, so that
    the data of a numbered region reduce to the ones stated for it. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at the contents the stretch computes from `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W6 m ρ c) ∗ ∃ r, prngReg c r)

/-! # The regions as segments -/

-- a library lemma stated over the pinned configuration unifies with the printed one only when unification may unfold
-- plain definitions in a metavariable's type
set_option backward.isDefEq.respectTransparency.types false in
/-- The first region (a row-block linear map): entered from every unscoped buffer at `W1`, left at `W2`.
    Its windows' arrays are split out of the unscoped buffers at entry and put back at their final contents at exit;
    the generator register goes into the region's invariant and comes back; nothing is owed; the kernel has no
    semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The second region (a row-block linear map): entered from every unscoped buffer at `W3`, left at `W4`.
    Its windows' arrays are split out of the unscoped buffers at entry and put back at their final contents at exit;
    the generator register goes into the region's invariant and comes back; nothing is owed; the kernel has no
    semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The third region (the attention and projection call): entered from every unscoped buffer at `W5`, left at `W6`.
    As the two before it, except that its invariant is not constant: what the launch hands over makes the invariant
    before the first point (`hin2`), and after the last point the invariant gives it back (`hout2`). -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec2 c : sProp 𝕄) ⊢ (pdats m ρ 2 c).Φ 0 := hin2 (V5 m ρ) c
    iintro ⟨Hp, -, Hr⟩
    iapply h
    unfold Pipeline.ΦA
    isplitl [Hr]; · iexact Hr
    iexact Hp
  hout c := by
    rw [Pipeline.ownSems0_none]
    have h : (pdats m ρ 2 c).Φ (Fin.last _) ⊢ (Pipeline.ΦA spec2 c : sProp 𝕄) := hout2 (V5 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # The program as segments, and the launch -/

/-- The program's six segments in order: a host segment per stretch from its boundary's contents, a region per call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- The program is the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN. From any memory with zero counters every weakly fair execution of the program on the TensorCores
    terminates, nothing faulting, and in every final state each core's unscoped buffers hold the last boundary's
    contents `W6`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h => h)

/-- THE FRAME: the program runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r h c =>
    ⟨(h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c)⟩) (run_main m ρ)

/-- THE RUN WITH THE RESULT: the program runs to the end, the result's buffer ends at what the third region's pipeline
    leaves in its output window's array, and every argument array ends as launched. -/
theorem run_value : θ_run defs (onTc (τ := τ) (main (F := F))) ⟨m, fun _ => 0, ρ⟩ (fun r => ∀ c : Dev nD,
      r.2.mem ((c.tc : Thread nD τ).loc main_v25) = (dat2 (V5 m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r h c =>
    ⟨(h c _ (mem_uc main_v25 (by decide))).trans (W6_main_v25 m ρ c),
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c)⟩) (run_main m ρ)

end Cert.KernelIdeal.Hand

end
-- ==== Proof.Val.Host.lean ====
import proofs.«425593_j41592463294467_3_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

/-!
# The host stretches of the idealized kernel program, read at an index

Between its three kernel regions the program rearranges arrays on the host: reshapes, transposes, a scaling by a
constant, slices and format changes (which are the identity over the extended reals). For an arbitrary valuation `X` of
the buffers, each operand array of a region is read here at an index after its stretch, in terms of `X` at buffers the
stretch does not write; and a buffer a stretch does not write keeps its contents.
-/

noncomputable section

namespace Cert.KernelIdeal.Val

open Cert.KernelIdeal Cert.KernelIdeal.Gen
open Idealize.ShloMosaic Idealize.ShloMosaic.ValueIdx Idealize.ShloMosaic.TcCoe Idealize.ShloMosaic.StableHlo

variable (X : Valuation τ sig (Elt Ideal))

/-! ## Before the first region -/

/-- The query weights as launched, and the scale constant. -/
abbrev wqIn : S768x768.Idx → EReal := X (main_arg2 : DevRef τ sig)
abbrev scaleC : EReal := Ideal.ofBits .f32 0x3DD105EC#32

/-- The first activation array flattened to rows: row `1024 b + n` is position `n` of batch `b`. -/
theorem host0_v0_of (b : Fin 8) (n : Fin 1024) (k : Fin 768) (r : Fin 8192) (hr : r.val = b.val * 1024 + n.val) :
    (after (hostOps0 (F := Ideal)) X (main_v0 : DevRef τ sig) : S8192x768.Idx → EReal) (ix2 r k)
      = (X (main_arg0 : DevRef τ sig) : S8x1024x768.Idx → EReal) (ix3 b n k) := by
  have e : (after (hostOps0 (F := Ideal)) X (main_v0 : DevRef τ sig) : S8192x768.Idx → EReal)
      = shapeCast S8192x768 (X (main_arg0 : DevRef τ sig) : S8x1024x768.Idx → EReal) shapeCasts_S8x1024x768_S8192x768 := by
    after_results <;> rfl
  rw [e]
  refine shapeCast_apply _ _ _ _ ?_
  show (S8x1024x768.rowMajor (ix3 b n k)).val = (S8192x768.rowMajor (ix2 r k)).val
  rw [Shape.rowMajor_val_three, Shape.rowMajor_val_two]
  show (b.val * 1024 + n.val) * 768 + k.val = r.val * 768 + k.val
  rw [hr]

/-- The same at a row given by its number. -/
theorem host0_v0 (r : Fin 8192) (k : Fin 768) :
    (after (hostOps0 (F := Ideal)) X (main_v0 : DevRef τ sig) : S8192x768.Idx → EReal) (ix2 r k)
      = (X (main_arg0 : DevRef τ sig) : S8x1024x768.Idx → EReal)
          (ix3 ⟨r.val / 1024, by omega⟩ ⟨r.val % 1024, Nat.mod_lt _ (by decide)⟩ k) :=
  host0_v0_of X _ _ k r (by show r.val = r.val / 1024 * 1024 + r.val % 1024; omega)

/-- The second activation array flattened to rows. -/
theorem host0_v1_of (b : Fin 8) (n : Fin 1024) (k : Fin 768) (r : Fin 8192) (hr : r.val = b.val * 1024 + n.val) :
    (after (hostOps0 (F := Ideal)) X (main_v1 : DevRef τ sig) : S8192x768.Idx → EReal) (ix2 r k)
      = (X (main_arg1 : DevRef τ sig) : S8x1024x768.Idx → EReal) (ix3 b n k) := by
  have e : (after (hostOps0 (F := Ideal)) X (main_v1 : DevRef τ sig) : S8192x768.Idx → EReal)
      = shapeCast S8192x768 (X (main_arg1 : DevRef τ sig) : S8x1024x768.Idx → EReal) shapeCasts_S8x1024x768_S8192x768 := by
    after_results <;> rfl
  rw [e]
  refine shapeCast_apply _ _ _ _ ?_
  show (S8x1024x768.rowMajor (ix3 b n k)).val = (S8192x768.rowMajor (ix2 r k)).val
  rw [Shape.rowMajor_val_three, Shape.rowMajor_val_two]
  show (b.val * 1024 + n.val) * 768 + k.val = r.val * 768 + k.val
  rw [hr]

theorem host0_v1 (r : Fin 8192) (k : Fin 768) :
    (after (hostOps0 (F := Ideal)) X (main_v1 : DevRef τ sig) : S8192x768.Idx → EReal) (ix2 r k)
      = (X (main_arg1 : DevRef τ sig) : S8x1024x768.Idx → EReal)
          (ix3 ⟨r.val / 1024, by omega⟩ ⟨r.val % 1024, Nat.mod_lt _ (by decide)⟩ k) :=
  host0_v1_of X _ _ k r (by show r.val = r.val / 1024 * 1024 + r.val % 1024; omega)

/-- The query weights transposed and scaled (the narrowing is the identity over the extended reals). -/
theorem host0_v5 (k o : Fin 768) :
    (after (hostOps0 (F := Ideal)) X (main_v5 : DevRef τ sig) : S768x768.Idx → EReal) (ix2 k o)
      = wqIn X (ix2 o k) * scaleC := by
  have e : (after (hostOps0 (F := Ideal)) X (main_v5 : DevRef τ sig) : S768x768.Idx → EReal)
      = truncf (F := Ideal) .bf16 (mulf (transpose S768x768 [1, 0] (wqIn X) transposes_S768x768_S768x768_1_0)
          (broadcastInDim S768x768 ![] bcast_S_S768x768 (constant (F := Ideal) S_ .f32 0x3DD105EC#32))) bitsLt_bf16_f32 := by
    after_results <;> rfl
  rw [e]
  show (transpose S768x768 [1, 0] (wqIn X) transposes_S768x768_S768x768_1_0) (ix2 k o)
      * (broadcastInDim S768x768 ![] bcast_S_S768x768 (constant (F := Ideal) S_ .f32 0x3DD105EC#32)) (ix2 k o) = _
  rw [transpose_ix2_apply, broadcastInDim_scalar_apply]
  rfl

/-- The key/value weights transposed. -/
theorem host0_v7 (k : Fin 768) (o : Fin 1536) :
    (after (hostOps0 (F := Ideal)) X (main_v7 : DevRef τ sig) : S768x1536.Idx → EReal) (ix2 k o)
      = (X (main_arg3 : DevRef τ sig) : S1536x768.Idx → EReal) (ix2 o k) := by
  have e : (after (hostOps0 (F := Ideal)) X (main_v7 : DevRef τ sig) : S768x1536.Idx → EReal)
      = truncf (F := Ideal) .bf16 (transpose S768x1536 [1, 0] (X (main_arg3 : DevRef τ sig) : S1536x768.Idx → EReal)
          transposes_S1536x768_S768x1536_1_0) bitsLt_bf16_f32 := by
    after_results <;> rfl
  rw [e]
  exact transpose_ix2_apply _ _ k o

/-- The output weights transposed. -/
theorem host0_v9 (c o : Fin 768) :
    (after (hostOps0 (F := Ideal)) X (main_v9 : DevRef τ sig) : S768x768.Idx → EReal) (ix2 c o)
      = (X (main_arg4 : DevRef τ sig) : S768x768.Idx → EReal) (ix2 o c) := by
  have e : (after (hostOps0 (F := Ideal)) X (main_v9 : DevRef τ sig) : S768x768.Idx → EReal)
      = truncf (F := Ideal) .bf16 (transpose S768x768 [1, 0] (X (main_arg4 : DevRef τ sig) : S768x768.Idx → EReal)
          transposes_S768x768_S768x768_1_0) bitsLt_bf16_f32 := by
    after_results <;> rfl
  rw [e]
  exact transpose_ix2_apply _ _ c o

/-- The first region's bias row is zero. -/
theorem host0_v12 (u : Fin 1) (o : Fin 768) :
    (after (hostOps0 (F := Ideal)) X (main_v12 : DevRef τ sig) : S1x768.Idx → EReal) (ix2 u o) = (0 : EReal) := by
  have e : (after (hostOps0 (F := Ideal)) X (main_v12 : DevRef τ sig) : S1x768.Idx → EReal)
      = shapeCast S1x768 (broadcastInDim S768 ![] bcast_S_S768 (constant (F := Ideal) S_ .f32 0x00000000#32))
          shapeCasts_S768_S1x768 := by
    after_results <;> rfl
  rw [e]
  refine (shapeCast_a_1a_apply _ _ u o).trans ?_
  refine (broadcastInDim_scalar_apply _ _ _).trans ?_
  exact Ideal.ofBits_zero_f32

/-- The array the second region's bias row is made of is zero. -/
theorem host0_v11 (o : Fin 1536) :
    (after (hostOps0 (F := Ideal)) X (main_v11 : DevRef τ sig) : S1536.Idx → EReal) (ix1 o) = (0 : EReal) := by
  have e : (after (hostOps0 (F := Ideal)) X (main_v11 : DevRef τ sig) : S1536.Idx → EReal)
      = broadcastInDim S1536 ![] bcast_S_S1536 (constant (F := Ideal) S_ .f32 0x00000000#32) := by
    after_results <;> rfl
  rw [e]
  refine (broadcastInDim_scalar_apply _ _ _).trans ?_
  exact Ideal.ofBits_zero_f32

/-- A buffer the first stretch does not write keeps its contents. -/
theorem host0_of (r : Ref sig .tc) (h : r ∉ hostOps0_W) :
    after (hostOps0 (F := Ideal)) X (Proc.devRef .tc r) = X (Proc.devRef .tc r) :=
  after_of_writes_sub hostOps0 X hostOps0_writes h

/-! ## Before the second region -/

/-- The second region's bias row is the array it is reshaped from. -/
theorem host1_v14 (u : Fin 1) (o : Fin 1536) :
    (after (hostOps1 (F := Ideal)) X (main_v14 : DevRef τ sig) : S1x1536.Idx → EReal) (ix2 u o)
      = (X (main_v11 : DevRef τ sig) : S1536.Idx → EReal) (ix1 o) := by
  have e : (after (hostOps1 (F := Ideal)) X (main_v14 : DevRef τ sig) : S1x1536.Idx → EReal)
      = shapeCast S1x1536 (X (main_v11 : DevRef τ sig) : S1536.Idx → EReal) shapeCasts_S1536_S1x1536 := by
    after_results <;> rfl
  rw [e]
  exact shapeCast_a_1a_apply _ _ u o

/-- A buffer the second stretch does not write keeps its contents. -/
theorem host1_of (r : Ref sig .tc) (h : r ∉ hostOps1_W) :
    after (hostOps1 (F := Ideal)) X (Proc.devRef .tc r) = X (Proc.devRef .tc r) :=
  after_of_writes_sub hostOps1 X hostOps1_writes h

/-! ## Before the third region -/

/-- The query projection reread head-major along the row-major order: entry (b, h, n, d) of the [8, 8, 1024, 96]
    array is entry (1024 b + 128 h + n / 8, 96 (n % 8) + d) of the [8192, 768] array. -/
theorem host2_v16_of (b h : Fin 8) (n : Fin 1024) (d : Fin 96) (r : Fin 8192) (k : Fin 768)
    (hr : r.val = b.val * 1024 + (h.val * 128 + n.val / 8)) (hk : k.val = n.val % 8 * 96 + d.val) :
    (after (hostOps2 (F := Ideal)) X (main_v16 : DevRef τ sig) : S8x8x1024x96.Idx → EReal) (ix4 b h n d)
      = (X (main_v13 : DevRef τ sig) : S8192x768.Idx → EReal) (ix2 r k) := by
  have e : (after (hostOps2 (F := Ideal)) X (main_v16 : DevRef τ sig) : S8x8x1024x96.Idx → EReal)
      = shapeCast S8x8x1024x96 (X (main_v13 : DevRef τ sig) : S8192x768.Idx → EReal) shapeCasts_S8192x768_S8x8x1024x96 := by
    after_results <;> rfl
  rw [e]
  refine shapeCast_apply _ _ _ _ ?_
  show (S8192x768.rowMajor (ix2 r k)).val = (S8x8x1024x96.rowMajor (ix4 b h n d)).val
  rw [Shape.rowMajor_val_two, Shape.rowMajor_val_four]
  show r.val * 768 + k.val = ((b.val * 8 + h.val) * 1024 + n.val) * 96 + d.val
  rw [hr, hk]
  omega

/-- The key/value projection split in two, cut into heads and moved head-major: the key half. -/
theorem host2_v20_of (b h : Fin 8) (n : Fin 1024) (d : Fin 96) (r : Fin 8192) (k : Fin 1536)
    (hr : r.val = b.val * 1024 + n.val) (hk : k.val = h.val * 96 + d.val) :
    (after (hostOps2 (F := Ideal)) X (main_v20 : DevRef τ sig) : S8x8x1024x96.Idx → EReal) (ix4 b h n d)
      = (X (main_v15 : DevRef τ sig) : S8192x1536.Idx → EReal) (ix2 r k) := by
  have e : (after (hostOps2 (F := Ideal)) X (main_v20 : DevRef τ sig) : S8x8x1024x96.Idx → EReal)
      = transpose S8x8x1024x96 [0, 2, 1, 3]
          (shapeCast S8x1024x8x96
            (extractStridedSlice S8x1024x1x8x96 ![0, 0, 0, 0, 0]
              (shapeCast S8x1024x2x8x96 (X (main_v15 : DevRef τ sig) : S8192x1536.Idx → EReal)
                shapeCasts_S8192x1536_S8x1024x2x8x96)
              slices_S8x1024x2x8x96_S8x1024x1x8x96_0_0_0_0_0)
            shapeCasts_S8x1024x1x8x96_S8x1024x8x96)
          transposes_S8x1024x8x96_S8x8x1024x96_0_2_1_3 := by
    after_results <;> rfl
  rw [e]
  refine (transpose_apply _ _ _ _ (ix4 b n h d) (fun a => by
    match a with
    | ⟨0, _⟩ => rfl
    | ⟨1, _⟩ => rfl
    | ⟨2, _⟩ => rfl
    | ⟨3, _⟩ => rfl)).trans ?_
  refine (shapeCast_apply _ _ _ (ix5 b n (0 : Fin 1) h d) ?_).trans ?_
  · show (S8x1024x1x8x96.rowMajor (ix5 b n (0 : Fin 1) h d)).val = (S8x1024x8x96.rowMajor (ix4 b n h d)).val
    rw [Shape.rowMajor_val_five, Shape.rowMajor_val_four]
    show (((b.val * 1024 + n.val) * 1 + 0) * 8 + h.val) * 96 + d.val = ((b.val * 1024 + n.val) * 8 + h.val) * 96 + d.val
    omega
  refine (extractStridedSlice_apply _ _ _ _ (ix5 b n (0 : Fin 2) h d) (fun a => by
    match a with
    | ⟨0, _⟩ => exact (Nat.zero_add _).symm
    | ⟨1, _⟩ => exact (Nat.zero_add _).symm
    | ⟨2, _⟩ => rfl
    | ⟨3, _⟩ => exact (Nat.zero_add _).symm
    | ⟨4, _⟩ => exact (Nat.zero_add _).symm)).trans ?_
  refine shapeCast_apply _ _ _ _ ?_
  show (S8192x1536.rowMajor (ix2 r k)).val = (S8x1024x2x8x96.rowMajor (ix5 b n (0 : Fin 2) h d)).val
  rw [Shape.rowMajor_val_two, Shape.rowMajor_val_five]
  show r.val * 1536 + k.val = (((b.val * 1024 + n.val) * 2 + 0) * 8 + h.val) * 96 + d.val
  rw [hr, hk]
  omega

/-- The value half. -/
theorem host2_v23_of (b h : Fin 8) (n : Fin 1024) (d : Fin 96) (r : Fin 8192) (k : Fin 1536)
    (hr : r.val = b.val * 1024 + n.val) (hk : k.val = 768 + h.val * 96 + d.val) :
    (after (hostOps2 (F := Ideal)) X (main_v23 : DevRef τ sig) : S8x8x1024x96.Idx → EReal) (ix4 b h n d)
      = (X (main_v15 : DevRef τ sig) : S8192x1536.Idx → EReal) (ix2 r k) := by
  have e : (after (hostOps2 (F := Ideal)) X (main_v23 : DevRef τ sig) : S8x8x1024x96.Idx → EReal)
      = transpose S8x8x1024x96 [0, 2, 1, 3]
          (shapeCast S8x1024x8x96
            (extractStridedSlice S8x1024x1x8x96 ![0, 0, 1, 0, 0]
              (shapeCast S8x1024x2x8x96 (X (main_v15 : DevRef τ sig) : S8192x1536.Idx → EReal)
                shapeCasts_S8192x1536_S8x1024x2x8x96)
              slices_S8x1024x2x8x96_S8x1024x1x8x96_0_0_1_0_0)
            shapeCasts_S8x1024x1x8x96_S8x1024x8x96)
          transposes_S8x1024x8x96_S8x8x1024x96_0_2_1_3 := by
    after_results <;> rfl
  rw [e]
  refine (transpose_apply _ _ _ _ (ix4 b n h d) (fun a => by
    match a with
    | ⟨0, _⟩ => rfl
    | ⟨1, _⟩ => rfl
    | ⟨2, _⟩ => rfl
    | ⟨3, _⟩ => rfl)).trans ?_
  refine (shapeCast_apply _ _ _ (ix5 b n (0 : Fin 1) h d) ?_).trans ?_
  · show (S8x1024x1x8x96.rowMajor (ix5 b n (0 : Fin 1) h d)).val = (S8x1024x8x96.rowMajor (ix4 b n h d)).val
    rw [Shape.rowMajor_val_five, Shape.rowMajor_val_four]
    show (((b.val * 1024 + n.val) * 1 + 0) * 8 + h.val) * 96 + d.val = ((b.val * 1024 + n.val) * 8 + h.val) * 96 + d.val
    omega
  refine (extractStridedSlice_apply _ _ _ _ (ix5 b n (1 : Fin 2) h d) (fun a => by
    match a with
    | ⟨0, _⟩ => exact (Nat.zero_add _).symm
    | ⟨1, _⟩ => exact (Nat.zero_add _).symm
    | ⟨2, _⟩ => rfl
    | ⟨3, _⟩ => exact (Nat.zero_add _).symm
    | ⟨4, _⟩ => exact (Nat.zero_add _).symm)).trans ?_
  refine shapeCast_apply _ _ _ _ ?_
  show (S8192x1536.rowMajor (ix2 r k)).val = (S8x1024x2x8x96.rowMajor (ix5 b n (1 : Fin 2) h d)).val
  rw [Shape.rowMajor_val_two, Shape.rowMajor_val_five]
  show r.val * 1536 + k.val = (((b.val * 1024 + n.val) * 2 + 1) * 8 + h.val) * 96 + d.val
  rw [hr, hk]
  omega

/-- The output bias as a row. -/
theorem host2_v24 (u : Fin 1) (o : Fin 768) :
    (after (hostOps2 (F := Ideal)) X (main_v24 : DevRef τ sig) : S1x768.Idx → EReal) (ix2 u o)
      = (X (main_arg5 : DevRef τ sig) : S768.Idx → EReal) (ix1 o) := by
  have e : (after (hostOps2 (F := Ideal)) X (main_v24 : DevRef τ sig) : S1x768.Idx → EReal)
      = shapeCast S1x768 (X (main_arg5 : DevRef τ sig) : S768.Idx → EReal) shapeCasts_S768_S1x768 := by
    after_results <;> rfl
  rw [e]
  exact shapeCast_a_1a_apply _ _ u o

/-- A buffer the third stretch does not write keeps its contents. -/
theorem host2_of (r : Ref sig .tc) (h : r ∉ hostOps2_W) :
    after (hostOps2 (F := Ideal)) X (Proc.devRef .tc r) = X (Proc.devRef .tc r) :=
  after_of_writes_sub hostOps2 X hostOps2_writes h

end Cert.KernelIdeal.Val

end
-- ==== Proof.Val.Lin.lean ====
/-
  The two row-block linear regions of the kernel, read as whole arrays: after the region every entry (r, o) of its
  output array is the row r of the input array times the column o of the weight array, summed over the 768 inner
  coordinates, plus the entry o of the bias row.
-/
import proofs.«425593_j41592463294467_3_alg».proof.Proof.KI.Lin0Defs
import proofs.«425593_j41592463294467_3_alg».proof.Proof.KI.Lin1Defs
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

open scoped BigOperators

namespace Cert.KernelIdeal.Val

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The arrays region 0 reads and the array it writes, each as a function from its literal index type to the
    extended reals: the input rows, the weight matrix, the bias row, and the output after the region's last point. -/
abbrev xs0 (c : Dev nD) : S8192x768.Idx → EReal := V c main_v0
abbrev wt0 (c : Dev nD) : S768x768.Idx → EReal := V c main_v5
abbrev bias0 (c : Dev nD) : S1x768.Idx → EReal := V c main_v12
abbrev lin0 (c : Dev nD) : S8192x768.Idx → EReal := (dat0 (F := Ideal) V c).arrAt 3 cfg0.N

/-- The same for region 1. -/
abbrev xs1 (c : Dev nD) : S8192x768.Idx → EReal := V c main_v1
abbrev wt1 (c : Dev nD) : S768x1536.Idx → EReal := V c main_v7
abbrev bias1 (c : Dev nD) : S1x1536.Idx → EReal := V c main_v14
abbrev lin1 (c : Dev nD) : S8192x1536.Idx → EReal := (dat1 (F := Ideal) V c).arrAt 3 cfg1.N

/-- The zero offsets, however spelt. -/
theorem hz : (![0, 0] : Fin 2 → Nat) = fun _ => 0 := funext fun a => by fin_cases a <;> rfl

/-! ## Region 0: the body's payload at an entry of the block -/

/-- The product's dimension numbers: the left operand is read at the output's row and the contraction coordinate,
    the right one at the contraction coordinate and the output's column. -/
theorem lhs0_0 (i : S1024x768.Idx) (q : dot_S1024x768_S768x768_S1024x768_1_0_0_1_n_n.contr.Idx) :
    (dot_S1024x768_S768x768_S1024x768_1_0_0_1_n_n.lhsIdx i q 0).val = (i 0).val := by
  unfold DotDims.lhsIdx
  rw [dif_neg (show ¬(0 : Fin S1024x768.rank) ∈ dot_S1024x768_S768x768_S1024x768_1_0_0_1_n_n.lhsBatch by decide), dif_pos (show (0 : Fin S1024x768.rank) ∈ dot_S1024x768_S768x768_S1024x768_1_0_0_1_n_n.lhsNonContracting by decide)]
  rfl
theorem lhs0_1 (i : S1024x768.Idx) (q : dot_S1024x768_S768x768_S1024x768_1_0_0_1_n_n.contr.Idx) :
    (dot_S1024x768_S768x768_S1024x768_1_0_0_1_n_n.lhsIdx i q 1).val = (q ⟨0, by decide⟩).val :=
  dot_S1024x768_S768x768_S1024x768_1_0_0_1_n_n.lhsIdx_val_of_single rfl i q
theorem rhs0_0 (i : S1024x768.Idx) (q : dot_S1024x768_S768x768_S1024x768_1_0_0_1_n_n.contr.Idx) :
    (dot_S1024x768_S768x768_S1024x768_1_0_0_1_n_n.rhsIdx i q 0).val = (q ⟨0, by decide⟩).val :=
  dot_S1024x768_S768x768_S1024x768_1_0_0_1_n_n.rhsIdx_val_of_single rfl i q
theorem rhs0_1 (i : S1024x768.Idx) (q : dot_S1024x768_S768x768_S1024x768_1_0_0_1_n_n.contr.Idx) :
    (dot_S1024x768_S768x768_S1024x768_1_0_0_1_n_n.rhsIdx i q 1).val = (i 1).val := by
  unfold DotDims.rhsIdx
  rw [dif_neg (show ¬(1 : Fin S768x768.rank) ∈ dot_S1024x768_S768x768_S1024x768_1_0_0_1_n_n.rhsBatch by decide), dif_pos (show (1 : Fin S768x768.rank) ∈ dot_S1024x768_S768x768_S1024x768_1_0_0_1_n_n.rhsNonContracting by decide)]
  rfl

/-- The matrix product into the zero accumulator, at entry (p, o): the sum over the 768 inner coordinates. -/
theorem matmul0_apply (x : FVec Ideal S1024x768 .bf16) (w : FVec Ideal S768x768 .bf16) (p : Fin 1024) (o : Fin 768) :
    (matmul (F := Ideal) dot_S1024x768_S768x768_S1024x768_1_0_0_1_n_n none x w (constant (F := Ideal) S1024x768 .f32 0x00000000#32) : FVec Ideal S1024x768 .f32) (ix2 p o)
      = ∑ k : Fin 768, x (ix2 p k) * w (ix2 k o) := by
  refine (Ideal.matmul_constant_zero_apply dot_S1024x768_S768x768_S1024x768_1_0_0_1_n_n none x w (ix2 p o)).trans ?_
  rw [← Equiv.sum_comp (ValueIdx.contrEquiv1 dot_S1024x768_S768x768_S1024x768_1_0_0_1_n_n 768 rfl rfl).symm]
  refine Finset.sum_congr rfl fun k _ => ?_
  have hk := ValueIdx.contrEquiv1_symm_val dot_S1024x768_S768x768_S1024x768_1_0_0_1_n_n 768 rfl rfl k
  have el : dot_S1024x768_S768x768_S1024x768_1_0_0_1_n_n.lhsIdx (ix2 p o) ((ValueIdx.contrEquiv1 dot_S1024x768_S768x768_S1024x768_1_0_0_1_n_n 768 rfl rfl).symm k) = ix2 p k := funext fun a => Fin.ext (by
    match a with
    | ⟨0, _⟩ => exact lhs0_0 _ _
    | ⟨1, _⟩ => exact (lhs0_1 _ _).trans hk)
  have er : dot_S1024x768_S768x768_S1024x768_1_0_0_1_n_n.rhsIdx (ix2 p o) ((ValueIdx.contrEquiv1 dot_S1024x768_S768x768_S1024x768_1_0_0_1_n_n 768 rfl rfl).symm k) = ix2 k o := funext fun a => Fin.ext (by
    match a with
    | ⟨0, _⟩ => exact (rhs0_0 _ _).trans hk
    | ⟨1, _⟩ => exact rhs0_1 _ _)
  rw [el, er]

/-- The payload at entry (p, o) of the block: row p of the input block times column o of the weight matrix,
    plus entry o of the bias row (the narrowings are the identity on the extended reals). -/
theorem pay0_apply (x : FVec Ideal S1024x768 .f32) (w : FVec Ideal S768x768 .bf16) (b : FVec Ideal S1x768 .f32)
    (p : Fin 1024) (o : Fin 768) :
    (k0_pay1 (F := Ideal) x w b : FVec Ideal S1024x768 .bf16) (ix2 p o)
      = (∑ k : Fin 768, x (ix2 p k) * w (ix2 k o)) + b (ix2 (0 : Fin 1) o) := by
  unfold k0_pay1
  rw [shapeCast_self, shapeCast_self, shapeCast_self, truncf_apply, addf_apply, matmul0_apply, broadcastTo_1b_ab_apply]
  rfl

/-! ## Region 0: the blocks the body reads, as entries of the arrays -/

/-- The block indices of the four windows at grid point t, decided over the 8 points: the input rows and the
    output move with the point along the rows; the weight matrix and the bias row are whole. -/
theorem idx0_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The three input blocks at point t, at their literal types. -/
abbrev xblk0 (c : Dev nD) (t : Fin cfg0.N) : FVec Ideal S1024x768 .f32 := iblk0 V c 0 t
abbrev wblk0 (c : Dev nD) (t : Fin cfg0.N) : FVec Ideal S768x768 .bf16 := iblk0 V c 1 t
abbrev bblk0 (c : Dev nD) (t : Fin cfg0.N) : FVec Ideal S1x768 .f32 := iblk0 V c 2 t

/-- The input block at point t is rows 1024 t … 1024 t + 1023 of the input array. -/
theorem xblk0_apply (c : Dev nD) (t : Fin cfg0.N) (p : Fin 1024) (k : Fin 768) (r : Fin 8192)
    (hr : r.val = 1024 * t.val + p.val) : xblk0 V c t (ix2 p k) = xs0 V c (ix2 r k) := by
  obtain ⟨e0, e1, -⟩ := idx0_facts t
  show V c main_v0 (((cfg0.win 0).blk t).view.emb (ix2 p k)) = V c main_v0 (ix2 r k)
  refine congrArg (V c main_v0) (funext fun a => Fin.ext ?_)
  match a with
  | ⟨0, _⟩ => show win0_0.index t (0 : Fin 2) * 1024 + 1 * p.val = r.val; omega
  | ⟨1, _⟩ => show win0_0.index t (1 : Fin 2) * 768 + 1 * k.val = k.val; omega

/-- The weight block at every point is the whole weight matrix. -/
theorem wblk0_apply (c : Dev nD) (t : Fin cfg0.N) (k : Fin 768) (o : Fin 768) :
    wblk0 V c t (ix2 k o) = wt0 V c (ix2 k o) := by
  obtain ⟨-, -, e2, e3, -⟩ := idx0_facts t
  show V c main_v5 (((cfg0.win 1).blk t).view.emb (ix2 k o)) = V c main_v5 (ix2 k o)
  refine congrArg (V c main_v5) (funext fun a => Fin.ext ?_)
  match a with
  | ⟨0, _⟩ => show win0_1.index t (0 : Fin 2) * 768 + 1 * k.val = k.val; omega
  | ⟨1, _⟩ => show win0_1.index t (1 : Fin 2) * 768 + 1 * o.val = o.val; omega

/-- The bias block at every point is the whole bias row. -/
theorem bblk0_apply (c : Dev nD) (t : Fin cfg0.N) (o : Fin 768) :
    bblk0 V c t (ix2 (0 : Fin 1) o) = bias0 V c (ix2 (0 : Fin 1) o) := by
  obtain ⟨-, -, -, -, e4, e5, -⟩ := idx0_facts t
  show V c main_v12 (((cfg0.win 2).blk t).view.emb (ix2 (0 : Fin 1) o)) = V c main_v12 (ix2 (0 : Fin 1) o)
  refine congrArg (V c main_v12) (funext fun a => Fin.ext ?_)
  match a with
  | ⟨0, _⟩ => show win0_2.index t (0 : Fin 2) * 1 + 1 * 0 = 0; omega
  | ⟨1, _⟩ => show win0_2.index t (1 : Fin 2) * 768 + 1 * o.val = o.val; omega

/-! ## Region 0: from the blocks to the array -/

/-- What the region leaves in its output array: entry (r, o) is row r of the input array times column o of the
    weight matrix, summed over the 768 inner coordinates, plus entry o of the bias row. -/
def G0 (c : Dev nD) : S8192x768.Idx → EReal := fun i =>
  (∑ k : Fin 768, xs0 V c (ix2 (⟨(i 0).val, idx2_lt0 i⟩ : Fin 8192) k) * wt0 V c (ix2 k (⟨(i 1).val, idx2_lt1 i⟩ : Fin 768)))
    + bias0 V c (ix2 (0 : Fin 1) (⟨(i 1).val, idx2_lt1 i⟩ : Fin 768))

theorem G0_apply (c : Dev nD) (r : Fin 8192) (o : Fin 768) :
    G0 V c (ix2 r o) = (∑ k : Fin 768, xs0 V c (ix2 r k) * wt0 V c (ix2 k o)) + bias0 V c (ix2 (0 : Fin 1) o) := rfl

/-- Entry j of the payload of the blocks at point t is the entry of G0 at j's place in the array: row 1024 t + (j 0). -/
theorem entry0 (c : Dev nD) (t : Fin cfg0.N) (j : S1024x768.Idx) :
    (k0_pay1 (F := Ideal) (xblk0 V c t) (wblk0 V c t) (bblk0 V c t) : FVec Ideal S1024x768 .bf16) j
      = G0 V c (((cfg0.win 3).blk t).view.emb j) := by
  obtain ⟨p, o, rfl⟩ : ∃ (p : Fin 1024) (o : Fin 768), j = ix2 p o := ⟨j 0, j 1, eq_ix2 j⟩
  obtain ⟨-, -, -, -, -, -, e6, e7⟩ := idx0_facts t
  have ht : t.val < 8 := lt_of_lt_of_eq t.isLt N_0
  have hemb : ((cfg0.win 3).blk t).view.emb (ix2 p o) = ix2 (⟨1024 * t.val + p.val, by omega⟩ : Fin 8192) o := by
    funext a; apply Fin.ext
    match a with
    | ⟨0, _⟩ => show win0_3.index t (0 : Fin 2) * 1024 + 1 * p.val = 1024 * t.val + p.val; omega
    | ⟨1, _⟩ => show win0_3.index t (1 : Fin 2) * 768 + 1 * o.val = o.val; omega
  rw [hemb, G0_apply]
  refine (pay0_apply (xblk0 V c t) (wblk0 V c t) (bblk0 V c t) p o).trans ?_
  rw [bblk0_apply]
  refine congrArg (· + _) (Finset.sum_congr rfl fun k _ => ?_)
  rw [xblk0_apply V c t p k ⟨1024 * t.val + p.val, by omega⟩ rfl, wblk0_apply]

/-- What point t writes back is block t of G0. -/
theorem flushed0_eq (c : Dev nD) (t : Fin cfg0.N) :
    (dat0 (F := Ideal) V c).flushed 3 t = ((cfg0.win 3).blk t).view.read (Elt Ideal) (G0 V c) := by
  show (cfg0.win 3).cut (grid0.coords t) ((dat0 (F := Ideal) V c).after 3 t) = _
  rw [after0_3]
  unfold out0_3
  rw [View.canon_unit_zero hz]
  simp only [View.ld_unit_zero (S := S1024x768) hz, View.ld_unit_zero (S := S768x768) hz, View.ld_unit_zero (S := S1x768) hz]
  funext j
  exact entry0 V c t j

/-- An index of the output array is in point t's block iff each coordinate is in the block's range on its axis. -/
theorem mem_blk0 (t : Fin cfg0.N) (i : S8192x768.Idx) :
    i ∈ ((cfg0.win 3).blk t).view.set ↔ ∀ a : Fin 2, win0_3.index t a * S1024x768.size a ≤ (i a).val ∧ (i a).val < win0_3.index t a * S1024x768.size a + S1024x768.size a := by
  show i ∈ ((View.whole main_v13).slice (win0_3.rect t)).set ↔ _
  rw [View.set_slice_whole, Rect.mem_set_unit]
  exact Iff.rfl

/-- Every index of the output array is in some point's block: row r is in the block of point r / 1024. -/
theorem cover0 (i : S8192x768.Idx) :
    ∃ t : Fin cfg0.N, (cfg0.win 3).flush t = true ∧ i ∈ ((cfg0.win 3).blk t).view.set := by
  have h0 : (i 0).val < 8192 := idx2_lt0 i
  have h1 : (i 1).val < 768 := idx2_lt1 i
  obtain ⟨t, ht⟩ : ∃ t : Fin cfg0.N, t.val = (i 0).val / 1024 :=
    ⟨⟨(i 0).val / 1024, lt_of_lt_of_eq (by omega : (i 0).val / 1024 < 8) N_0.symm⟩, rfl⟩
  obtain ⟨-, -, -, -, -, -, e6, e7⟩ := idx0_facts t
  refine ⟨t, flush0_3 t, ?_⟩
  rw [mem_blk0]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 768 ≤ (i 1).val ∧ (i 1).val < win0_3.index t (1 : Fin 2) * 768 + 768; omega

/-- The output array after the region is G0. -/
theorem final0_arr (c : Dev nD) : (dat0 (F := Ideal) V c).arrAt 3 cfg0.N = G0 V c :=
  (dat0 (F := Ideal) V c).arrAt_eq_of_cover 3 (G0 V c) (fun t _ => flushed0_eq V c t) cover0

theorem final0 (c : Dev nD) (r : Fin 8192) (o : Fin 768) :
    lin0 V c (ix2 r o) = (∑ k : Fin 768, xs0 V c (ix2 r k) * wt0 V c (ix2 k o)) + bias0 V c (ix2 (0 : Fin 1) o) := by
  show (dat0 (F := Ideal) V c).arrAt 3 cfg0.N (ix2 r o) = _
  rw [final0_arr]
  rfl

/-! ## Region 1: the body's payload at an entry of the block -/

/-- The product's dimension numbers: the left operand is read at the output's row and the contraction coordinate,
    the right one at the contraction coordinate and the output's column. -/
theorem lhs1_0 (i : S1024x1536.Idx) (q : dot_S1024x768_S768x1536_S1024x1536_1_0_0_1_n_n.contr.Idx) :
    (dot_S1024x768_S768x1536_S1024x1536_1_0_0_1_n_n.lhsIdx i q 0).val = (i 0).val := by
  unfold DotDims.lhsIdx
  rw [dif_neg (show ¬(0 : Fin S1024x768.rank) ∈ dot_S1024x768_S768x1536_S1024x1536_1_0_0_1_n_n.lhsBatch by decide), dif_pos (show (0 : Fin S1024x768.rank) ∈ dot_S1024x768_S768x1536_S1024x1536_1_0_0_1_n_n.lhsNonContracting by decide)]
  rfl
theorem lhs1_1 (i : S1024x1536.Idx) (q : dot_S1024x768_S768x1536_S1024x1536_1_0_0_1_n_n.contr.Idx) :
    (dot_S1024x768_S768x1536_S1024x1536_1_0_0_1_n_n.lhsIdx i q 1).val = (q ⟨0, by decide⟩).val :=
  dot_S1024x768_S768x1536_S1024x1536_1_0_0_1_n_n.lhsIdx_val_of_single rfl i q
theorem rhs1_0 (i : S1024x1536.Idx) (q : dot_S1024x768_S768x1536_S1024x1536_1_0_0_1_n_n.contr.Idx) :
    (dot_S1024x768_S768x1536_S1024x1536_1_0_0_1_n_n.rhsIdx i q 0).val = (q ⟨0, by decide⟩).val :=
  dot_S1024x768_S768x1536_S1024x1536_1_0_0_1_n_n.rhsIdx_val_of_single rfl i q
theorem rhs1_1 (i : S1024x1536.Idx) (q : dot_S1024x768_S768x1536_S1024x1536_1_0_0_1_n_n.contr.Idx) :
    (dot_S1024x768_S768x1536_S1024x1536_1_0_0_1_n_n.rhsIdx i q 1).val = (i 1).val := by
  unfold DotDims.rhsIdx
  rw [dif_neg (show ¬(1 : Fin S768x1536.rank) ∈ dot_S1024x768_S768x1536_S1024x1536_1_0_0_1_n_n.rhsBatch by decide), dif_pos (show (1 : Fin S768x1536.rank) ∈ dot_S1024x768_S768x1536_S1024x1536_1_0_0_1_n_n.rhsNonContracting by decide)]
  rfl

/-- The matrix product into the zero accumulator, at entry (p, o): the sum over the 768 inner coordinates. -/
theorem matmul1_apply (x : FVec Ideal S1024x768 .bf16) (w : FVec Ideal S768x1536 .bf16) (p : Fin 1024) (o : Fin 1536) :
    (matmul (F := Ideal) dot_S1024x768_S768x1536_S1024x1536_1_0_0_1_n_n none x w (constant (F := Ideal) S1024x1536 .f32 0x00000000#32) : FVec Ideal S1024x1536 .f32) (ix2 p o)
      = ∑ k : Fin 768, x (ix2 p k) * w (ix2 k o) := by
  refine (Ideal.matmul_constant_zero_apply dot_S1024x768_S768x1536_S1024x1536_1_0_0_1_n_n none x w (ix2 p o)).trans ?_
  rw [← Equiv.sum_comp (ValueIdx.contrEquiv1 dot_S1024x768_S768x1536_S1024x1536_1_0_0_1_n_n 768 rfl rfl).symm]
  refine Finset.sum_congr rfl fun k _ => ?_
  have hk := ValueIdx.contrEquiv1_symm_val dot_S1024x768_S768x1536_S1024x1536_1_0_0_1_n_n 768 rfl rfl k
  have el : dot_S1024x768_S768x1536_S1024x1536_1_0_0_1_n_n.lhsIdx (ix2 p o) ((ValueIdx.contrEquiv1 dot_S1024x768_S768x1536_S1024x1536_1_0_0_1_n_n 768 rfl rfl).symm k) = ix2 p k := funext fun a => Fin.ext (by
    match a with
    | ⟨0, _⟩ => exact lhs1_0 _ _
    | ⟨1, _⟩ => exact (lhs1_1 _ _).trans hk)
  have er : dot_S1024x768_S768x1536_S1024x1536_1_0_0_1_n_n.rhsIdx (ix2 p o) ((ValueIdx.contrEquiv1 dot_S1024x768_S768x1536_S1024x1536_1_0_0_1_n_n 768 rfl rfl).symm k) = ix2 k o := funext fun a => Fin.ext (by
    match a with
    | ⟨0, _⟩ => exact (rhs1_0 _ _).trans hk
    | ⟨1, _⟩ => exact rhs1_1 _ _)
  rw [el, er]

/-- The payload at entry (p, o) of the block: row p of the input block times column o of the weight matrix,
    plus entry o of the bias row (the narrowings are the identity on the extended reals). -/
theorem pay1_apply (x : FVec Ideal S1024x768 .f32) (w : FVec Ideal S768x1536 .bf16) (b : FVec Ideal S1x1536 .f32)
    (p : Fin 1024) (o : Fin 1536) :
    (k1_pay1 (F := Ideal) x w b : FVec Ideal S1024x1536 .bf16) (ix2 p o)
      = (∑ k : Fin 768, x (ix2 p k) * w (ix2 k o)) + b (ix2 (0 : Fin 1) o) := by
  unfold k1_pay1
  rw [shapeCast_self, shapeCast_self, shapeCast_self, truncf_apply, addf_apply, matmul1_apply, broadcastTo_1b_ab_apply]
  rfl

/-! ## Region 1: the blocks the body reads, as entries of the arrays -/

/-- The block indices of the four windows at grid point t, decided over the 8 points: the input rows and the
    output move with the point along the rows; the weight matrix and the bias row are whole. -/
theorem idx1_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The three input blocks at point t, at their literal types. -/
abbrev xblk1 (c : Dev nD) (t : Fin cfg1.N) : FVec Ideal S1024x768 .f32 := iblk1 V c 0 t
abbrev wblk1 (c : Dev nD) (t : Fin cfg1.N) : FVec Ideal S768x1536 .bf16 := iblk1 V c 1 t
abbrev bblk1 (c : Dev nD) (t : Fin cfg1.N) : FVec Ideal S1x1536 .f32 := iblk1 V c 2 t

/-- The input block at point t is rows 1024 t … 1024 t + 1023 of the input array. -/
theorem xblk1_apply (c : Dev nD) (t : Fin cfg1.N) (p : Fin 1024) (k : Fin 768) (r : Fin 8192)
    (hr : r.val = 1024 * t.val + p.val) : xblk1 V c t (ix2 p k) = xs1 V c (ix2 r k) := by
  obtain ⟨e0, e1, -⟩ := idx1_facts t
  show V c main_v1 (((cfg1.win 0).blk t).view.emb (ix2 p k)) = V c main_v1 (ix2 r k)
  refine congrArg (V c main_v1) (funext fun a => Fin.ext ?_)
  match a with
  | ⟨0, _⟩ => show win1_0.index t (0 : Fin 2) * 1024 + 1 * p.val = r.val; omega
  | ⟨1, _⟩ => show win1_0.index t (1 : Fin 2) * 768 + 1 * k.val = k.val; omega

/-- The weight block at every point is the whole weight matrix. -/
theorem wblk1_apply (c : Dev nD) (t : Fin cfg1.N) (k : Fin 768) (o : Fin 1536) :
    wblk1 V c t (ix2 k o) = wt1 V c (ix2 k o) := by
  obtain ⟨-, -, e2, e3, -⟩ := idx1_facts t
  show V c main_v7 (((cfg1.win 1).blk t).view.emb (ix2 k o)) = V c main_v7 (ix2 k o)
  refine congrArg (V c main_v7) (funext fun a => Fin.ext ?_)
  match a with
  | ⟨0, _⟩ => show win1_1.index t (0 : Fin 2) * 768 + 1 * k.val = k.val; omega
  | ⟨1, _⟩ => show win1_1.index t (1 : Fin 2) * 1536 + 1 * o.val = o.val; omega

/-- The bias block at every point is the whole bias row. -/
theorem bblk1_apply (c : Dev nD) (t : Fin cfg1.N) (o : Fin 1536) :
    bblk1 V c t (ix2 (0 : Fin 1) o) = bias1 V c (ix2 (0 : Fin 1) o) := by
  obtain ⟨-, -, -, -, e4, e5, -⟩ := idx1_facts t
  show V c main_v14 (((cfg1.win 2).blk t).view.emb (ix2 (0 : Fin 1) o)) = V c main_v14 (ix2 (0 : Fin 1) o)
  refine congrArg (V c main_v14) (funext fun a => Fin.ext ?_)
  match a with
  | ⟨0, _⟩ => show win1_2.index t (0 : Fin 2) * 1 + 1 * 0 = 0; omega
  | ⟨1, _⟩ => show win1_2.index t (1 : Fin 2) * 1536 + 1 * o.val = o.val; omega

/-! ## Region 1: from the blocks to the array -/

/-- What the region leaves in its output array: entry (r, o) is row r of the input array times column o of the
    weight matrix, summed over the 768 inner coordinates, plus entry o of the bias row. -/
def G1 (c : Dev nD) : S8192x1536.Idx → EReal := fun i =>
  (∑ k : Fin 768, xs1 V c (ix2 (⟨(i 0).val, idx2_lt0 i⟩ : Fin 8192) k) * wt1 V c (ix2 k (⟨(i 1).val, idx2_lt1 i⟩ : Fin 1536)))
    + bias1 V c (ix2 (0 : Fin 1) (⟨(i 1).val, idx2_lt1 i⟩ : Fin 1536))

theorem G1_apply (c : Dev nD) (r : Fin 8192) (o : Fin 1536) :
    G1 V c (ix2 r o) = (∑ k : Fin 768, xs1 V c (ix2 r k) * wt1 V c (ix2 k o)) + bias1 V c (ix2 (0 : Fin 1) o) := rfl

/-- Entry j of the payload of the blocks at point t is the entry of G1 at j's place in the array: row 1024 t + (j 0). -/
theorem entry1 (c : Dev nD) (t : Fin cfg1.N) (j : S1024x1536.Idx) :
    (k1_pay1 (F := Ideal) (xblk1 V c t) (wblk1 V c t) (bblk1 V c t) : FVec Ideal S1024x1536 .bf16) j
      = G1 V c (((cfg1.win 3).blk t).view.emb j) := by
  obtain ⟨p, o, rfl⟩ : ∃ (p : Fin 1024) (o : Fin 1536), j = ix2 p o := ⟨j 0, j 1, eq_ix2 j⟩
  obtain ⟨-, -, -, -, -, -, e6, e7⟩ := idx1_facts t
  have ht : t.val < 8 := lt_of_lt_of_eq t.isLt N_1
  have hemb : ((cfg1.win 3).blk t).view.emb (ix2 p o) = ix2 (⟨1024 * t.val + p.val, by omega⟩ : Fin 8192) o := by
    funext a; apply Fin.ext
    match a with
    | ⟨0, _⟩ => show win1_3.index t (0 : Fin 2) * 1024 + 1 * p.val = 1024 * t.val + p.val; omega
    | ⟨1, _⟩ => show win1_3.index t (1 : Fin 2) * 1536 + 1 * o.val = o.val; omega
  rw [hemb, G1_apply]
  refine (pay1_apply (xblk1 V c t) (wblk1 V c t) (bblk1 V c t) p o).trans ?_
  rw [bblk1_apply]
  refine congrArg (· + _) (Finset.sum_congr rfl fun k _ => ?_)
  rw [xblk1_apply V c t p k ⟨1024 * t.val + p.val, by omega⟩ rfl, wblk1_apply]

/-- What point t writes back is block t of G1. -/
theorem flushed1_eq (c : Dev nD) (t : Fin cfg1.N) :
    (dat1 (F := Ideal) V c).flushed 3 t = ((cfg1.win 3).blk t).view.read (Elt Ideal) (G1 V c) := by
  show (cfg1.win 3).cut (grid1.coords t) ((dat1 (F := Ideal) V c).after 3 t) = _
  rw [after1_3]
  unfold out1_3
  rw [View.canon_unit_zero hz]
  simp only [View.ld_unit_zero (S := S1024x768) hz, View.ld_unit_zero (S := S768x1536) hz, View.ld_unit_zero (S := S1x1536) hz]
  funext j
  exact entry1 V c t j

/-- An index of the output array is in point t's block iff each coordinate is in the block's range on its axis. -/
theorem mem_blk1 (t : Fin cfg1.N) (i : S8192x1536.Idx) :
    i ∈ ((cfg1.win 3).blk t).view.set ↔ ∀ a : Fin 2, win1_3.index t a * S1024x1536.size a ≤ (i a).val ∧ (i a).val < win1_3.index t a * S1024x1536.size a + S1024x1536.size a := by
  show i ∈ ((View.whole main_v15).slice (win1_3.rect t)).set ↔ _
  rw [View.set_slice_whole, Rect.mem_set_unit]
  exact Iff.rfl

/-- Every index of the output array is in some point's block: row r is in the block of point r / 1024. -/
theorem cover1 (i : S8192x1536.Idx) :
    ∃ t : Fin cfg1.N, (cfg1.win 3).flush t = true ∧ i ∈ ((cfg1.win 3).blk t).view.set := by
  have h0 : (i 0).val < 8192 := idx2_lt0 i
  have h1 : (i 1).val < 1536 := idx2_lt1 i
  obtain ⟨t, ht⟩ : ∃ t : Fin cfg1.N, t.val = (i 0).val / 1024 :=
    ⟨⟨(i 0).val / 1024, lt_of_lt_of_eq (by omega : (i 0).val / 1024 < 8) N_1.symm⟩, rfl⟩
  obtain ⟨-, -, -, -, -, -, e6, e7⟩ := idx1_facts t
  refine ⟨t, flush1_3 t, ?_⟩
  rw [mem_blk1]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1536 ≤ (i 1).val ∧ (i 1).val < win1_3.index t (1 : Fin 2) * 1536 + 1536; omega

/-- The output array after the region is G1. -/
theorem final1_arr (c : Dev nD) : (dat1 (F := Ideal) V c).arrAt 3 cfg1.N = G1 V c :=
  (dat1 (F := Ideal) V c).arrAt_eq_of_cover 3 (G1 V c) (fun t _ => flushed1_eq V c t) cover1

theorem final1 (c : Dev nD) (r : Fin 8192) (o : Fin 1536) :
    lin1 V c (ix2 r o) = (∑ k : Fin 768, xs1 V c (ix2 r k) * wt1 V c (ix2 k o)) + bias1 V c (ix2 (0 : Fin 1) o) := by
  show (dat1 (F := Ideal) V c).arrAt 3 cfg1.N (ix2 r o) = _
  rw [final1_arr]
  rfl

end Cert.KernelIdeal.Val

end
-- ==== Proof.Val.AttnBlocks.lean ====
/-
  Region 2 (attention fused with the output projection): the grid, and the blocks read at a point.
  The point t = 8 b + h has coordinates (b, h). At it the q, k, v windows read q[b, h, ·, ·], k[b, h, ·, ·],
  v[b, h, ·, ·]; the projection weight and the bias row are read whole at every point; the output window sits at batch b.
  The accumulator after a point, as one equation for every point.
-/
import proofs.«425593_j41592463294467_3_alg».proof.Proof.KI.AttnDat
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand Idealize.ShloMosaic Idealize.ShloMosaic.ValueIdx
open Idealize.ShloMosaic.TcCoe
open Idealize.ShloMosaic.Pipeline (Dat)

variable {F : FTy → Type} [FloatOps F]
variable (V : (c : Dev nD) → (b : Ref sig .tc) → Buf (Elt F) ((c : Thread nD τ).loc b))

/-! ## The grid: point t = 8 b + h has coordinates (b, h) -/

theorem coords2_val : ∀ t : Fin cfg2.N, (grid2.coords t 0).val = t.val / 8 ∧ (grid2.coords t 1).val = t.val % 8 :=
  (by decide +kernel : ∀ t : Fin grid2.N, (grid2.coords t 0).val = t.val / 8 ∧ (grid2.coords t 1).val = t.val % 8)

/-- The block indices of the q, k, v windows at a point: (b, h, 0, 0). -/
theorem idx2_0 : ∀ t : Fin cfg2.N, win2_0.index t (0 : Fin 4) = t.val / 8 ∧ win2_0.index t (1 : Fin 4) = t.val % 8
    ∧ win2_0.index t (2 : Fin 4) = 0 ∧ win2_0.index t (3 : Fin 4) = 0 :=
  (by decide +kernel : ∀ t : Fin grid2.N, win2_0.index t (0 : Fin 4) = t.val / 8 ∧ win2_0.index t (1 : Fin 4) = t.val % 8
    ∧ win2_0.index t (2 : Fin 4) = 0 ∧ win2_0.index t (3 : Fin 4) = 0)
theorem idx2_1 : ∀ t : Fin cfg2.N, win2_1.index t (0 : Fin 4) = t.val / 8 ∧ win2_1.index t (1 : Fin 4) = t.val % 8
    ∧ win2_1.index t (2 : Fin 4) = 0 ∧ win2_1.index t (3 : Fin 4) = 0 :=
  (by decide +kernel : ∀ t : Fin grid2.N, win2_1.index t (0 : Fin 4) = t.val / 8 ∧ win2_1.index t (1 : Fin 4) = t.val % 8
    ∧ win2_1.index t (2 : Fin 4) = 0 ∧ win2_1.index t (3 : Fin 4) = 0)
theorem idx2_2 : ∀ t : Fin cfg2.N, win2_2.index t (0 : Fin 4) = t.val / 8 ∧ win2_2.index t (1 : Fin 4) = t.val % 8
    ∧ win2_2.index t (2 : Fin 4) = 0 ∧ win2_2.index t (3 : Fin 4) = 0 :=
  (by decide +kernel : ∀ t : Fin grid2.N, win2_2.index t (0 : Fin 4) = t.val / 8 ∧ win2_2.index t (1 : Fin 4) = t.val % 8
    ∧ win2_2.index t (2 : Fin 4) = 0 ∧ win2_2.index t (3 : Fin 4) = 0)
/-- The weight and the bias windows stay at block (0, 0); the output window is at block (b, 0, 0). -/
theorem idx2_3 : ∀ t : Fin cfg2.N, win2_3.index t (0 : Fin 2) = 0 ∧ win2_3.index t (1 : Fin 2) = 0 :=
  (by decide +kernel : ∀ t : Fin grid2.N, win2_3.index t (0 : Fin 2) = 0 ∧ win2_3.index t (1 : Fin 2) = 0)
theorem idx2_4 : ∀ t : Fin cfg2.N, win2_4.index t (0 : Fin 2) = 0 ∧ win2_4.index t (1 : Fin 2) = 0 :=
  (by decide +kernel : ∀ t : Fin grid2.N, win2_4.index t (0 : Fin 2) = 0 ∧ win2_4.index t (1 : Fin 2) = 0)
theorem idx2_5 : ∀ t : Fin cfg2.N, win2_5.index t (0 : Fin 3) = t.val / 8 ∧ win2_5.index t (1 : Fin 3) = 0 ∧ win2_5.index t (2 : Fin 3) = 0 :=
  (by decide +kernel : ∀ t : Fin grid2.N, win2_5.index t (0 : Fin 3) = t.val / 8 ∧ win2_5.index t (1 : Fin 3) = 0 ∧ win2_5.index t (2 : Fin 3) = 0)

/-! ## The blocks read at a point -/

/-- The q block at the point of batch b and head h is q[b, h, ·, ·]. -/
theorem qblk_apply (c : Dev nD) (t : Fin cfg2.N) (b h : Fin 8) (ht : t.val = 8 * b.val + h.val) (n : Fin 1024) (d : Fin 96) :
    (iblk2 V c 0 t : Vec F S1x1x1024x96 .bf16) (ix4 (0 : Fin 1) (0 : Fin 1) n d)
      = (V c main_v16 : S8x8x1024x96.Idx → Elt F .bf16) (ix4 b h n d) := by
  obtain ⟨e0, e1, e2, e3⟩ := idx2_0 t
  show (V c main_v16 : S8x8x1024x96.Idx → Elt F .bf16) (((cfg2.win 0).blk t).view.emb (ix4 (0 : Fin 1) (0 : Fin 1) n d)) = _
  refine congrArg _ (funext fun a => Fin.ext ?_)
  match a with
  | ⟨0, _⟩ => show win2_0.index t (0 : Fin 4) * 1 + 1 * 0 = b.val; have := b.isLt; have := h.isLt; omega
  | ⟨1, _⟩ => show win2_0.index t (1 : Fin 4) * 1 + 1 * 0 = h.val; have := b.isLt; have := h.isLt; omega
  | ⟨2, _⟩ => show win2_0.index t (2 : Fin 4) * 1024 + 1 * n.val = n.val; omega
  | ⟨3, _⟩ => show win2_0.index t (3 : Fin 4) * 96 + 1 * d.val = d.val; omega

/-- The k block at that point is k[b, h, ·, ·]. -/
theorem kblk_apply (c : Dev nD) (t : Fin cfg2.N) (b h : Fin 8) (ht : t.val = 8 * b.val + h.val) (n : Fin 1024) (d : Fin 96) :
    (iblk2 V c 1 t : Vec F S1x1x1024x96 .bf16) (ix4 (0 : Fin 1) (0 : Fin 1) n d)
      = (V c main_v20 : S8x8x1024x96.Idx → Elt F .bf16) (ix4 b h n d) := by
  obtain ⟨e0, e1, e2, e3⟩ := idx2_1 t
  show (V c main_v20 : S8x8x1024x96.Idx → Elt F .bf16) (((cfg2.win 1).blk t).view.emb (ix4 (0 : Fin 1) (0 : Fin 1) n d)) = _
  refine congrArg _ (funext fun a => Fin.ext ?_)
  match a with
  | ⟨0, _⟩ => show win2_1.index t (0 : Fin 4) * 1 + 1 * 0 = b.val; have := b.isLt; have := h.isLt; omega
  | ⟨1, _⟩ => show win2_1.index t (1 : Fin 4) * 1 + 1 * 0 = h.val; have := b.isLt; have := h.isLt; omega
  | ⟨2, _⟩ => show win2_1.index t (2 : Fin 4) * 1024 + 1 * n.val = n.val; omega
  | ⟨3, _⟩ => show win2_1.index t (3 : Fin 4) * 96 + 1 * d.val = d.val; omega

/-- The v block at that point is v[b, h, ·, ·]. -/
theorem vblk_apply (c : Dev nD) (t : Fin cfg2.N) (b h : Fin 8) (ht : t.val = 8 * b.val + h.val) (n : Fin 1024) (d : Fin 96) :
    (iblk2 V c 2 t : Vec F S1x1x1024x96 .bf16) (ix4 (0 : Fin 1) (0 : Fin 1) n d)
      = (V c main_v23 : S8x8x1024x96.Idx → Elt F .bf16) (ix4 b h n d) := by
  obtain ⟨e0, e1, e2, e3⟩ := idx2_2 t
  show (V c main_v23 : S8x8x1024x96.Idx → Elt F .bf16) (((cfg2.win 2).blk t).view.emb (ix4 (0 : Fin 1) (0 : Fin 1) n d)) = _
  refine congrArg _ (funext fun a => Fin.ext ?_)
  match a with
  | ⟨0, _⟩ => show win2_2.index t (0 : Fin 4) * 1 + 1 * 0 = b.val; have := b.isLt; have := h.isLt; omega
  | ⟨1, _⟩ => show win2_2.index t (1 : Fin 4) * 1 + 1 * 0 = h.val; have := b.isLt; have := h.isLt; omega
  | ⟨2, _⟩ => show win2_2.index t (2 : Fin 4) * 1024 + 1 * n.val = n.val; omega
  | ⟨3, _⟩ => show win2_2.index t (3 : Fin 4) * 96 + 1 * d.val = d.val; omega

/-- The weight block at every point is the whole weight array. -/
theorem wblk_apply (c : Dev nD) (t : Fin cfg2.N) (r : Fin 768) (o : Fin 768) :
    (iblk2 V c 3 t : Vec F S768x768 .bf16) (ix2 r o) = (V c main_v9 : S768x768.Idx → Elt F .bf16) (ix2 r o) := by
  obtain ⟨e0, e1⟩ := idx2_3 t
  show (V c main_v9 : S768x768.Idx → Elt F .bf16) (((cfg2.win 3).blk t).view.emb (ix2 r o)) = _
  refine congrArg _ (funext fun a => Fin.ext ?_)
  match a with
  | ⟨0, _⟩ => show win2_3.index t (0 : Fin 2) * 768 + 1 * r.val = r.val; omega
  | ⟨1, _⟩ => show win2_3.index t (1 : Fin 2) * 768 + 1 * o.val = o.val; omega

/-- The bias block at every point is the whole bias row. -/
theorem bblk_apply (c : Dev nD) (t : Fin cfg2.N) (o : Fin 768) :
    (iblk2 V c 4 t : Vec F S1x768 .f32) (ix2 (0 : Fin 1) o) = (V c main_v24 : S1x768.Idx → Elt F .f32) (ix2 (0 : Fin 1) o) := by
  obtain ⟨e0, e1⟩ := idx2_4 t
  show (V c main_v24 : S1x768.Idx → Elt F .f32) (((cfg2.win 4).blk t).view.emb (ix2 (0 : Fin 1) o)) = _
  refine congrArg _ (funext fun a => Fin.ext ?_)
  match a with
  | ⟨0, _⟩ => show win2_4.index t (0 : Fin 2) * 1 + 1 * 0 = 0; omega
  | ⟨1, _⟩ => show win2_4.index t (1 : Fin 2) * 768 + 1 * o.val = o.val; omega

/-! ## The accumulator, point by point -/

/-- One equation for every point: the point's contribution is added to the zero fill when the head is 0, and to what the
    point before left otherwise. -/
theorem scAt2_step (c : Dev nD) : ∀ (t : ℕ) (ht : t < cfg2.N),
    scAt2 V c t ht = acc2 (grid2.coords ⟨t, ht⟩) (iblk2 V c 0 ⟨t, ht⟩) (iblk2 V c 1 ⟨t, ht⟩) (iblk2 V c 2 ⟨t, ht⟩) (iblk2 V c 3 ⟨t, ht⟩)
      (if h0 : t % 8 = 0 then (k2_pay3 (F := F)) else scAt2 V c (t - 1) (by omega))
  | 0, ht => by rw [scAt2_zero, dif_pos (by rfl)]
  | t + 1, ht => by
    rw [scAt2_succ]
    by_cases h0 : (t + 1) % 8 = 0
    · rw [if_pos h0, dif_pos h0]
    · rw [if_neg h0, dif_neg h0]; rfl

end Cert.KernelIdeal.Val

end
-- ==== Proof.Spec.lean ====
/-
  The mathematics of the two programs, index by index, over the extended reals.

  Data: x, kv : [8, 1024, 768]; Wq, Wproj : [768, 768] and Wkv : [1536, 768] (rows are outputs); bproj : [768];
  a scale `s` and the start value `ninf` of the row maxima. Eight heads of width 96.

  Both programs compute, for batch b and head h, the scores S[n, n'] = ∑_d q[b,h,n,d] · k[b,h,n',d], the row maxima M,
  the exponentials P = exp (S - M), the row sums L, an attention output O[b,h,n,d], and the projection
  out[b,n,o] = ∑_{h,d} O[b,h,n,d] · Wproj[o, 96 h + d] + bproj[o]. Here q is the query projection of x REREAD as
  [8, 8, 1024, 96] along the row-major order (no transposition: head h of batch b takes rows 128 h … 128 h + 127), and
  k, v are columns 96 h … and 768 + 96 h … of the key/value projection of kv.

  They differ in three places. The scale: one program scales the weight before the product, the other the product.
  The normalisation: one divides the weighted sum ∑ P v by L, the other divides each weight P by L first. The projection:
  one adds the eight heads' contributions one after the other starting from zero, the other sums over all 768 columns.
-/
import Idealize.ShloMosaic.PureOps.Ideal
import Mathlib.Algebra.BigOperators.Group.Finset.Basic
import Mathlib.Data.EReal.Operations

noncomputable section

namespace Cert.AttnSpec

open Idealize.ShloMosaic

/-! ## Index arithmetic -/

/-- Row of the [1024, 768] projection that entry (h, n, ·) of the [8, 1024, 96] rereading comes from. -/
def rowOf (h : Fin 8) (n : Fin 1024) : Fin 1024 := ⟨h.val * 128 + n.val / 8, by omega⟩
/-- Its column, for head-width coordinate d. -/
def colOf (n : Fin 1024) (d : Fin 96) : Fin 768 := ⟨n.val % 8 * 96 + d.val, by omega⟩
/-- Column 96 h + d of a 768-wide row. -/
def hd (h : Fin 8) (d : Fin 96) : Fin 768 := ⟨h.val * 96 + d.val, by omega⟩
/-- Column 96 h + d of the key half, and of the value half, of a 1536-wide row. -/
def kcol (h : Fin 8) (d : Fin 96) : Fin 1536 := ⟨h.val * 96 + d.val, by omega⟩
def vcol (h : Fin 8) (d : Fin 96) : Fin 1536 := ⟨768 + h.val * 96 + d.val, by omega⟩

/-! ## The projections of the inputs -/

section Inputs

variable (s : EReal) (x kv : Fin 8 → Fin 1024 → Fin 768 → EReal) (wq : Fin 768 → Fin 768 → EReal)
  (wkv : Fin 1536 → Fin 768 → EReal)

/-- The query projection, scaled after the product. -/
def qAfter (b : Fin 8) (n : Fin 1024) (o : Fin 768) : EReal := (∑ k : Fin 768, x b n k * wq o k) * s
/-- The query projection, the weight scaled before the product. -/
def qBefore (b : Fin 8) (n : Fin 1024) (o : Fin 768) : EReal := ∑ k : Fin 768, x b n k * (wq o k * s)
/-- The key/value projection. -/
def kvProj (b : Fin 8) (n : Fin 1024) (o : Fin 1536) : EReal := ∑ k : Fin 768, kv b n k * wkv o k

end Inputs

/-- A [8, 1024, 768] array reread as [8, 8, 1024, 96] along the row-major order. -/
def heads (Q : Fin 8 → Fin 1024 → Fin 768 → EReal) (b h : Fin 8) (n : Fin 1024) (d : Fin 96) : EReal :=
  Q b (rowOf h n) (colOf n d)
/-- The keys and the values, head by head, out of the key/value projection. -/
def keysOf (KV : Fin 8 → Fin 1024 → Fin 1536 → EReal) (b h : Fin 8) (n : Fin 1024) (d : Fin 96) : EReal := KV b n (kcol h d)
def valsOf (KV : Fin 8 → Fin 1024 → Fin 1536 → EReal) (b h : Fin 8) (n : Fin 1024) (d : Fin 96) : EReal := KV b n (vcol h d)

/-! ## Attention on head-major arrays -/

section Attn

variable (ninf : EReal) (q k v : Fin 8 → Fin 8 → Fin 1024 → Fin 96 → EReal)

/-- Scores. -/
def score (b h : Fin 8) (n n' : Fin 1024) : EReal := ∑ d : Fin 96, q b h n d * k b h n' d
/-- Row maxima, from the start value. -/
def rowMax (b h : Fin 8) (n : Fin 1024) : EReal := (Finset.univ : Finset (Fin 1024)).fold max ninf (fun n' => score q k b h n n')
/-- Exponentials of the scores less their row maximum. -/
def expo (b h : Fin 8) (n n' : Fin 1024) : EReal := Ideal.exp (score q k b h n n' - rowMax ninf q k b h n)
/-- Row sums of the exponentials. -/
def rowSum (b h : Fin 8) (n : Fin 1024) : EReal := ∑ n' : Fin 1024, expo ninf q k b h n n'
/-- Attention output, the weighted sum divided by the row sum. -/
def attnSumThenDiv (b h : Fin 8) (n : Fin 1024) (d : Fin 96) : EReal :=
  Ideal.div (∑ n' : Fin 1024, expo ninf q k b h n n' * v b h n' d) (rowSum ninf q k b h n)
/-- Attention output, each weight divided by the row sum first. -/
def attnDivThenSum (b h : Fin 8) (n : Fin 1024) (d : Fin 96) : EReal :=
  ∑ n' : Fin 1024, Ideal.div (expo ninf q k b h n n') (rowSum ninf q k b h n) * v b h n' d

end Attn

/-! ## The output projection -/

section Proj

variable (O : Fin 8 → Fin 8 → Fin 1024 → Fin 96 → EReal) (wp : Fin 768 → Fin 768 → EReal) (bp : Fin 768 → EReal)

/-- Head h's contribution to out[b, n, o]. -/
def contrib (b : Fin 8) (n : Fin 1024) (o : Fin 768) (h : Fin 8) : EReal := ∑ d : Fin 96, O b h n d * wp o (hd h d)
/-- The contributions of heads 0 … j added one after the other, starting from zero (heads past the seventh add nothing). -/
def headAcc (C : Fin 8 → EReal) : ℕ → EReal
  | 0 => 0 + C 0
  | j + 1 => headAcc C j + (if h : j + 1 < 8 then C ⟨j + 1, h⟩ else 0)
/-- The projection, head after head. -/
def projByHeads (b : Fin 8) (n : Fin 1024) (o : Fin 768) : EReal := headAcc (contrib O wp b n o) 7 + bp o
/-- The projection, over all 768 columns at once (column c belongs to head c / 96, coordinate c % 96). -/
def projFlat (b : Fin 8) (n : Fin 1024) (o : Fin 768) : EReal :=
  (∑ c : Fin 768, O b ⟨c.val / 96, by omega⟩ n ⟨c.val % 96, by omega⟩ * wp o c) + bp o

end Proj

/-! ## The two programs -/

section Programs

variable (s ninf : EReal) (x kv : Fin 8 → Fin 1024 → Fin 768 → EReal) (wq : Fin 768 → Fin 768 → EReal)
  (wkv : Fin 1536 → Fin 768 → EReal) (wp : Fin 768 → Fin 768 → EReal) (bp : Fin 768 → EReal)

/-- Attention and projection on head-major q, k, v: what the third kernel region computes of its operands. -/
def attnRegion (q k v : Fin 8 → Fin 8 → Fin 1024 → Fin 96 → EReal) (b : Fin 8) (n : Fin 1024) (o : Fin 768) : EReal :=
  projByHeads (attnSumThenDiv ninf q k v) wp bp b n o

/-- The kernel program's result. -/
def outKernel (b : Fin 8) (n : Fin 1024) (o : Fin 768) : EReal :=
  attnRegion ninf wp bp (heads (qBefore s x wq)) (keysOf (kvProj kv wkv)) (valsOf (kvProj kv wkv)) b n o

/-- The reference program's result. -/
def outReference (b : Fin 8) (n : Fin 1024) (o : Fin 768) : EReal :=
  projFlat (attnDivThenSum ninf (heads (qAfter s x wq)) (keysOf (kvProj kv wkv)) (valsOf (kvProj kv wkv))) wp bp b n o

end Programs

end Cert.AttnSpec

end
-- ==== Proof.Val.AttnPoint.lean ====
/-
  Region 2's body at an index. At a grid point (batch b, head h) the body forms the head's scores q kᵀ, subtracts
  each row's maximum, exponentiates, sums each row, multiplies by v and divides by the row sums, multiplies the
  result by rows 96 h … 96 h + 95 of the transposed projection weight and adds that to the accumulator. Here, first
  the operations one by one (the layout operations, the two row reductions, the three matrix products, each read
  at coordinates), then the body's value stage by stage against the specification's functions, and last the
  accumulator after the point at an index: what it held before plus the head's contribution.
-/
import proofs.«425593_j41592463294467_3_alg».proof.Proof.KI.AttnDefs
import proofs.«425593_j41592463294467_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand Idealize.ShloMosaic Idealize.ShloMosaic.ValueIdx

/-! ## Layout operations at coordinates -/

section Layout
variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two row reductions of a `[1024, 1024]` array -/

/-- The source index over row `n` with coordinate `k` on the reduced axis is `(n, k)`. -/
theorem lift_row (n k : Fin 1024) : reduces_S1024x1024_S1024.lift (ix1 n) k = ix2 n k :=
  funext fun a => Fin.ext (by
    match a with
    | ⟨0, _⟩ => rfl
    | ⟨1, _⟩ => rfl)

/-- A row's maximum: the fold of `max` over the row from the start value. -/
theorem rowMax_apply (src : FVec Ideal S1024x1024 .f32) (n : Fin 1024) :
    multiReduction (F := Ideal) .maximumf [1] S1024 src 0xFF800000#32 reduces_S1024x1024_S1024 (.inl rfl) rfl (ix1 n)
      = (Finset.univ : Finset (Fin 1024)).fold max (Ideal.ofBits .f32 0xFF800000#32) (fun n' => src (ix2 n n')) := by
  refine (Ideal.multiReduction_maximumf_single src 0xFF800000#32 reduces_S1024x1024_S1024 (.inl rfl) rfl (ix1 n)).trans ?_
  have e : (src ∘ reduces_S1024x1024_S1024.lift (ix1 n)) = fun n' : Fin 1024 => src (ix2 n n') :=
    funext fun k => congrArg src (lift_row n k)
  rw [e]
  rfl

/-- A row's sum. -/
theorem rowSum_apply (src : FVec Ideal S1024x1024 .f32) (n : Fin 1024) :
    multiReduction (F := Ideal) .add [1] S1024 src 0x00000000#32 reduces_S1024x1024_S1024 (.inl rfl) rfl (ix1 n)
      = ∑ n' : Fin 1024, src (ix2 n n') := by
  refine (Ideal.multiReduction_add_single src 0x00000000#32 reduces_S1024x1024_S1024 (.inl rfl) rfl (ix1 n)).trans ?_
  exact Finset.sum_congr rfl fun k _ => congrArg src (lift_row n k)

/-! ## The three matrix products, each into the zero accumulator -/

/-! ### The product `[1024, 96] × [96, 1024]` -/

theorem lhs_mmS_0 (i : S1024x1024.Idx) (q : dot_S1024x96_S96x1024_S1024x1024_1_0_0_1_n_n.contr.Idx) :
    (dot_S1024x96_S96x1024_S1024x1024_1_0_0_1_n_n.lhsIdx i q 0).val = (i 0).val := by
  unfold DotDims.lhsIdx
  rw [dif_neg (show ¬(0 : Fin S1024x96.rank) ∈ dot_S1024x96_S96x1024_S1024x1024_1_0_0_1_n_n.lhsBatch by decide), dif_pos (show (0 : Fin S1024x96.rank) ∈ dot_S1024x96_S96x1024_S1024x1024_1_0_0_1_n_n.lhsNonContracting by decide)]
  rfl
theorem lhs_mmS_1 (i : S1024x1024.Idx) (q : dot_S1024x96_S96x1024_S1024x1024_1_0_0_1_n_n.contr.Idx) :
    (dot_S1024x96_S96x1024_S1024x1024_1_0_0_1_n_n.lhsIdx i q 1).val = (q ⟨0, by decide⟩).val :=
  dot_S1024x96_S96x1024_S1024x1024_1_0_0_1_n_n.lhsIdx_val_of_single rfl i q
theorem rhs_mmS_0 (i : S1024x1024.Idx) (q : dot_S1024x96_S96x1024_S1024x1024_1_0_0_1_n_n.contr.Idx) :
    (dot_S1024x96_S96x1024_S1024x1024_1_0_0_1_n_n.rhsIdx i q 0).val = (q ⟨0, by decide⟩).val :=
  dot_S1024x96_S96x1024_S1024x1024_1_0_0_1_n_n.rhsIdx_val_of_single rfl i q
theorem rhs_mmS_1 (i : S1024x1024.Idx) (q : dot_S1024x96_S96x1024_S1024x1024_1_0_0_1_n_n.contr.Idx) :
    (dot_S1024x96_S96x1024_S1024x1024_1_0_0_1_n_n.rhsIdx i q 1).val = (i 1).val := by
  unfold DotDims.rhsIdx
  rw [dif_neg (show ¬(1 : Fin S96x1024.rank) ∈ dot_S1024x96_S96x1024_S1024x1024_1_0_0_1_n_n.rhsBatch by decide), dif_pos (show (1 : Fin S96x1024.rank) ∈ dot_S1024x96_S96x1024_S1024x1024_1_0_0_1_n_n.rhsNonContracting by decide)]
  rfl

/-- Into the zero accumulator the product at `(p, q)` is the sum over the inner coordinate of the factors' products. -/
theorem mmS_apply (A : FVec Ideal S1024x96 .bf16) (B : FVec Ideal S96x1024 .bf16) (p : Fin 1024) (q : Fin 1024) :
    matmul dot_S1024x96_S96x1024_S1024x1024_1_0_0_1_n_n none A B (constant (F := Ideal) S1024x1024 .f32 0x00000000#32) (ix2 p q)
      = ∑ k : Fin 96, A (ix2 p k) * B (ix2 k q) := by
  show FloatOps.matmul dot_S1024x96_S96x1024_S1024x1024_1_0_0_1_n_n none A B (constant (F := Ideal) S1024x1024 .f32 0x00000000#32) (ix2 p q) = _
  rw [Ideal.matmul_constant_zero_apply, ← Equiv.sum_comp (contrEquiv1 dot_S1024x96_S96x1024_S1024x1024_1_0_0_1_n_n 96 rfl rfl).symm]
  refine Finset.sum_congr rfl fun k _ => ?_
  have hk := contrEquiv1_symm_val dot_S1024x96_S96x1024_S1024x1024_1_0_0_1_n_n 96 rfl rfl k
  have el : dot_S1024x96_S96x1024_S1024x1024_1_0_0_1_n_n.lhsIdx (ix2 p q) ((contrEquiv1 dot_S1024x96_S96x1024_S1024x1024_1_0_0_1_n_n 96 rfl rfl).symm k) = ix2 p k := funext fun a => Fin.ext (by
    match a with
    | ⟨0, _⟩ => exact lhs_mmS_0 _ _
    | ⟨1, _⟩ => exact (lhs_mmS_1 _ _).trans hk)
  have er : dot_S1024x96_S96x1024_S1024x1024_1_0_0_1_n_n.rhsIdx (ix2 p q) ((contrEquiv1 dot_S1024x96_S96x1024_S1024x1024_1_0_0_1_n_n 96 rfl rfl).symm k) = ix2 k q := funext fun a => Fin.ext (by
    match a with
    | ⟨0, _⟩ => exact (rhs_mmS_0 _ _).trans hk
    | ⟨1, _⟩ => exact rhs_mmS_1 _ _)
  rw [el, er]

/-! ### The product `[1024, 1024] × [1024, 96]` -/

theorem lhs_mmV_0 (i : S1024x96.Idx) (q : dot_S1024x1024_S1024x96_S1024x96_1_0_0_1_n_n.contr.Idx) :
    (dot_S1024x1024_S1024x96_S1024x96_1_0_0_1_n_n.lhsIdx i q 0).val = (i 0).val := by
  unfold DotDims.lhsIdx
  rw [dif_neg (show ¬(0 : Fin S1024x1024.rank) ∈ dot_S1024x1024_S1024x96_S1024x96_1_0_0_1_n_n.lhsBatch by decide), dif_pos (show (0 : Fin S1024x1024.rank) ∈ dot_S1024x1024_S1024x96_S1024x96_1_0_0_1_n_n.lhsNonContracting by decide)]
  rfl
theorem lhs_mmV_1 (i : S1024x96.Idx) (q : dot_S1024x1024_S1024x96_S1024x96_1_0_0_1_n_n.contr.Idx) :
    (dot_S1024x1024_S1024x96_S1024x96_1_0_0_1_n_n.lhsIdx i q 1).val = (q ⟨0, by decide⟩).val :=
  dot_S1024x1024_S1024x96_S1024x96_1_0_0_1_n_n.lhsIdx_val_of_single rfl i q
theorem rhs_mmV_0 (i : S1024x96.Idx) (q : dot_S1024x1024_S1024x96_S1024x96_1_0_0_1_n_n.contr.Idx) :
    (dot_S1024x1024_S1024x96_S1024x96_1_0_0_1_n_n.rhsIdx i q 0).val = (q ⟨0, by decide⟩).val :=
  dot_S1024x1024_S1024x96_S1024x96_1_0_0_1_n_n.rhsIdx_val_of_single rfl i q
theorem rhs_mmV_1 (i : S1024x96.Idx) (q : dot_S1024x1024_S1024x96_S1024x96_1_0_0_1_n_n.contr.Idx) :
    (dot_S1024x1024_S1024x96_S1024x96_1_0_0_1_n_n.rhsIdx i q 1).val = (i 1).val := by
  unfold DotDims.rhsIdx
  rw [dif_neg (show ¬(1 : Fin S1024x96.rank) ∈ dot_S1024x1024_S1024x96_S1024x96_1_0_0_1_n_n.rhsBatch by decide), dif_pos (show (1 : Fin S1024x96.rank) ∈ dot_S1024x1024_S1024x96_S1024x96_1_0_0_1_n_n.rhsNonContracting by decide)]
  rfl

/-- Into the zero accumulator the product at `(p, q)` is the sum over the inner coordinate of the factors' products. -/
theorem mmV_apply (A : FVec Ideal S1024x1024 .bf16) (B : FVec Ideal S1024x96 .bf16) (p : Fin 1024) (q : Fin 96) :
    matmul dot_S1024x1024_S1024x96_S1024x96_1_0_0_1_n_n none A B (constant (F := Ideal) S1024x96 .f32 0x00000000#32) (ix2 p q)
      = ∑ k : Fin 1024, A (ix2 p k) * B (ix2 k q) := by
  show FloatOps.matmul dot_S1024x1024_S1024x96_S1024x96_1_0_0_1_n_n none A B (constant (F := Ideal) S1024x96 .f32 0x00000000#32) (ix2 p q) = _
  rw [Ideal.matmul_constant_zero_apply, ← Equiv.sum_comp (contrEquiv1 dot_S1024x1024_S1024x96_S1024x96_1_0_0_1_n_n 1024 rfl rfl).symm]
  refine Finset.sum_congr rfl fun k _ => ?_
  have hk := contrEquiv1_symm_val dot_S1024x1024_S1024x96_S1024x96_1_0_0_1_n_n 1024 rfl rfl k
  have el : dot_S1024x1024_S1024x96_S1024x96_1_0_0_1_n_n.lhsIdx (ix2 p q) ((contrEquiv1 dot_S1024x1024_S1024x96_S1024x96_1_0_0_1_n_n 1024 rfl rfl).symm k) = ix2 p k := funext fun a => Fin.ext (by
    match a with
    | ⟨0, _⟩ => exact lhs_mmV_0 _ _
    | ⟨1, _⟩ => exact (lhs_mmV_1 _ _).trans hk)
  have er : dot_S1024x1024_S1024x96_S1024x96_1_0_0_1_n_n.rhsIdx (ix2 p q) ((contrEquiv1 dot_S1024x1024_S1024x96_S1024x96_1_0_0_1_n_n 1024 rfl rfl).symm k) = ix2 k q := funext fun a => Fin.ext (by
    match a with
    | ⟨0, _⟩ => exact (rhs_mmV_0 _ _).trans hk
    | ⟨1, _⟩ => exact rhs_mmV_1 _ _)
  rw [el, er]

/-! ### The product `[1024, 96] × [96, 768]` -/

theorem lhs_mmW_0 (i : S1024x768.Idx) (q : dot_S1024x96_S96x768_S1024x768_1_0_0_1_n_n.contr.Idx) :
    (dot_S1024x96_S96x768_S1024x768_1_0_0_1_n_n.lhsIdx i q 0).val = (i 0).val := by
  unfold DotDims.lhsIdx
  rw [dif_neg (show ¬(0 : Fin S1024x96.rank) ∈ dot_S1024x96_S96x768_S1024x768_1_0_0_1_n_n.lhsBatch by decide), dif_pos (show (0 : Fin S1024x96.rank) ∈ dot_S1024x96_S96x768_S1024x768_1_0_0_1_n_n.lhsNonContracting by decide)]
  rfl
theorem lhs_mmW_1 (i : S1024x768.Idx) (q : dot_S1024x96_S96x768_S1024x768_1_0_0_1_n_n.contr.Idx) :
    (dot_S1024x96_S96x768_S1024x768_1_0_0_1_n_n.lhsIdx i q 1).val = (q ⟨0, by decide⟩).val :=
  dot_S1024x96_S96x768_S1024x768_1_0_0_1_n_n.lhsIdx_val_of_single rfl i q
theorem rhs_mmW_0 (i : S1024x768.Idx) (q : dot_S1024x96_S96x768_S1024x768_1_0_0_1_n_n.contr.Idx) :
    (dot_S1024x96_S96x768_S1024x768_1_0_0_1_n_n.rhsIdx i q 0).val = (q ⟨0, by decide⟩).val :=
  dot_S1024x96_S96x768_S1024x768_1_0_0_1_n_n.rhsIdx_val_of_single rfl i q
theorem rhs_mmW_1 (i : S1024x768.Idx) (q : dot_S1024x96_S96x768_S1024x768_1_0_0_1_n_n.contr.Idx) :
    (dot_S1024x96_S96x768_S1024x768_1_0_0_1_n_n.rhsIdx i q 1).val = (i 1).val := by
  unfold DotDims.rhsIdx
  rw [dif_neg (show ¬(1 : Fin S96x768.rank) ∈ dot_S1024x96_S96x768_S1024x768_1_0_0_1_n_n.rhsBatch by decide), dif_pos (show (1 : Fin S96x768.rank) ∈ dot_S1024x96_S96x768_S1024x768_1_0_0_1_n_n.rhsNonContracting by decide)]
  rfl

/-- Into the zero accumulator the product at `(p, q)` is the sum over the inner coordinate of the factors' products. -/
theorem mmW_apply (A : FVec Ideal S1024x96 .bf16) (B : FVec Ideal S96x768 .bf16) (p : Fin 1024) (q : Fin 768) :
    matmul dot_S1024x96_S96x768_S1024x768_1_0_0_1_n_n none A B (constant (F := Ideal) S1024x768 .f32 0x00000000#32) (ix2 p q)
      = ∑ k : Fin 96, A (ix2 p k) * B (ix2 k q) := by
  show FloatOps.matmul dot_S1024x96_S96x768_S1024x768_1_0_0_1_n_n none A B (constant (F := Ideal) S1024x768 .f32 0x00000000#32) (ix2 p q) = _
  rw [Ideal.matmul_constant_zero_apply, ← Equiv.sum_comp (contrEquiv1 dot_S1024x96_S96x768_S1024x768_1_0_0_1_n_n 96 rfl rfl).symm]
  refine Finset.sum_congr rfl fun k _ => ?_
  have hk := contrEquiv1_symm_val dot_S1024x96_S96x768_S1024x768_1_0_0_1_n_n 96 rfl rfl k
  have el : dot_S1024x96_S96x768_S1024x768_1_0_0_1_n_n.lhsIdx (ix2 p q) ((contrEquiv1 dot_S1024x96_S96x768_S1024x768_1_0_0_1_n_n 96 rfl rfl).symm k) = ix2 p k := funext fun a => Fin.ext (by
    match a with
    | ⟨0, _⟩ => exact lhs_mmW_0 _ _
    | ⟨1, _⟩ => exact (lhs_mmW_1 _ _).trans hk)
  have er : dot_S1024x96_S96x768_S1024x768_1_0_0_1_n_n.rhsIdx (ix2 p q) ((contrEquiv1 dot_S1024x96_S96x768_S1024x768_1_0_0_1_n_n 96 rfl rfl).symm k) = ix2 k q := funext fun a => Fin.ext (by
    match a with
    | ⟨0, _⟩ => exact (rhs_mmW_0 _ _).trans hk
    | ⟨1, _⟩ => exact rhs_mmW_1 _ _)
  rw [el, er]

/-! ## The body's value, stage by stage -/

/-- A `[1, 1, 1024, 96]` block as a head-major array, the same at every batch and head. -/
abbrev hm (x : Vec Ideal S1x1x1024x96 .bf16) : Fin 8 → Fin 8 → Fin 1024 → Fin 96 → EReal :=
  fun _ _ n' d' => x (ix4 (0 : Fin 1) (0 : Fin 1) n' d')

/-- The start value of the row maxima. -/
abbrev ninf : EReal := Ideal.ofBits .f32 0xFF800000#32

/-- The block as a `[1024, 96]` matrix. -/
def asMat (x : FVec Ideal S1x1x1024x96 .bf16) : FVec Ideal S1024x96 .bf16 :=
  shapeCast S1024x96 x shapeCasts_S1x1x1024x96_S1024x96

theorem asMat_apply (x : FVec Ideal S1x1x1024x96 .bf16) (n : Fin 1024) (d : Fin 96) :
    asMat x (ix2 n d) = x (ix4 (0 : Fin 1) (0 : Fin 1) n d) :=
  shapeCast_11ab_ab_apply x _ n d

section Stages
variable (xq xk xv : FVec Ideal S1x1x1024x96 .bf16)

/-- The scores q kᵀ. -/
def scoresV : FVec Ideal S1024x1024 .f32 :=
  matmul dot_S1024x96_S96x1024_S1024x1024_1_0_0_1_n_n none (asMat xq)
    (transpose S96x1024 [1, 0] (asMat xk) transposes_S1024x96_p1_0_S96x1024) (constant (F := Ideal) S1024x1024 .f32 0x00000000#32)

theorem scoresV_apply (n n' : Fin 1024) : scoresV xq xk (ix2 n n') = Cert.AttnSpec.score (hm xq) (hm xk) 0 0 n n' := by
  unfold scoresV Cert.AttnSpec.score
  refine (mmS_apply _ _ n n').trans (Finset.sum_congr rfl fun k _ => ?_)
  rw [asMat_apply, transpose_ix2_apply, asMat_apply]

/-- The row maxima. -/
def rmaxV : FVec Ideal S1024 .f32 :=
  multiReduction (F := Ideal) .maximumf [1] S1024 (scoresV xq xk) 0xFF800000#32 reduces_S1024x1024_S1024 (.inl rfl) rfl

theorem rmaxV_apply (n : Fin 1024) : rmaxV xq xk (ix1 n) = Cert.AttnSpec.rowMax ninf (hm xq) (hm xk) 0 0 n := by
  unfold rmaxV Cert.AttnSpec.rowMax
  refine (rowMax_apply _ n).trans ?_
  simp only [scoresV_apply]

/-- The exponentials of the scores less their row maximum. -/
def pexpV : FVec Ideal S1024x1024 .f32 :=
  exp (subf (scoresV xq xk) (broadcastTo S1024x1024 (shapeCast S1024x1 (rmaxV xq xk) shapeCasts_S1024_S1024x1) broadcasts_S1024x1_S1024x1024))

theorem pexpV_apply (n n' : Fin 1024) : pexpV xq xk (ix2 n n') = Cert.AttnSpec.expo ninf (hm xq) (hm xk) 0 0 n n' := by
  have hb : broadcastTo S1024x1024 (shapeCast S1024x1 (rmaxV xq xk) shapeCasts_S1024_S1024x1) broadcasts_S1024x1_S1024x1024 (ix2 n n')
      = Cert.AttnSpec.rowMax ninf (hm xq) (hm xk) 0 0 n :=
    (broadcastTo_a1_ab_apply _ _ n n').trans ((shapeCast_a_a1_apply _ _ n 0).trans (rmaxV_apply xq xk n))
  unfold pexpV Cert.AttnSpec.expo
  show Ideal.exp (scoresV xq xk (ix2 n n')
    - broadcastTo S1024x1024 (shapeCast S1024x1 (rmaxV xq xk) shapeCasts_S1024_S1024x1) broadcasts_S1024x1_S1024x1024 (ix2 n n')) = _
  rw [hb, scoresV_apply]

/-- The row sums of the exponentials. -/
def rsumV : FVec Ideal S1024 .f32 :=
  multiReduction (F := Ideal) .add [1] S1024 (pexpV xq xk) 0x00000000#32 reduces_S1024x1024_S1024 (.inl rfl) rfl

theorem rsumV_apply (n : Fin 1024) : rsumV xq xk (ix1 n) = Cert.AttnSpec.rowSum ninf (hm xq) (hm xk) 0 0 n := by
  unfold rsumV Cert.AttnSpec.rowSum
  exact (rowSum_apply _ n).trans (Finset.sum_congr rfl fun n' _ => pexpV_apply xq xk n n')

/-- The head's attention output: the weighted sum of the values, divided by the row sum. -/
def attnV : FVec Ideal S1024x96 .f32 :=
  divf (matmul dot_S1024x1024_S1024x96_S1024x96_1_0_0_1_n_n none (truncf .bf16 (pexpV xq xk) bitsLt_bf16_f32) (asMat xv) (constant (F := Ideal) S1024x96 .f32 0x00000000#32))
    (broadcastTo S1024x96 (shapeCast S1024x1 (rsumV xq xk) shapeCasts_S1024_S1024x1) broadcasts_S1024x1_S1024x96)

theorem attnV_apply (n : Fin 1024) (d : Fin 96) :
    attnV xq xk xv (ix2 n d) = Cert.AttnSpec.attnSumThenDiv ninf (hm xq) (hm xk) (hm xv) 0 0 n d := by
  have hb : broadcastTo S1024x96 (shapeCast S1024x1 (rsumV xq xk) shapeCasts_S1024_S1024x1) broadcasts_S1024x1_S1024x96 (ix2 n d)
      = Cert.AttnSpec.rowSum ninf (hm xq) (hm xk) 0 0 n :=
    (broadcastTo_a1_ab_apply _ _ n d).trans ((shapeCast_a_a1_apply _ _ n 0).trans (rsumV_apply xq xk n))
  have hs : matmul dot_S1024x1024_S1024x96_S1024x96_1_0_0_1_n_n none (truncf .bf16 (pexpV xq xk) bitsLt_bf16_f32) (asMat xv) (constant (F := Ideal) S1024x96 .f32 0x00000000#32) (ix2 n d)
      = ∑ n' : Fin 1024, Cert.AttnSpec.expo ninf (hm xq) (hm xk) 0 0 n n' * hm xv 0 0 n' d :=
    (mmV_apply _ _ n d).trans (Finset.sum_congr rfl fun n' _ => by
      show pexpV xq xk (ix2 n n') * asMat xv (ix2 n' d) = _
      rw [pexpV_apply, asMat_apply])
  unfold attnV Cert.AttnSpec.attnSumThenDiv
  show Ideal.div (matmul dot_S1024x1024_S1024x96_S1024x96_1_0_0_1_n_n none (truncf .bf16 (pexpV xq xk) bitsLt_bf16_f32) (asMat xv) (constant (F := Ideal) S1024x96 .f32 0x00000000#32) (ix2 n d))
    (broadcastTo S1024x96 (shapeCast S1024x1 (rsumV xq xk) shapeCasts_S1024_S1024x1) broadcasts_S1024x1_S1024x96 (ix2 n d)) = _
  rw [hs, hb]

end Stages

/-- The body's accumulated value is the previous contents plus the head's output times the weight rows. -/
theorem k2_pay4_eq (v0 v2 v4 : FVec Ideal S1x1x1024x96 .bf16) (v23 : FVec Ideal S96x768 .bf16) (v29 : FVec Ideal S1024x768 .f32) :
    k2_pay4 (F := Ideal) v0 v2 v4 v23 v29
      = addf v29 (matmul dot_S1024x96_S96x768_S1024x768_1_0_0_1_n_n none (truncf .bf16 (attnV v0 v2 v4) bitsLt_bf16_f32)
          (shapeCast S96x768 v23 shapeCasts_S96x768_S96x768) (constant (F := Ideal) S1024x768 .f32 0x00000000#32)) := rfl

/-! ## The loads -/

/-- The q / k / v block is loaded whole. -/
theorem ld_q (x : Vec Ideal S1x1x1024x96 .bf16) : View.ld x r2_q = x :=
  View.ld_unit_zero (funext fun a => by
    match a with
    | ⟨0, _⟩ => rfl
    | ⟨1, _⟩ => rfl
    | ⟨2, _⟩ => rfl
    | ⟨3, _⟩ => rfl) _ x

/-- Head `h`'s rows of the projection weight: row `d` of the loaded block is row `96 h + d` of the matrix. -/
theorem ld_w_apply (i : grid2.Coords) (xw : Vec Ideal S768x768 .bf16) (d : Fin 96) (o : Fin 768) :
    (View.ld xw (r2_w i) : Vec Ideal S96x768 .bf16) (ix2 d o)
      = xw (ix2 (⟨96 * (i 1).val + d.val, by have h1 : (i 1).val < 8 := (i 1).isLt; have h2 := d.isLt; omega⟩ : Fin 768) o) := by
  have h0 : k2_off1 i 0 = 96 * (i 1).val := congrFun (k2_off1_eq i) 0
  have h1 : k2_off1 i 1 = 0 := congrFun (k2_off1_eq i) 1
  show xw ((r2_w i).idx (ix2 d o)) = _
  refine congrArg xw (funext fun a => Fin.ext ?_)
  match a with
  | ⟨0, _⟩ =>
    show k2_off1 i 0 + 1 * d.val = 96 * (i 1).val + d.val
    rw [h0, Nat.one_mul]
  | ⟨1, _⟩ =>
    show k2_off1 i 1 + 1 * o.val = o.val
    rw [h1, Nat.one_mul, Nat.zero_add]

/-! ## One grid point's contribution at an index -/

theorem acc2_apply (i : grid2.Coords) (xq xk xv : Vec Ideal S1x1x1024x96 .bf16) (xw : Vec Ideal S768x768 .bf16) (prev : Vec Ideal S1024x768 .f32) (n : Fin 1024) (o : Fin 768) :
    acc2 (F := Ideal) i xq xk xv xw prev (ix2 n o)
      = prev (ix2 n o) + ∑ d : Fin 96,
          Cert.AttnSpec.attnSumThenDiv (Ideal.ofBits .f32 0xFF800000#32)
            (fun _ _ n' d' => xq (ix4 (0 : Fin 1) (0 : Fin 1) n' d')) (fun _ _ n' d' => xk (ix4 (0 : Fin 1) (0 : Fin 1) n' d')) (fun _ _ n' d' => xv (ix4 (0 : Fin 1) (0 : Fin 1) n' d'))
            (0 : Fin 8) (0 : Fin 8) n d
          * xw (ix2 (⟨96 * (i 1).val + d.val, by have h1 : (i 1).val < 8 := (i 1).isLt; have h2 := d.isLt; omega⟩ : Fin 768) o) := by
  unfold acc2 k2_pay1
  rw [ld_q, ld_q, ld_q, shapeCast_self, k2_pay4_eq]
  show prev (ix2 n o) + matmul dot_S1024x96_S96x768_S1024x768_1_0_0_1_n_n none (truncf .bf16 (attnV xq xk xv) bitsLt_bf16_f32)
      (shapeCast S96x768 (View.ld xw (r2_w i)) shapeCasts_S96x768_S96x768) (constant (F := Ideal) S1024x768 .f32 0x00000000#32) (ix2 n o) = _
  have hsc : shapeCast S96x768 (View.ld xw (r2_w i) : Vec Ideal S96x768 .bf16) shapeCasts_S96x768_S96x768
      = (View.ld xw (r2_w i) : Vec Ideal S96x768 .bf16) := shapeCast_self _ _
  refine congrArg (prev (ix2 n o) + ·) ((mmW_apply _ _ n o).trans (Finset.sum_congr rfl fun d _ => ?_))
  exact congrArg₂ (· * ·) (attnV_apply xq xk xv n d) ((congrFun hsc (ix2 d o)).trans (ld_w_apply i xw d o))

end Cert.KernelIdeal.Val

end
-- ==== Proof.Val.AttnAcc.lean ====
/-
  Region 2: the accumulation over the eight heads of a batch. At the point of batch b and head h the body adds, at
  (n, o), the term ∑_d O[b, h, n, d] · Wproj[o, 96 h + d] of the projection, O the attention output of head h, to the
  accumulator, which it has cleared first when h = 0. So after that point the accumulator holds the terms of heads
  0 … h added one after the other from zero.
-/
import proofs.«425593_j41592463294467_3_alg».proof.Proof.Val.AttnBlocks
import proofs.«425593_j41592463294467_3_alg».proof.Proof.Val.AttnPoint
import proofs.«425593_j41592463294467_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

/-! ## The region's operands as functions of their coordinates -/

/-- The start value of the row maxima. -/
abbrev regionNinf : EReal := Ideal.ofBits .f32 0xFF800000#32
/-- q, k, v head-major; the projection weight (stored transposed: Wproj[o, c] sits at [c, o]); the bias. -/
abbrev regionQ (c : Dev nD) : Fin 8 → Fin 8 → Fin 1024 → Fin 96 → EReal :=
  fun b' h n' d => (V c main_v16 : S8x8x1024x96.Idx → EReal) (ix4 b' h n' d)
abbrev regionK (c : Dev nD) : Fin 8 → Fin 8 → Fin 1024 → Fin 96 → EReal :=
  fun b' h n' d => (V c main_v20 : S8x8x1024x96.Idx → EReal) (ix4 b' h n' d)
abbrev regionV (c : Dev nD) : Fin 8 → Fin 8 → Fin 1024 → Fin 96 → EReal :=
  fun b' h n' d => (V c main_v23 : S8x8x1024x96.Idx → EReal) (ix4 b' h n' d)
abbrev regionWp (c : Dev nD) : Fin 768 → Fin 768 → EReal :=
  fun o' c' => (V c main_v9 : S768x768.Idx → EReal) (ix2 c' o')
abbrev regionBp (c : Dev nD) : Fin 768 → EReal :=
  fun o' => (V c main_v24 : S1x768.Idx → EReal) (ix2 (0 : Fin 1) o')

/-- The attention output of a head depends on that head's q, k, v only. -/
theorem attnSumThenDiv_congr (ninf : EReal) (q k v q' k' v' : Fin 8 → Fin 8 → Fin 1024 → Fin 96 → EReal) (b h b' h' : Fin 8)
    (hq : ∀ n d, q b h n d = q' b' h' n d) (hk : ∀ n d, k b h n d = k' b' h' n d) (hv : ∀ n d, v b h n d = v' b' h' n d)
    (n : Fin 1024) (d : Fin 96) :
    Cert.AttnSpec.attnSumThenDiv ninf q k v b h n d = Cert.AttnSpec.attnSumThenDiv ninf q' k' v' b' h' n d := by
  have hs : ∀ n n', Cert.AttnSpec.score q k b h n n' = Cert.AttnSpec.score q' k' b' h' n n' := fun n n' => by
    unfold Cert.AttnSpec.score; exact Finset.sum_congr rfl fun d _ => by rw [hq, hk]
  have hm : ∀ n, Cert.AttnSpec.rowMax ninf q k b h n = Cert.AttnSpec.rowMax ninf q' k' b' h' n := fun n => by
    unfold Cert.AttnSpec.rowMax
    exact congrArg (fun f => (Finset.univ : Finset (Fin 1024)).fold max ninf f) (funext fun n' => hs n n')
  have he : ∀ n n', Cert.AttnSpec.expo ninf q k b h n n' = Cert.AttnSpec.expo ninf q' k' b' h' n n' := fun n n' => by
    unfold Cert.AttnSpec.expo; rw [hs, hm]
  have hr : ∀ n, Cert.AttnSpec.rowSum ninf q k b h n = Cert.AttnSpec.rowSum ninf q' k' b' h' n := fun n => by
    unfold Cert.AttnSpec.rowSum; exact Finset.sum_congr rfl fun n' _ => he n n'
  unfold Cert.AttnSpec.attnSumThenDiv
  rw [hr]
  exact congrArg (Ideal.div · _) (Finset.sum_congr rfl fun n' _ => by rw [he, hv])

/-- The contribution of the point of batch b and head h: added to what the accumulator held, head h's term of the
    projection of the attention output. -/
theorem point_contrib (c : Dev nD) (t : Fin cfg2.N) (b h : Fin 8) (ht : t.val = 8 * b.val + h.val)
    (prev : Vec Ideal S1024x768 .f32) (n : Fin 1024) (o : Fin 768) :
    acc2 (F := Ideal) (grid2.coords t) (iblk2 V c 0 t) (iblk2 V c 1 t) (iblk2 V c 2 t) (iblk2 V c 3 t) prev (ix2 n o)
      = prev (ix2 n o) + Cert.AttnSpec.contrib (Cert.AttnSpec.attnSumThenDiv regionNinf (regionQ V c) (regionK V c) (regionV V c)) (regionWp V c) b n o h := by
  refine (acc2_apply (grid2.coords t) (iblk2 V c 0 t) (iblk2 V c 1 t) (iblk2 V c 2 t) (iblk2 V c 3 t) prev n o).trans ?_
  refine congrArg (prev (ix2 n o) + ·) ?_
  unfold Cert.AttnSpec.contrib
  refine Finset.sum_congr rfl fun d _ => ?_
  have hc : (grid2.coords t 1).val = h.val := by have := (coords2_val t).2; have := h.isLt; omega
  refine congrArg₂ (· * ·) ?_ ?_
  · exact attnSumThenDiv_congr regionNinf _ _ _ (regionQ V c) (regionK V c) (regionV V c) 0 0 b h
      (fun n' d' => qblk_apply V c t b h ht n' d') (fun n' d' => kblk_apply V c t b h ht n' d')
      (fun n' d' => vblk_apply V c t b h ht n' d') n d
  · refine (wblk_apply V c t _ o).trans ?_
    exact congrArg (fun r => (V c main_v9 : S768x768.Idx → EReal) (ix2 r o))
      (Fin.ext (by show 96 * (grid2.coords t 1).val + d.val = h.val * 96 + d.val; omega))

/-- The zero fill. -/
theorem zero_fill (n : Fin 1024) (o : Fin 768) : (k2_pay3 (F := Ideal) : FVec Ideal S1024x768 .f32) (ix2 n o) = 0 := by
  show (shapeCast S1024x768 (broadcast S1024x768 (Scalar.ofBits .f32 0x00000000#32)) shapeCasts_S1024x768_S1024x768 : FVec Ideal S1024x768 .f32) (ix2 n o) = 0
  rw [shapeCast_self]
  exact Ideal.ofBits_zero_f32

theorem scAt2_congr (c : Dev nD) (t t' : ℕ) (e : t = t') (ht : t < cfg2.N) (ht' : t' < cfg2.N) :
    scAt2 V c t ht = scAt2 V c t' ht' := by subst e; rfl

/-- THE ACCUMULATION: after the point of batch b and head h the accumulator holds, at (n, o), the contributions of heads
    0 … h of batch b added one after the other from zero. -/
theorem scAt2_apply (c : Dev nD) (b : Fin 8) (n : Fin 1024) (o : Fin 768) : ∀ (h : ℕ) (hh : h < 8) (ht : 8 * b.val + h < cfg2.N),
    (scAt2 V c (8 * b.val + h) ht : Vec Ideal S1024x768 .f32) (ix2 n o)
      = Cert.AttnSpec.headAcc (Cert.AttnSpec.contrib (Cert.AttnSpec.attnSumThenDiv regionNinf (regionQ V c) (regionK V c) (regionV V c)) (regionWp V c) b n o) h
  | 0, hh, ht => by
    rw [scAt2_step]
    refine (point_contrib V c ⟨8 * b.val + 0, ht⟩ b 0 rfl _ n o).trans ?_
    rw [dif_pos (by omega), zero_fill]
    rfl
  | h + 1, hh, ht => by
    rw [scAt2_step]
    refine (point_contrib V c ⟨8 * b.val + (h + 1), ht⟩ b ⟨h + 1, hh⟩ rfl _ n o).trans ?_
    rw [dif_neg (by omega)]
    have ih := scAt2_apply c b n o h (by omega) (by omega)
    rw [scAt2_congr V c (8 * b.val + (h + 1) - 1) (8 * b.val + h) (by omega) _ (by omega), ih]
    show _ = Cert.AttnSpec.headAcc _ h + (if hlt : h + 1 < 8 then _ else 0)
    rw [dif_pos hh]

end Cert.KernelIdeal.Val

end
-- ==== Proof.Val.Attn.lean ====
/-
  Region 2's value. At a head-7 point the body stores the accumulator plus the bias row as the batch's output block;
  that block is written back to rows of batch b of the output array, and the eight head-7 points cover the array. So the
  array ends holding, at (b, n, o), the projection by heads of the attention output plus the bias.
-/
import proofs.«425593_j41592463294467_3_alg».proof.Proof.Val.AttnAcc
import Idealize.ShloMosaic.Lib.Pipeline.Value
import Idealize.ShloMosaic.Lib.ValueIdx
import Idealize.ShloMosaic.Lib.ValueLayout

set_option maxRecDepth 16384

noncomputable section

namespace Cert.KernelIdeal.Val

open Cert.KernelIdeal Cert.KernelIdeal.Gen Cert.KernelIdeal.Hand Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

/-! ## The output block, the write-backs, the array -/

theorem attn_hz3 : (![0, 0, 0] : Fin 3 → Nat) = fun _ => 0 := funext fun a => by fin_cases a <;> rfl
theorem attn_hz2 : (![0, 0] : Fin 2 → Nat) = fun _ => 0 := funext fun a => by fin_cases a <;> rfl

/-- The stored block at (·, n, o): the accumulator at (n, o) plus the bias at o. -/
theorem out2_5_apply (sc : Vec Ideal S1024x768 .f32) (xb : Vec Ideal S1x768 .f32) (u : Fin 1) (n : Fin 1024) (o : Fin 768) :
    out2_5 (F := Ideal) sc xb (ix3 u n o) = sc (ix2 n o) + xb (ix2 (0 : Fin 1) o) := by
  unfold out2_5
  rw [View.canon_unit_zero attn_hz3, View.ld_unit_zero (S := S1x768) attn_hz2]
  show (shapeCast S1x1024x768 (addf sc (broadcastTo S1024x768 (shapeCast S1x768 xb shapeCasts_S1x768_S1x768) broadcasts_S1x768_S1024x768))
      shapeCasts_S1024x768_S1x1024x768 : FVec Ideal S1x1024x768 .f32) (ix3 u n o) = _
  refine (shapeCast_ab_1ab_apply _ _ u n o).trans ?_
  show sc (ix2 n o) + broadcastTo S1024x768 (shapeCast S1x768 xb shapeCasts_S1x768_S1x768) broadcasts_S1x768_S1024x768 (ix2 n o) = _
  rw [broadcastTo_1b_ab_apply, shapeCast_self]

/-- What the output array ends holding: the region's function of its operands. -/
abbrev G2 (c : Dev nD) : S8x1024x768.Idx → EReal :=
  fun i => Cert.AttnSpec.attnRegion regionNinf (regionWp V c) (regionBp V c) (regionQ V c) (regionK V c) (regionV V c) (i 0) (i 1) (i 2)

/-- WHAT A HEAD-7 POINT WRITES BACK is its batch's block of that function. -/
theorem flushed2_5_eq (c : Dev nD) (t : Fin cfg2.N) (hf : (cfg2.win 5).flush t = true) :
    (dat2 (F := Ideal) V c).flushed 5 t = ((cfg2.win 5).blk t).view.read (Elt Ideal) (G2 V c) := by
  have h7 : t.val % 8 = 7 := (flush2_5 t).mp hf
  have hN : cfg2.N = 64 := N_2
  have htN : t.val < 64 := hN ▸ t.isLt
  show (cfg2.win 5).cut (grid2.coords t) ((dat2 V c).after 5 t) = _
  rw [after2_5]
  show (out2_5 (scAt2 V c t.val t.isLt) (iblk2 V c 4 t) : S1x1024x768.Idx → EReal)
    = fun j : S1x1024x768.Idx => G2 V c (((cfg2.win 5).blk t).view.emb j)
  funext j
  obtain ⟨u, n, o, rfl⟩ : ∃ (u : Fin 1) (n : Fin 1024) (o : Fin 768), j = ix3 u n o := ⟨j 0, j 1, j 2, eq_ix3 j⟩
  refine (out2_5_apply (scAt2 V c t.val t.isLt) (iblk2 V c 4 t) u n o).trans ?_
  obtain ⟨e0, e1, e2⟩ := idx2_5 t
  have he : ((cfg2.win 5).blk t).view.emb (ix3 u n o) = ix3 (⟨t.val / 8, by omega⟩ : Fin 8) n o := by
    funext a; apply Fin.ext
    match a with
    | ⟨0, _⟩ => show win2_5.index t (0 : Fin 3) * 1 + 1 * u.val = t.val / 8; have := u.isLt; omega
    | ⟨1, _⟩ => show win2_5.index t (1 : Fin 3) * 1024 + 1 * n.val = n.val; omega
    | ⟨2, _⟩ => show win2_5.index t (2 : Fin 3) * 768 + 1 * o.val = o.val; omega
  rw [he]
  show _ = Cert.AttnSpec.headAcc (Cert.AttnSpec.contrib (Cert.AttnSpec.attnSumThenDiv regionNinf (regionQ V c) (regionK V c) (regionV V c)) (regionWp V c) (⟨t.val / 8, by omega⟩ : Fin 8) n o) 7
    + regionBp V c o
  refine congrArg₂ (· + ·) ?_ (bblk_apply V c t o)
  refine (congrFun (scAt2_congr V c t.val (8 * (t.val / 8) + 7) (by omega) t.isLt (by omega)) (ix2 n o)).trans ?_
  exact scAt2_apply V c (⟨t.val / 8, by omega⟩ : Fin 8) n o 7 (by omega) (by show 8 * (t.val / 8) + 7 < cfg2.N; omega)

/-- An index of the array is in point t's block iff each coordinate is in the block's range on its axis. -/
theorem mem_blk2_5 (t : Fin cfg2.N) (i : S8x1024x768.Idx) :
    i ∈ ((cfg2.win 5).blk t).view.set ↔ ∀ a : Fin 3, win2_5.index t a * S1x1024x768.size a ≤ (i a).val
      ∧ (i a).val < win2_5.index t a * S1x1024x768.size a + S1x1024x768.size a := by
  show i ∈ ((View.whole main_v25).slice (win2_5.rect t)).set ↔ _
  rw [View.set_slice_whole, Rect.mem_set_unit]
  exact Iff.rfl

/-- THE ARRAY after the region: batch b's block is written back at the point of batch b and head 7. -/
theorem final2_arr (c : Dev nD) : (dat2 (F := Ideal) V c).arrAt 5 cfg2.N = G2 V c :=
  (dat2 (F := Ideal) V c).arrAt_eq_of_cover 5 (G2 V c) (fun t hf => flushed2_5_eq V c t hf) fun i => by
    have hN : cfg2.N = 64 := N_2
    have h0 : (i 0).val < 8 := (i 0).isLt
    have h1 : (i 1).val < 1024 := (i 1).isLt
    have h2 : (i 2).val < 768 := (i 2).isLt
    refine ⟨⟨8 * (i 0).val + 7, by omega⟩, (flush2_5 _).mpr (by show (8 * (i 0).val + 7) % 8 = 7; omega), ?_⟩
    rw [mem_blk2_5]
    obtain ⟨e0, e1, e2⟩ := idx2_5 ⟨8 * (i 0).val + 7, by omega⟩
    intro a
    match a with
    | ⟨0, _⟩ =>
      show win2_5.index ⟨8 * (i 0).val + 7, _⟩ (0 : Fin 3) * 1 ≤ (i 0).val ∧ (i 0).val < win2_5.index ⟨8 * (i 0).val + 7, _⟩ (0 : Fin 3) * 1 + 1
      rw [e0]; show (8 * (i 0).val + 7) / 8 * 1 ≤ (i 0).val ∧ (i 0).val < (8 * (i 0).val + 7) / 8 * 1 + 1; omega
    | ⟨1, _⟩ =>
      show win2_5.index ⟨8 * (i 0).val + 7, _⟩ (1 : Fin 3) * 1024 ≤ (i 1).val ∧ (i 1).val < win2_5.index ⟨8 * (i 0).val + 7, _⟩ (1 : Fin 3) * 1024 + 1024
      rw [e1]; omega
    | ⟨2, _⟩ =>
      show win2_5.index ⟨8 * (i 0).val + 7, _⟩ (2 : Fin 3) * 768 ≤ (i 2).val ∧ (i 2).val < win2_5.index ⟨8 * (i 0).val + 7, _⟩ (2 : Fin 3) * 768 + 768
      rw [e2]; omega

/-- REGION 2's VALUE, index by index. -/
theorem final2 (c : Dev nD) (b : Fin 8) (n : Fin 1024) (o : Fin 768) :
    ((dat2 (F := Ideal) V c).arrAt 5 cfg2.N : S8x1024x768.Idx → EReal) (ix3 b n o)
      = Cert.AttnSpec.attnRegion (Ideal.ofBits .f32 0xFF800000#32)
          (fun o' c' => (V c main_v9 : S768x768.Idx → EReal) (ix2 c' o'))
          (fun o' => (V c main_v24 : S1x768.Idx → EReal) (ix2 (0 : Fin 1) o'))
          (fun b' h n' d => (V c main_v16 : S8x8x1024x96.Idx → EReal) (ix4 b' h n' d))
          (fun b' h n' d => (V c main_v20 : S8x8x1024x96.Idx → EReal) (ix4 b' h n' d))
          (fun b' h n' d => (V c main_v23 : S8x8x1024x96.Idx → EReal) (ix4 b' h n' d)) b n o :=
  congrFun (final2_arr V c) (ix3 b n o)

end Cert.KernelIdeal.Val

end
-- ==== Proof.Val.Kernel.lean ====
import proofs.«425593_j41592463294467_3_alg».proof.Proof.KI.Run
import proofs.«425593_j41592463294467_3_alg».proof.Proof.Val.Host
import proofs.«425593_j41592463294467_3_alg».proof.Proof.Val.Lin
import proofs.«425593_j41592463294467_3_alg».proof.Proof.Val.Attn
import proofs.«425593_j41592463294467_3_alg».proof.Proof.Spec

set_option maxRecDepth 16384

noncomputable section

open scoped BigOperators

namespace Cert.KernelIdeal.Val

open Cert.KernelIdeal Cert.KernelIdeal.Gen
open Idealize.ShloMosaic Idealize.ShloMosaic.ValueIdx Idealize.ShloMosaic.TcCoe Idealize.ShloMosaic.StableHlo

/-! # The kernel program's result, index by index

The third region's output array is the attention-and-projection of its five operand arrays. Those are host rearrangements
of the first two regions' outputs and of the launched weights; the first two regions' outputs are row-block linear maps
of host rearrangements of the launched arrays, with bias rows that are zero. Composed, the result is the specification's
`outKernel` of the six launched arrays.
-/

variable (m : (ℓ : Loc nD τ sig) → Buf (Elt Ideal) ℓ) (ρ : Dev nD → PrngReg) (c : Dev nD)

/-- The six launched arrays, each as a function from its literal index type to the extended reals. -/
abbrev aX : S8x1024x768.Idx → EReal := m ((c : Thread nD τ).loc main_arg0)
abbrev aKV : S8x1024x768.Idx → EReal := m ((c : Thread nD τ).loc main_arg1)
abbrev aWq : S768x768.Idx → EReal := m ((c : Thread nD τ).loc main_arg2)
abbrev aWkv : S1536x768.Idx → EReal := m ((c : Thread nD τ).loc main_arg3)
abbrev aWp : S768x768.Idx → EReal := m ((c : Thread nD τ).loc main_arg4)
abbrev aBp : S768.Idx → EReal := m ((c : Thread nD τ).loc main_arg5)

/-! ## Buffers carried unchanged from one region's entry to the next -/

/-- A buffer that is no array of the first region and no result of the second stretch holds at the second region's
    entry what it held at the first region's. -/
theorem carry13 (r : Ref sig .tc) (h1 : ∀ w, Pipeline.arrRef spec0 w ≠ r) (h2 : r ∉ Hand.host1_W) :
    Hand.W3 m ρ c (Proc.devRef .tc r) = Hand.W1 m ρ c (Proc.devRef .tc r) :=
  (Hand.host1_keeps (Hand.W2 m ρ c) r h2).trans (Hand.W2_of_ne m ρ c r h1)

/-- A buffer that is no array of the second region and no result of the third stretch holds at the third region's
    entry what it held at the second region's. -/
theorem carry35 (r : Ref sig .tc) (h3 : ∀ w, Pipeline.arrRef spec1 w ≠ r) (h4 : r ∉ Hand.host2_W) :
    Hand.W5 m ρ c (Proc.devRef .tc r) = Hand.W3 m ρ c (Proc.devRef .tc r) :=
  (Hand.host2_keeps (Hand.W4 m ρ c) r h4).trans (Hand.W4_of_ne m ρ c r h3)

/-! ## The first region's operands and output -/

theorem xs0_eq (b : Fin 8) (n : Fin 1024) (k : Fin 768) (r : Fin 8192) (hr : r.val = b.val * 1024 + n.val) :
    xs0 (Hand.V1 m ρ) c (ix2 r k) = aX m c (ix3 b n k) :=
  host0_v0_of (Hand.W0 m ρ c) b n k r hr

theorem wt0_eq (k o : Fin 768) : wt0 (Hand.V1 m ρ) c (ix2 k o) = aWq m c (ix2 o k) * scaleC :=
  host0_v5 (Hand.W0 m ρ c) k o

theorem bias0_eq (o : Fin 768) : bias0 (Hand.V1 m ρ) c (ix2 (0 : Fin 1) o) = 0 :=
  host0_v12 (Hand.W0 m ρ c) 0 o

/-- The first region's output at the third stretch's start. -/
theorem W4_v13 : (Hand.W4 m ρ c (Proc.devRef .tc main_v13) : S8192x768.Idx → EReal) = lin0 (Hand.V1 m ρ) c :=
  ((Hand.W4_of_ne m ρ c main_v13 (by decide)).trans (Hand.host1_keeps (Hand.W2 m ρ c) main_v13 (by decide))).trans
    (Hand.W2_arr m ρ c 3)

/-! ## The second region's operands and output -/

theorem xs1_eq (b : Fin 8) (n : Fin 1024) (k : Fin 768) (r : Fin 8192) (hr : r.val = b.val * 1024 + n.val) :
    xs1 (Hand.V3 m ρ) c (ix2 r k) = aKV m c (ix3 b n k) :=
  (congrFun (carry13 m ρ c main_v1 (by decide) (by decide)) (ix2 r k)).trans (host0_v1_of (Hand.W0 m ρ c) b n k r hr)

theorem wt1_eq (k : Fin 768) (o : Fin 1536) : wt1 (Hand.V3 m ρ) c (ix2 k o) = aWkv m c (ix2 o k) :=
  (congrFun (carry13 m ρ c main_v7 (by decide) (by decide)) (ix2 k o)).trans (host0_v7 (Hand.W0 m ρ c) k o)

theorem bias1_eq (o : Fin 1536) : bias1 (Hand.V3 m ρ) c (ix2 (0 : Fin 1) o) = 0 :=
  ((host1_v14 (Hand.W2 m ρ c) 0 o).trans (congrFun (Hand.W2_of_ne m ρ c main_v11 (by decide)) (ix1 o))).trans
    (host0_v11 (Hand.W0 m ρ c) o)

/-- The second region's output at the third stretch's start. -/
theorem W4_v15 : (Hand.W4 m ρ c (Proc.devRef .tc main_v15) : S8192x1536.Idx → EReal) = lin1 (Hand.V3 m ρ) c :=
  Hand.W4_arr m ρ c 3

/-! ## The first two regions' outputs are the projections (their bias rows are zero) -/

theorem lin0_eq (b : Fin 8) (n : Fin 1024) (o : Fin 768) (r : Fin 8192) (hr : r.val = b.val * 1024 + n.val) :
    lin0 (Hand.V1 m ρ) c (ix2 r o)
      = Cert.AttnSpec.qBefore scaleC (fun b n k => aX m c (ix3 b n k)) (fun o k => aWq m c (ix2 o k)) b n o := by
  rw [final0]
  refine (congrArg₂ (· + ·)
    (Finset.sum_congr rfl fun k _ => congrArg₂ (· * ·) (xs0_eq m ρ c b n k r hr) (wt0_eq m ρ c k o))
    (bias0_eq m ρ c o)).trans ?_
  exact add_zero _

theorem lin1_eq (b : Fin 8) (n : Fin 1024) (o : Fin 1536) (r : Fin 8192) (hr : r.val = b.val * 1024 + n.val) :
    lin1 (Hand.V3 m ρ) c (ix2 r o)
      = Cert.AttnSpec.kvProj (fun b n k => aKV m c (ix3 b n k)) (fun o k => aWkv m c (ix2 o k)) b n o := by
  rw [final1]
  refine (congrArg₂ (· + ·)
    (Finset.sum_congr rfl fun k _ => congrArg₂ (· * ·) (xs1_eq m ρ c b n k r hr) (wt1_eq m ρ c k o))
    (bias1_eq m ρ c o)).trans ?_
  exact add_zero _

/-! ## The third region's operands -/

theorem q_eq (b h : Fin 8) (n : Fin 1024) (d : Fin 96) :
    (Hand.V5 m ρ c main_v16 : S8x8x1024x96.Idx → EReal) (ix4 b h n d)
      = Cert.AttnSpec.heads (Cert.AttnSpec.qBefore scaleC (fun b n k => aX m c (ix3 b n k)) (fun o k => aWq m c (ix2 o k))) b h n d := by
  refine (host2_v16_of (Hand.W4 m ρ c) b h n d
    ⟨b.val * 1024 + (Cert.AttnSpec.rowOf h n).val, by have := (Cert.AttnSpec.rowOf h n).isLt; omega⟩
    (Cert.AttnSpec.colOf n d) rfl rfl).trans ?_
  refine (congrFun (W4_v13 m ρ c) _).trans ?_
  exact lin0_eq m ρ c b (Cert.AttnSpec.rowOf h n) (Cert.AttnSpec.colOf n d) _ rfl

theorem k_eq (b h : Fin 8) (n : Fin 1024) (d : Fin 96) :
    (Hand.V5 m ρ c main_v20 : S8x8x1024x96.Idx → EReal) (ix4 b h n d)
      = Cert.AttnSpec.keysOf (Cert.AttnSpec.kvProj (fun b n k => aKV m c (ix3 b n k)) (fun o k => aWkv m c (ix2 o k))) b h n d := by
  refine (host2_v20_of (Hand.W4 m ρ c) b h n d ⟨b.val * 1024 + n.val, by omega⟩ (Cert.AttnSpec.kcol h d) rfl rfl).trans ?_
  refine (congrFun (W4_v15 m ρ c) _).trans ?_
  exact lin1_eq m ρ c b n (Cert.AttnSpec.kcol h d) _ rfl

theorem v_eq (b h : Fin 8) (n : Fin 1024) (d : Fin 96) :
    (Hand.V5 m ρ c main_v23 : S8x8x1024x96.Idx → EReal) (ix4 b h n d)
      = Cert.AttnSpec.valsOf (Cert.AttnSpec.kvProj (fun b n k => aKV m c (ix3 b n k)) (fun o k => aWkv m c (ix2 o k))) b h n d := by
  refine (host2_v23_of (Hand.W4 m ρ c) b h n d ⟨b.val * 1024 + n.val, by omega⟩ (Cert.AttnSpec.vcol h d) rfl rfl).trans ?_
  refine (congrFun (W4_v15 m ρ c) _).trans ?_
  exact lin1_eq m ρ c b n (Cert.AttnSpec.vcol h d) _ rfl

theorem wp_eq (o c' : Fin 768) :
    (Hand.V5 m ρ c main_v9 : S768x768.Idx → EReal) (ix2 c' o) = aWp m c (ix2 o c') :=
  ((congrFun (carry35 m ρ c main_v9 (by decide) (by decide)) (ix2 c' o)).trans
    (congrFun (carry13 m ρ c main_v9 (by decide) (by decide)) (ix2 c' o))).trans (host0_v9 (Hand.W0 m ρ c) c' o)

theorem bp_eq (o : Fin 768) :
    (Hand.V5 m ρ c main_v24 : S1x768.Idx → EReal) (ix2 (0 : Fin 1) o) = aBp m c (ix1 o) :=
  (host2_v24 (Hand.W4 m ρ c) 0 o).trans
    (((congrFun (Hand.W4_of_ne m ρ c main_arg5 (by decide)) (ix1 o)).trans
      (congrFun (carry13 m ρ c main_arg5 (by decide) (by decide)) (ix1 o))).trans
      (congrFun (Hand.host0_keeps (Hand.W0 m ρ c) main_arg5 (by decide)) (ix1 o)))

/-! ## The composition -/

/-- The kernel program's result array, index by index, is the specification's `outKernel` of the launched arrays. -/
theorem kernel_value
    (b : Fin 8) (n : Fin 1024) (o : Fin 768) :
    ((Hand.dat2 (F := Ideal) (Hand.V5 m ρ) c).arrAt 5 cfg2.N : S8x1024x768.Idx → EReal) (ix3 b n o)
      = Cert.AttnSpec.outKernel (Ideal.ofBits .f32 0x3DD105EC#32) (Ideal.ofBits .f32 0xFF800000#32)
          (fun b n k => (m ((c : Thread nD τ).loc main_arg0) : S8x1024x768.Idx → EReal) (ix3 b n k))
          (fun b n k => (m ((c : Thread nD τ).loc main_arg1) : S8x1024x768.Idx → EReal) (ix3 b n k))
          (fun o k => (m ((c : Thread nD τ).loc main_arg2) : S768x768.Idx → EReal) (ix2 o k))
          (fun o k => (m ((c : Thread nD τ).loc main_arg3) : S1536x768.Idx → EReal) (ix2 o k))
          (fun o c' => (m ((c : Thread nD τ).loc main_arg4) : S768x768.Idx → EReal) (ix2 o c'))
          (fun o => (m ((c : Thread nD τ).loc main_arg5) : S768.Idx → EReal) (ix1 o)) b n o := by
  refine (final2 (Hand.V5 m ρ) c b n o).trans ?_
  have hwp : (fun o' c' => (Hand.V5 m ρ c main_v9 : S768x768.Idx → EReal) (ix2 c' o'))
      = fun o' c' => aWp m c (ix2 o' c') :=
    funext fun o' => funext fun c' => wp_eq m ρ c o' c'
  have hbp : (fun o' => (Hand.V5 m ρ c main_v24 : S1x768.Idx → EReal) (ix2 (0 : Fin 1) o'))
      = fun o' => aBp m c (ix1 o') :=
    funext fun o' => bp_eq m ρ c o'
  have hq : (fun b' h n' d => (Hand.V5 m ρ c main_v16 : S8x8x1024x96.Idx → EReal) (ix4 b' h n' d))
      = Cert.AttnSpec.heads (Cert.AttnSpec.qBefore scaleC (fun b n k => aX m c (ix3 b n k)) (fun o k => aWq m c (ix2 o k))) :=
    funext fun b' => funext fun h => funext fun n' => funext fun d => q_eq m ρ c b' h n' d
  have hk : (fun b' h n' d => (Hand.V5 m ρ c main_v20 : S8x8x1024x96.Idx → EReal) (ix4 b' h n' d))
      = Cert.AttnSpec.keysOf (Cert.AttnSpec.kvProj (fun b n k => aKV m c (ix3 b n k)) (fun o k => aWkv m c (ix2 o k))) :=
    funext fun b' => funext fun h => funext fun n' => funext fun d => k_eq m ρ c b' h n' d
  have hv : (fun b' h n' d => (Hand.V5 m ρ c main_v23 : S8x8x1024x96.Idx → EReal) (ix4 b' h n' d))
      = Cert.AttnSpec.valsOf (Cert.AttnSpec.kvProj (fun b n k => aKV m c (ix3 b n k)) (fun o k => aWkv m c (ix2 o k))) :=
    funext fun b' => funext fun h => funext fun n' => funext fun d => v_eq m ρ c b' h n' d
  rw [hwp, hbp, hq, hk, hv]
  rfl

end Cert.KernelIdeal.Val

end
-- ==== Proof.RefValue.lean ====
import proofs.«425593_j41592463294467_3_alg».proof.Proof.Gen.ReferenceIdeal.Run
import proofs.«425593_j41592463294467_3_alg».proof.Proof.Gen.ReferenceIdeal.Read
import proofs.«425593_j41592463294467_3_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.AttnSpec

/-!
# The reference program computes the attention specification

The reference is read one stage at a time, each stage at explicit coordinates, and identified with the corresponding
function of the specification: the key/value projection and its two halves read head by head, the query projection
reread along the row-major order and scaled after the product, the scores, the row maxima, the exponentials, the
row sums, the weights divided by their row sum, the weighted sums of the values, the heads laid side by side as 768
columns, and the projection over all columns plus the bias.
-/

variable (a0 a1 : (⟨S8x1024x768, .f32⟩ : BufTy).Contents (Elt Ideal)) (a2 : (⟨S768x768, .f32⟩ : BufTy).Contents (Elt Ideal))
  (a3 : (⟨S1536x768, .f32⟩ : BufTy).Contents (Elt Ideal)) (a4 : (⟨S768x768, .f32⟩ : BufTy).Contents (Elt Ideal))
  (a5 : (⟨S768, .f32⟩ : BufTy).Contents (Elt Ideal))

/-- The scale, kept as its word. -/
abbrev sc : EReal := Ideal.ofBits .f32 0x3DD105EC#32
/-- The start value of the row maxima, kept as its word. -/
abbrev ninf : EReal := Ideal.ofBits .f32 0xFF800000#32

/-- The argument arrays as functions of their coordinates. -/
abbrev X : Fin 8 → Fin 1024 → Fin 768 → EReal := fun b n k => a0 (ix3 b n k)
abbrev KV : Fin 8 → Fin 1024 → Fin 768 → EReal := fun b n k => a1 (ix3 b n k)
abbrev WQ : Fin 768 → Fin 768 → EReal := fun o k => a2 (ix2 o k)
abbrev WKV : Fin 1536 → Fin 768 → EReal := fun o k => a3 (ix2 o k)
abbrev WP : Fin 768 → Fin 768 → EReal := fun o c => a4 (ix2 o c)
abbrev BP : Fin 768 → EReal := fun o => a5 (ix1 o)

/-- The head-major queries, keys and values of the specification. -/
abbrev Q : Fin 8 → Fin 8 → Fin 1024 → Fin 96 → EReal := heads (qAfter sc (X a0) (WQ a2))
abbrev K : Fin 8 → Fin 8 → Fin 1024 → Fin 96 → EReal := keysOf (kvProj (KV a1) (WKV a3))
abbrev V : Fin 8 → Fin 8 → Fin 1024 → Fin 96 → EReal := valsOf (kvProj (KV a1) (WKV a3))

/-! ## The key/value projection and its two halves -/

theorem lidx0 (b : Fin 8) (n : Fin 1024) (o : Fin 1536) (k : Fin 768) : lidx_main_v0 (ix3 b n o) k = ix3 b n k :=
  funext fun a => Fin.ext (by match a with | ⟨0, _⟩ => rfl | ⟨1, _⟩ => rfl | ⟨2, _⟩ => rfl)
theorem ridx0 (b : Fin 8) (n : Fin 1024) (o : Fin 1536) (k : Fin 768) : ridx_main_v0 (ix3 b n o) k = ix2 o k :=
  funext fun a => Fin.ext (by match a with | ⟨0, _⟩ => rfl | ⟨1, _⟩ => rfl)

/-- Entry (b, n, o) of the first product is the key/value projection there. -/
theorem kv_at (b : Fin 8) (n : Fin 1024) (o : Fin 1536) :
    val_main_v0 (F := Ideal) a1 a3 (ix3 b n o) = kvProj (KV a1) (WKV a3) b n o := by
  rw [val_main_v0_apply]
  unfold kvProj
  exact Finset.sum_congr rfl fun k _ => by rw [lidx0, ridx0]

/-- Rereading [8, 8, 1024, 96] with a leading unit axis changes no coordinate. -/
theorem idx4 (b h : Fin 8) (n : Fin 1024) (d : Fin 96) : idx_main_v4 (ix4 b h n d) = ix5 (0 : Fin 1) b h n d :=
  funext fun a => Fin.ext (by
    have hb := b.isLt; have hh := h.isLt; have hn := n.isLt; have hd := d.isLt
    match a with
    | ⟨0, _⟩ => rfl
    | ⟨1, _⟩ => show (((b.val * 8 + h.val) * 1024 + n.val) * 96 + d.val) / 786432 % 8 = b.val; omega
    | ⟨2, _⟩ => show (((b.val * 8 + h.val) * 1024 + n.val) * 96 + d.val) / 98304 % 8 = h.val; omega
    | ⟨3, _⟩ => show (((b.val * 8 + h.val) * 1024 + n.val) * 96 + d.val) / 96 % 1024 = n.val; omega
    | ⟨4, _⟩ => show (((b.val * 8 + h.val) * 1024 + n.val) * 96 + d.val) % 96 = d.val; omega)
theorem idx6 (b h : Fin 8) (n : Fin 1024) (d : Fin 96) : idx_main_v6 (ix4 b h n d) = ix5 (0 : Fin 1) b h n d :=
  idx4 b h n d
/-- The first slice is the half 0, the second the half 1. -/
theorem idx3 (b h : Fin 8) (n : Fin 1024) (d : Fin 96) : idx_main_v3 (ix5 (0 : Fin 1) b h n d) = ix5 (0 : Fin 2) b h n d :=
  funext fun a => Fin.ext (by match a with | ⟨0, _⟩ => rfl | ⟨1, _⟩ => rfl | ⟨2, _⟩ => rfl | ⟨3, _⟩ => rfl | ⟨4, _⟩ => rfl)
theorem idx5 (b h : Fin 8) (n : Fin 1024) (d : Fin 96) : idx_main_v5 (ix5 (0 : Fin 1) b h n d) = ix5 (1 : Fin 2) b h n d :=
  funext fun a => Fin.ext (by match a with | ⟨0, _⟩ => rfl | ⟨1, _⟩ => rfl | ⟨2, _⟩ => rfl | ⟨3, _⟩ => rfl | ⟨4, _⟩ => rfl)
/-- The transposition [2, 0, 3, 1, 4]. -/
theorem idx2 (t : Fin 2) (b h : Fin 8) (n : Fin 1024) (d : Fin 96) : idx_main_v2 (ix5 t b h n d) = ix5 b n t h d :=
  funext fun a => Fin.ext (by match a with | ⟨0, _⟩ => rfl | ⟨1, _⟩ => rfl | ⟨2, _⟩ => rfl | ⟨3, _⟩ => rfl | ⟨4, _⟩ => rfl)
/-- Column 96 h + d of the key half, and of the value half, of a row of 1536. -/
theorem idx1_k (b h : Fin 8) (n : Fin 1024) (d : Fin 96) : idx_main_v1 (ix5 b n (0 : Fin 2) h d) = ix3 b n (kcol h d) :=
  funext fun a => Fin.ext (by
    have hb := b.isLt; have hh := h.isLt; have hn := n.isLt; have hd := d.isLt
    match a with
    | ⟨0, _⟩ => show ((((b.val * 1024 + n.val) * 2 + 0) * 8 + h.val) * 96 + d.val) / 1572864 = b.val; omega
    | ⟨1, _⟩ => show ((((b.val * 1024 + n.val) * 2 + 0) * 8 + h.val) * 96 + d.val) / 1536 % 1024 = n.val; omega
    | ⟨2, _⟩ => show ((((b.val * 1024 + n.val) * 2 + 0) * 8 + h.val) * 96 + d.val) % 1536 = h.val * 96 + d.val; omega)
theorem idx1_v (b h : Fin 8) (n : Fin 1024) (d : Fin 96) : idx_main_v1 (ix5 b n (1 : Fin 2) h d) = ix3 b n (vcol h d) :=
  funext fun a => Fin.ext (by
    have hb := b.isLt; have hh := h.isLt; have hn := n.isLt; have hd := d.isLt
    match a with
    | ⟨0, _⟩ => show ((((b.val * 1024 + n.val) * 2 + 1) * 8 + h.val) * 96 + d.val) / 1572864 = b.val; omega
    | ⟨1, _⟩ => show ((((b.val * 1024 + n.val) * 2 + 1) * 8 + h.val) * 96 + d.val) / 1536 % 1024 = n.val; omega
    | ⟨2, _⟩ => show ((((b.val * 1024 + n.val) * 2 + 1) * 8 + h.val) * 96 + d.val) % 1536 = 768 + h.val * 96 + d.val; omega)

/-- The keys, head by head. -/
theorem k_at (b h : Fin 8) (n : Fin 1024) (d : Fin 96) :
    val_main_v4 (F := Ideal) a1 a3 (ix4 b h n d) = K a1 a3 b h n d := by
  rw [val_main_v4_apply, idx4, val_main_v3_apply, idx3, val_main_v2_apply, idx2, val_main_v1_apply, idx1_k, kv_at]
  rfl
/-- The values, head by head. -/
theorem v_at (b h : Fin 8) (n : Fin 1024) (d : Fin 96) :
    val_main_v6 (F := Ideal) a1 a3 (ix4 b h n d) = V a1 a3 b h n d := by
  rw [val_main_v6_apply, idx6, val_main_v5_apply, idx5, val_main_v2_apply, idx2, val_main_v1_apply, idx1_v, kv_at]
  rfl

/-! ## The queries: reread without transposition, scaled after the product -/

theorem lidx7 (b : Fin 8) (n : Fin 1024) (o k : Fin 768) : lidx_main_v7 (ix3 b n o) k = ix3 b n k :=
  funext fun a => Fin.ext (by match a with | ⟨0, _⟩ => rfl | ⟨1, _⟩ => rfl | ⟨2, _⟩ => rfl)
theorem ridx7 (b : Fin 8) (n : Fin 1024) (o k : Fin 768) : ridx_main_v7 (ix3 b n o) k = ix2 o k :=
  funext fun a => Fin.ext (by match a with | ⟨0, _⟩ => rfl | ⟨1, _⟩ => rfl)
/-- Entry (h, n, d) of batch b is row 128 h + n / 8, column 96 (n mod 8) + d of the product. -/
theorem idx8 (b h : Fin 8) (n : Fin 1024) (d : Fin 96) : idx_main_v8 (ix4 b h n d) = ix3 b (rowOf h n) (colOf n d) :=
  funext fun a => Fin.ext (by
    have hb := b.isLt; have hh := h.isLt; have hn := n.isLt; have hd := d.isLt
    match a with
    | ⟨0, _⟩ => show (((b.val * 8 + h.val) * 1024 + n.val) * 96 + d.val) / 786432 = b.val; omega
    | ⟨1, _⟩ => show (((b.val * 8 + h.val) * 1024 + n.val) * 96 + d.val) / 768 % 1024 = h.val * 128 + n.val / 8; omega
    | ⟨2, _⟩ => show (((b.val * 8 + h.val) * 1024 + n.val) * 96 + d.val) % 768 = n.val % 8 * 96 + d.val; omega)

theorem q_at (b h : Fin 8) (n : Fin 1024) (d : Fin 96) :
    val_main_v10 (F := Ideal) a0 a2 (ix4 b h n d) = Q a0 a2 b h n d := by
  rw [val_main_v10_apply, val_main_v8_apply, idx8, val_main_v7_apply, val_main_v9_apply, val_main_cst_apply]
  show (∑ k : Fin 768, _) * sc = (∑ k : Fin 768, _) * sc
  exact congrArg (· * sc) (Finset.sum_congr rfl fun k _ => by rw [lidx7, ridx7])

/-! ## Scores, row maxima, exponentials, row sums -/

theorem lidx11 (b h : Fin 8) (n n' : Fin 1024) (k : Fin 96) : lidx_main_v11 (ix4 b h n n') k = ix4 b h n k :=
  funext fun a => Fin.ext (by match a with | ⟨0, _⟩ => rfl | ⟨1, _⟩ => rfl | ⟨2, _⟩ => rfl | ⟨3, _⟩ => rfl)
theorem ridx11 (b h : Fin 8) (n n' : Fin 1024) (k : Fin 96) : ridx_main_v11 (ix4 b h n n') k = ix4 b h n' k :=
  funext fun a => Fin.ext (by match a with | ⟨0, _⟩ => rfl | ⟨1, _⟩ => rfl | ⟨2, _⟩ => rfl | ⟨3, _⟩ => rfl)

theorem score_at (b h : Fin 8) (n n' : Fin 1024) :
    val_main_v11 (F := Ideal) a0 a1 a2 a3 (ix4 b h n n') = score (Q a0 a2) (K a1 a3) b h n n' := by
  rw [val_main_v11_apply]
  unfold score
  exact Finset.sum_congr rfl fun k _ => by rw [lidx11, ridx11, q_at, k_at]

/-- A maximum with the start value of a fold of maxima changes nothing: the fold is at least its start. -/
theorem max_fold_start {ι : Type} (s : Finset ι) (c : EReal) (f : ι → EReal) : max c (s.fold max c f) = s.fold max c f :=
  max_eq_right ((Finset.le_fold_max c).2 (Or.inl le_rfl))

/-- The reduced index (b, h, n) with coordinate k put back on the last axis. -/
theorem lift_last (hR : S8x8x1024x1024.Reduces [3] S8x8x1024) (b h : Fin 8) (n : Fin 1024) (k : Fin (S8x8x1024x1024.size 3)) :
    hR.lift (ix3 b h n) k = ix4 b h n (⟨k.val, k.isLt⟩ : Fin 1024) :=
  funext fun a => Fin.ext (by match a with | ⟨0, _⟩ => rfl | ⟨1, _⟩ => rfl | ⟨2, _⟩ => rfl | ⟨3, _⟩ => rfl)

/-- The max-reduce over the last axis is the row maximum from the start value. -/
theorem v12_at (b h : Fin 8) (n : Fin 1024) :
    val_main_v12 (F := Ideal) a0 a1 a2 a3 (ix3 b h n) = rowMax ninf (Q a0 a2) (K a1 a3) b h n := by
  have hR : S8x8x1024x1024.Reduces [3] S8x8x1024 := by decide
  unfold val_main_v12
  rw [Host.reduce_eq_fold_single FloatOps.maximumf _ _ reducesTo_S8x8x1024x1024_S8x8x1024_d3 hR h_S_]
  have hf : (val_main_v11 (F := Ideal) a0 a1 a2 a3 ∘ hR.lift (ix3 b h n))
      = fun k : Fin 1024 => score (Q a0 a2) (K a1 a3) b h n k :=
    funext fun k => (congrArg (val_main_v11 (F := Ideal) a0 a1 a2 a3) (lift_last hR b h n k)).trans (score_at a0 a1 a2 a3 b h n _)
  exact congrArg (fun f => Finset.fold max ninf f (Finset.univ : Finset (Fin 1024))) hf

/-- The maximum with the splat of the start value changes nothing. -/
theorem rowmax_at (b h : Fin 8) (n : Fin 1024) :
    val_main_v14 (F := Ideal) a0 a1 a2 a3 (ix3 b h n) = rowMax ninf (Q a0 a2) (K a1 a3) b h n := by
  rw [val_main_v14_apply, val_main_v13_apply, val_main_cst_1_apply, v12_at]
  exact max_fold_start _ _ _

theorem idx1516 (b h : Fin 8) (n n' : Fin 1024) : idx_main_v15 (idx_main_v16 (ix4 b h n n')) = ix3 b h n :=
  funext fun a => Fin.ext (by match a with | ⟨0, _⟩ => rfl | ⟨1, _⟩ => rfl | ⟨2, _⟩ => rfl)

theorem expo_at (b h : Fin 8) (n n' : Fin 1024) :
    val_main_v18 (F := Ideal) a0 a1 a2 a3 (ix4 b h n n') = expo ninf (Q a0 a2) (K a1 a3) b h n n' := by
  rw [val_main_v18_apply, val_main_v17_apply, val_main_v16_apply, val_main_v15_apply, idx1516, rowmax_at, score_at]
  rfl

theorem idx19 (b h : Fin 8) (n k : Fin 1024) : idx_main_v19 (ix3 b h n) k = ix4 b h n k :=
  funext fun a => Fin.ext (by match a with | ⟨0, _⟩ => rfl | ⟨1, _⟩ => rfl | ⟨2, _⟩ => rfl | ⟨3, _⟩ => rfl)

/-- The add-reduce starts from zero, which adds nothing. -/
theorem rowsum_at (b h : Fin 8) (n : Fin 1024) :
    val_main_v19 (F := Ideal) a0 a1 a2 a3 (ix3 b h n) = rowSum ninf (Q a0 a2) (K a1 a3) b h n := by
  rw [val_main_v19_apply, val_main_cst_2_apply, Ideal.ofBits_def, Ideal.ofBits_zero_f32, zero_add]
  unfold rowSum
  exact Finset.sum_congr rfl fun k _ => by rw [idx19, expo_at]

/-! ## The weights and the weighted sums of the values -/

theorem idx2021 (b h : Fin 8) (n n' : Fin 1024) : idx_main_v20 (idx_main_v21 (ix4 b h n n')) = ix3 b h n :=
  funext fun a => Fin.ext (by match a with | ⟨0, _⟩ => rfl | ⟨1, _⟩ => rfl | ⟨2, _⟩ => rfl)
theorem lidx23 (b h : Fin 8) (n : Fin 1024) (d : Fin 96) (k : Fin 1024) : lidx_main_v23 (ix4 b h n d) k = ix4 b h n k :=
  funext fun a => Fin.ext (by match a with | ⟨0, _⟩ => rfl | ⟨1, _⟩ => rfl | ⟨2, _⟩ => rfl | ⟨3, _⟩ => rfl)
theorem ridx23 (b h : Fin 8) (n : Fin 1024) (d : Fin 96) (k : Fin 1024) : ridx_main_v23 (ix4 b h n d) k = ix4 b h k d :=
  funext fun a => Fin.ext (by match a with | ⟨0, _⟩ => rfl | ⟨1, _⟩ => rfl | ⟨2, _⟩ => rfl | ⟨3, _⟩ => rfl)

/-- Each weight is divided by its row sum before the product with the values. -/
theorem attn_at (b h : Fin 8) (n : Fin 1024) (d : Fin 96) :
    val_main_v23 (F := Ideal) a0 a1 a2 a3 (ix4 b h n d) = attnDivThenSum ninf (Q a0 a2) (K a1 a3) (V a1 a3) b h n d := by
  rw [val_main_v23_apply]
  unfold attnDivThenSum
  exact Finset.sum_congr rfl fun k _ => by
    rw [lidx23, ridx23, v_at, val_main_v22_apply, expo_at, val_main_v21_apply, val_main_v20_apply, idx2021, rowsum_at]
    rfl

/-! ## The heads side by side, the projection and the bias -/

/-- Column c of the 768 belongs to head c / 96, coordinate c mod 96. -/
theorem idx2425 (b : Fin 8) (n : Fin 1024) (c : Fin 768) :
    idx_main_v24 (idx_main_v25 (ix3 b n c))
      = ix4 b (⟨c.val / 96, by have := c.isLt; omega⟩ : Fin 8) n (⟨c.val % 96, by have := c.isLt; omega⟩ : Fin 96) :=
  funext fun a => Fin.ext (by
    have hb := b.isLt; have hn := n.isLt; have hc := c.isLt
    match a with
    | ⟨0, _⟩ => show ((b.val * 1024 + n.val) * 768 + c.val) / 786432 = b.val; omega
    | ⟨1, _⟩ => show ((b.val * 1024 + n.val) * 768 + c.val) / 96 % 8 = c.val / 96; omega
    | ⟨2, _⟩ => show ((b.val * 1024 + n.val) * 768 + c.val) / 768 % 1024 = n.val; omega
    | ⟨3, _⟩ => show ((b.val * 1024 + n.val) * 768 + c.val) % 96 = c.val % 96; omega)

theorem lidx26 (b : Fin 8) (n : Fin 1024) (o k : Fin 768) : lidx_main_v26 (ix3 b n o) k = ix3 b n k :=
  funext fun a => Fin.ext (by match a with | ⟨0, _⟩ => rfl | ⟨1, _⟩ => rfl | ⟨2, _⟩ => rfl)
theorem ridx26 (b : Fin 8) (n : Fin 1024) (o k : Fin 768) : ridx_main_v26 (ix3 b n o) k = ix2 o k :=
  funext fun a => Fin.ext (by match a with | ⟨0, _⟩ => rfl | ⟨1, _⟩ => rfl)
theorem idx2728 (b : Fin 8) (n : Fin 1024) (o : Fin 768) : idx_main_v27 (idx_main_v28 (ix3 b n o)) = ix1 o :=
  funext fun a => Fin.ext (by match a with | ⟨0, _⟩ => rfl)

/-- The result at (b, n, o). -/
theorem out_at (b : Fin 8) (n : Fin 1024) (o : Fin 768) :
    val_main_v29 (F := Ideal) a0 a1 a2 a3 a4 a5 (ix3 b n o)
      = outReference sc ninf (X a0) (KV a1) (WQ a2) (WKV a3) (WP a4) (BP a5) b n o := by
  rw [val_main_v29_apply, val_main_v26_apply, val_main_v28_apply, val_main_v27_apply, idx2728, Ideal.addf_def]
  unfold outReference projFlat
  refine congrArg (· + a5 (ix1 o)) (Finset.sum_congr rfl fun k _ => ?_)
  rw [lidx26, ridx26, val_main_v25_apply, val_main_v24_apply, idx2425, attn_at]

/-- The reference's result is the specification's, index by index. -/
theorem ref_is_spec (a0 a1 : (⟨S8x1024x768, .f32⟩ : BufTy).Contents (Elt Ideal)) (a2 : (⟨S768x768, .f32⟩ : BufTy).Contents (Elt Ideal))
    (a3 : (⟨S1536x768, .f32⟩ : BufTy).Contents (Elt Ideal)) (a4 : (⟨S768x768, .f32⟩ : BufTy).Contents (Elt Ideal))
    (a5 : (⟨S768, .f32⟩ : BufTy).Contents (Elt Ideal)) :
    Cert.ReferenceIdeal.Read.val_main_v29 (F := Ideal) a0 a1 a2 a3 a4 a5
      = fun i => Cert.AttnSpec.outReference (Ideal.ofBits .f32 0x3DD105EC#32) (Ideal.ofBits .f32 0xFF800000#32)
          (fun b n k => a0 (ValueIdx.ix3 b n k)) (fun b n k => a1 (ValueIdx.ix3 b n k)) (fun o k => a2 (ValueIdx.ix2 o k))
          (fun o k => a3 (ValueIdx.ix2 o k)) (fun o c => a4 (ValueIdx.ix2 o c)) (fun o => a5 (ValueIdx.ix1 o)) (i 0) (i 1) (i 2) := by
  funext i
  exact (congrArg (val_main_v29 (F := Ideal) a0 a1 a2 a3 a4 a5) (eq_ix3 i)).trans (out_at a0 a1 a2 a3 a4 a5 (i 0) (i 1) (i 2))

end Cert.ReferenceIdeal.RefValue

end
-- ==== Proof.RefFrame.lean ====
import proofs.«425593_j41592463294467_3_alg».proof.Defs
import proofs.«425593_j41592463294467_3_alg».proof.Proof.Gen.ReferenceIdeal.Run
import proofs.«425593_j41592463294467_3_alg».proof.Proof.Gen.Pre_finite_inputs

/-! The reference program runs to the end and leaves its arguments unchanged: its run, with the result dropped. -/

noncomputable section

open Idealize.ShloMosaic Idealize.ShloMosaic.TcCoe Idealize.SL.Sem

namespace Cert.ReferenceIdeal.RefValue

theorem frame_ri : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

end Cert.ReferenceIdeal.RefValue

end
-- ==== Proof.LibERealSums.lean ====
/-
  Finite sums, products and running maxima of extended reals all of whose terms are real numbers.

  On the extended reals multiplication does not distribute over addition at the infinities, and a sum
  cannot be regrouped against a factor there. Every law below is therefore proved by naming the real
  numbers behind the terms, moving the coercion ℝ → EReal outside the sum or product, and doing the
  algebra in ℝ.
-/
import Mathlib.Data.EReal.Operations
import Mathlib.Algebra.BigOperators.Group.Finset.Basic
import Mathlib.Algebra.BigOperators.Ring.Finset
import Mathlib.Data.Finset.Fold
import Mathlib.Tactic.Ring

namespace Cert.ERealSums

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A product of two real extended reals is real. -/
theorem exists_real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- A difference of two real extended reals is real. -/
theorem exists_real_sub {x y : EReal} (hx : ∃ r : ℝ, x = (r : EReal)) (hy : ∃ r : ℝ, y = (r : EReal)) :
    ∃ r : ℝ, x - y = (r : EReal) := by
  obtain ⟨a, rfl⟩ := hx
  obtain ⟨b, rfl⟩ := hy
  exact ⟨a - b, (EReal.coe_sub a b).symm⟩

/-- A finite sum of real extended reals is real. -/
theorem exists_real_sum {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_finset_sum]; exact Finset.sum_congr rfl (fun i _ => hg i)⟩

/-- A finite sum of products of real extended reals (an inner product of two real vectors) is real. -/
theorem exists_real_sum_mul {ι : Type*} (s : Finset ι) (f g : ι → EReal) (hf : ∀ i, ∃ r : ℝ, f i = (r : EReal))
    (hg : ∀ i, ∃ r : ℝ, g i = (r : EReal)) : ∃ r : ℝ, ∑ i ∈ s, f i * g i = (r : EReal) :=
  exists_real_sum s _ (fun i => exists_real_mul (hf i) (hg i))

/-- The maximum of two real extended reals is real. -/
theorem exists_real_max {x y : EReal} (hx : ∃ r : ℝ, x = (r : EReal)) (hy : ∃ r : ℝ, y = (r : EReal)) :
    ∃ r : ℝ, max x y = (r : EReal) := by
  rcases le_total x y with h | h
  · rw [max_eq_right h]; exact hy
  · rw [max_eq_left h]; exact hx

/-- The running maximum, started from ⊥, of real values over a NONEMPTY finite set is real (over the empty
    set it is ⊥). -/
theorem exists_real_fold_max {ι : Type*} (s : Finset ι) (hs : s.Nonempty) (f : ι → EReal)
    (hf : ∀ i, ∃ r : ℝ, f i = (r : EReal)) : ∃ r : ℝ, s.fold max ⊥ f = (r : EReal) := by
  induction hs using Finset.Nonempty.cons_induction with
  | singleton a => rw [Finset.fold_singleton, max_bot_right]; exact hf a
  | cons a s ha hs ih => rw [Finset.fold_cons]; exact exists_real_max (hf a) ih

/-- A real factor moves out of a finite sum of products of reals: ∑ x·(w·c) = (∑ x·w)·c. (False on the
    extended reals in general: the sum on the right can be ⊤ + ⊥.) -/
theorem sum_mul_mul_eq_sum_mul_mul {ι : Type*} (s : Finset ι) (x w : ι → EReal) (c : EReal)
    (hx : ∀ i, ∃ r : ℝ, x i = (r : EReal)) (hw : ∀ i, ∃ r : ℝ, w i = (r : EReal)) (hc : ∃ r : ℝ, c = (r : EReal)) :
    ∑ i ∈ s, x i * (w i * c) = (∑ i ∈ s, x i * w i) * c := by
  choose a ha using hx
  choose b hb using hw
  obtain ⟨t, rfl⟩ := hc
  have h1 : ∀ i, x i * (w i * (t : EReal)) = ((a i * (b i * t) : ℝ) : EReal) := fun i => by
    rw [ha i, hb i, EReal.coe_mul, EReal.coe_mul]
  have h2 : ∀ i, x i * w i = ((a i * b i : ℝ) : EReal) := fun i => by rw [ha i, hb i, EReal.coe_mul]
  rw [Finset.sum_congr rfl (fun i _ => h1 i), Finset.sum_congr rfl (fun i _ => h2 i), ← coe_finset_sum,
    ← coe_finset_sum, ← EReal.coe_mul, Finset.sum_mul]
  exact congrArg _ (Finset.sum_congr rfl (fun i _ => by ring))

end Cert.ERealSums
-- ==== Proof.BridgeScale.lean ====
/-
  The scale law: scaling the query weight before the product, or the product afterwards, gives the same
  query projection when the data, the weight and the scale are real. (A real factor moves out of a finite
  sum of reals; on the extended reals this needs the finiteness.)
-/
import proofs.«425593_j41592463294467_3_alg».proof.Proof.Spec
import proofs.«425593_j41592463294467_3_alg».proof.Proof.LibERealSums

namespace Cert.AttnSpec

theorem qBefore_eq_qAfter (s : EReal) (x : Fin 8 → Fin 1024 → Fin 768 → EReal) (wq : Fin 768 → Fin 768 → EReal)
    (hs : ∃ r : ℝ, s = (r : EReal)) (hx : ∀ b n k, ∃ r : ℝ, x b n k = (r : EReal))
    (hwq : ∀ o k, ∃ r : ℝ, wq o k = (r : EReal)) : qBefore s x wq = qAfter s x wq := by
  funext b n o
  exact Cert.ERealSums.sum_mul_mul_eq_sum_mul_mul Finset.univ (fun k => x b n k) (fun k => wq o k) s (hx b n) (hwq o) hs

/-- The scaled query projection of real data by a real weight and a real scale is real. -/
theorem qAfter_real (s : EReal) (x : Fin 8 → Fin 1024 → Fin 768 → EReal) (wq : Fin 768 → Fin 768 → EReal)
    (hs : ∃ r : ℝ, s = (r : EReal)) (hx : ∀ b n k, ∃ r : ℝ, x b n k = (r : EReal))
    (hwq : ∀ o k, ∃ r : ℝ, wq o k = (r : EReal)) (b : Fin 8) (n : Fin 1024) (o : Fin 768) :
    ∃ r : ℝ, qAfter s x wq b n o = (r : EReal) :=
  Cert.ERealSums.exists_real_mul (Cert.ERealSums.exists_real_sum_mul Finset.univ _ _ (hx b n) (hwq o)) hs

/-- The key/value projection of real data by a real weight is real. -/
theorem kvProj_real (kv : Fin 8 → Fin 1024 → Fin 768 → EReal) (wkv : Fin 1536 → Fin 768 → EReal)
    (hkv : ∀ b n k, ∃ r : ℝ, kv b n k = (r : EReal)) (hwkv : ∀ o k, ∃ r : ℝ, wkv o k = (r : EReal))
    (b : Fin 8) (n : Fin 1024) (o : Fin 1536) : ∃ r : ℝ, kvProj kv wkv b n o = (r : EReal) :=
  Cert.ERealSums.exists_real_sum_mul Finset.univ _ _ (hkv b n) (hwkv o)

end Cert.AttnSpec
-- ==== Proof.LibIdealNormalise.lean ====
/-
  Normalising a softmax-weighted sum of real values over the extended reals: dividing the weighted sum by
  the sum of the weights gives the same as dividing each weight first.

  With real scores S over a nonempty finite index set, the running maximum M started from ⊥ is real, so
  every weight exp (S i - M) is the coercion of a POSITIVE real, the sum L of the weights is a positive real,
  hence nonzero, and division by L is multiplication by the real 1 / L. Both sides are then coercions of
  real numbers, equal by (∑ p·w)·c = ∑ (p·c)·w.
-/
import Idealize.ShloMosaic.PureOps.Ideal
import proofs.«425593_j41592463294467_3_alg».proof.Proof.LibERealSums

namespace Cert.IdealNormalise

open Idealize.ShloMosaic

/-- Dividing a weighted sum of reals by a nonzero real, or dividing each weight by it first, is the same. -/
theorem div_sum_eq_sum_div {ι : Type*} (s : Finset ι) (p w : ι → ℝ) (l : ℝ) (hl : l ≠ 0) :
    Ideal.div (∑ i ∈ s, (p i : EReal) * (w i : EReal)) (l : EReal)
      = ∑ i ∈ s, Ideal.div (p i : EReal) (l : EReal) * (w i : EReal) := by
  have h1 : ∀ i, (p i : EReal) * (w i : EReal) = ((p i * w i : ℝ) : EReal) := fun i => (EReal.coe_mul _ _).symm
  have h2 : ∀ i, Ideal.div (p i : EReal) (l : EReal) * (w i : EReal) = ((p i * (1 / l) * w i : ℝ) : EReal) :=
    fun i => by rw [Ideal.div_coe hl, ← EReal.coe_mul, ← EReal.coe_mul]
  rw [Ideal.div_coe hl, Finset.sum_congr rfl (fun i _ => h1 i), Finset.sum_congr rfl (fun i _ => h2 i),
    ← Cert.ERealSums.coe_finset_sum, ← Cert.ERealSums.coe_finset_sum, ← EReal.coe_mul, Finset.sum_mul]
  exact congrArg _ (Finset.sum_congr rfl (fun i _ => by ring))

/-- The weight of a real score against the real running maximum is the coercion of a real exponential. -/
theorem exp_sub_coe (a m : ℝ) : Ideal.exp ((a : EReal) - (m : EReal)) = ((Real.exp (a - m) : ℝ) : EReal) := by
  rw [← EReal.coe_sub, Ideal.exp_coe]

/-- Softmax weights exp (S i - max S) of real scores over a nonempty finite index set, applied to real values:
    the weighted sum divided by the sum of the weights is the sum with each weight divided first. -/
theorem softmax_div_sum_eq_sum_div {ι : Type*} [Fintype ι] [Nonempty ι] (S V : ι → EReal)
    (hS : ∀ i, ∃ r : ℝ, S i = (r : EReal)) (hV : ∀ i, ∃ r : ℝ, V i = (r : EReal)) :
    Ideal.div (∑ i, Ideal.exp (S i - Finset.univ.fold max ⊥ S) * V i)
        (∑ i, Ideal.exp (S i - Finset.univ.fold max ⊥ S))
      = ∑ i, Ideal.div (Ideal.exp (S i - Finset.univ.fold max ⊥ S))
          (∑ j, Ideal.exp (S j - Finset.univ.fold max ⊥ S)) * V i := by
  obtain ⟨m, hm⟩ := Cert.ERealSums.exists_real_fold_max Finset.univ Finset.univ_nonempty S hS
  choose a ha using hS
  choose w hw using hV
  have hP : ∀ i, Ideal.exp (S i - Finset.univ.fold max ⊥ S) = ((Real.exp (a i - m) : ℝ) : EReal) := fun i => by
    rw [hm, ha i, exp_sub_coe]
  have hl : (∑ i, Real.exp (a i - m)) ≠ 0 :=
    (Finset.sum_pos (fun i _ => Real.exp_pos _) Finset.univ_nonempty).ne'
  simp only [hP, hw]
  rw [← Cert.ERealSums.coe_finset_sum]
  exact div_sum_eq_sum_div Finset.univ _ _ _ hl

end Cert.IdealNormalise
-- ==== Proof.BridgeNorm.lean ====
/-
  The normalisation law: on head-major q, k, v that are real everywhere, dividing the weighted sum ∑ P v by the
  row sum equals summing with each weight divided first. The scores are inner products of real vectors, hence
  real; the rest is the general law for softmax weights over the nonempty index set of the 1024 keys.
-/
import proofs.«425593_j41592463294467_3_alg».proof.Proof.Spec
import proofs.«425593_j41592463294467_3_alg».proof.Proof.LibERealSums
import proofs.«425593_j41592463294467_3_alg».proof.Proof.LibIdealNormalise

namespace Cert.AttnSpec

open Idealize.ShloMosaic

/-- The scores of real queries against real keys are real. -/
theorem score_real (q k : Fin 8 → Fin 8 → Fin 1024 → Fin 96 → EReal)
    (hq : ∀ b h n d, ∃ r : ℝ, q b h n d = (r : EReal)) (hk : ∀ b h n d, ∃ r : ℝ, k b h n d = (r : EReal))
    (b h : Fin 8) (n n' : Fin 1024) : ∃ r : ℝ, score q k b h n n' = (r : EReal) :=
  Cert.ERealSums.exists_real_sum_mul Finset.univ _ _ (hq b h n) (hk b h n')

theorem attnSumThenDiv_eq_attnDivThenSum (ninf : EReal) (q k v : Fin 8 → Fin 8 → Fin 1024 → Fin 96 → EReal)
    (hninf : ninf = ⊥) (hq : ∀ b h n d, ∃ r : ℝ, q b h n d = (r : EReal))
    (hk : ∀ b h n d, ∃ r : ℝ, k b h n d = (r : EReal)) (hv : ∀ b h n d, ∃ r : ℝ, v b h n d = (r : EReal)) :
    attnSumThenDiv ninf q k v = attnDivThenSum ninf q k v := by
  subst hninf
  funext b h n d
  unfold attnSumThenDiv attnDivThenSum rowSum expo rowMax
  exact Cert.IdealNormalise.softmax_div_sum_eq_sum_div (fun n' => score q k b h n n') (fun n' => v b h n' d)
    (fun n' => score_real q k hq hk b h n n') (fun n' => hv b h n' d)

end Cert.AttnSpec
-- ==== Proof.BridgeProj.lean ====
/-
  The projection law: adding the eight heads' contributions one after the other, starting from zero,
  gives the sum over all 768 columns. It holds for ANY attention output O, weight and bias: it is a
  regrouping of a finite sum in a commutative monoid, column c = 96 h + d standing for the pair (h, d).
-/
import proofs.«425593_j41592463294467_3_alg».proof.Proof.Spec
import Mathlib.Algebra.BigOperators.Group.Finset.Basic
import Mathlib.Algebra.BigOperators.Fin

noncomputable section

namespace Cert.AttnSpec

/-- The eight steps of the head-after-head accumulation add up to the sum over the heads. -/
theorem headAcc_seven (C : Fin 8 → EReal) : headAcc C 7 = ∑ h : Fin 8, C h := by
  simp only [headAcc, Fin.sum_univ_eight, zero_add]
  rfl

/-- Column 96 h + d of a 768-wide row, as a bijection from pairs (head, coordinate) to columns; its
    inverse sends column c to (c / 96, c % 96). -/
def hdEquiv : Fin 8 × Fin 96 ≃ Fin 768 where
  toFun p := hd p.1 p.2
  invFun c := (⟨c.val / 96, by omega⟩, ⟨c.val % 96, by omega⟩)
  left_inv := by
    rintro ⟨h, d⟩
    refine Prod.ext (Fin.ext ?_) (Fin.ext ?_)
    · show (h.val * 96 + d.val) / 96 = h.val
      omega
    · show (h.val * 96 + d.val) % 96 = d.val
      omega
  right_inv := by
    intro c
    refine Fin.ext ?_
    show c.val / 96 * 96 + c.val % 96 = c.val
    omega

/-- A sum over the 768 columns is the sum over the heads of the sums over the head's 96 coordinates. -/
theorem sum_cols_eq_sum_heads (F : Fin 768 → EReal) : ∑ c : Fin 768, F c = ∑ h : Fin 8, ∑ d : Fin 96, F (hd h d) := by
  rw [← Equiv.sum_comp hdEquiv F, Fintype.sum_prod_type]
  rfl

theorem projByHeads_eq_projFlat (O : Fin 8 → Fin 8 → Fin 1024 → Fin 96 → EReal) (wp : Fin 768 → Fin 768 → EReal)
    (bp : Fin 768 → EReal) : projByHeads O wp bp = projFlat O wp bp := by
  funext b n o
  unfold projByHeads projFlat
  rw [headAcc_seven, sum_cols_eq_sum_heads]
  refine congrArg (· + bp o) (Finset.sum_congr rfl (fun h _ => ?_))
  unfold contrib
  refine Finset.sum_congr rfl (fun d _ => ?_)
  have h1 : (⟨(hd h d).val / 96, by omega⟩ : Fin 8) = h := Fin.ext (by show (h.val * 96 + d.val) / 96 = h.val; omega)
  have h2 : (⟨(hd h d).val % 96, by omega⟩ : Fin 96) = d := Fin.ext (by show (h.val * 96 + d.val) % 96 = d.val; omega)
  rw [h1, h2]

end Cert.AttnSpec

end
-- ==== Proof.Bridge.lean ====
/-
  The two programs' mathematics agree on real inputs. Three independent laws:
  the SCALE (a real factor moves out of a finite sum of reals), the NORMALISATION (dividing a softmax-weighted
  sum by the row sum, or each weight first) and the PROJECTION (the eight heads added one after the other from
  zero are the sum over all 768 columns). Only the first two use that the inputs are real; the projection
  weight and the bias are arbitrary extended reals.
-/
import proofs.«425593_j41592463294467_3_alg».proof.Proof.Spec
import proofs.«425593_j41592463294467_3_alg».proof.Proof.BridgeScale
import proofs.«425593_j41592463294467_3_alg».proof.Proof.BridgeNorm
import proofs.«425593_j41592463294467_3_alg».proof.Proof.BridgeProj

namespace Cert.AttnSpec

/-- A [8, 1024, 768] array of reals reread head-major is real everywhere. -/
theorem heads_real (Q : Fin 8 → Fin 1024 → Fin 768 → EReal) (hQ : ∀ b n o, ∃ r : ℝ, Q b n o = (r : EReal))
    (b h : Fin 8) (n : Fin 1024) (d : Fin 96) : ∃ r : ℝ, heads Q b h n d = (r : EReal) := hQ _ _ _

theorem keysOf_real (KV : Fin 8 → Fin 1024 → Fin 1536 → EReal) (hKV : ∀ b n o, ∃ r : ℝ, KV b n o = (r : EReal))
    (b h : Fin 8) (n : Fin 1024) (d : Fin 96) : ∃ r : ℝ, keysOf KV b h n d = (r : EReal) := hKV _ _ _

theorem valsOf_real (KV : Fin 8 → Fin 1024 → Fin 1536 → EReal) (hKV : ∀ b n o, ∃ r : ℝ, KV b n o = (r : EReal))
    (b h : Fin 8) (n : Fin 1024) (d : Fin 96) : ∃ r : ℝ, valsOf KV b h n d = (r : EReal) := hKV _ _ _

theorem outKernel_eq_outReference (s ninf : EReal) (x kv : Fin 8 → Fin 1024 → Fin 768 → EReal)
    (wq : Fin 768 → Fin 768 → EReal) (wkv : Fin 1536 → Fin 768 → EReal) (wp : Fin 768 → Fin 768 → EReal)
    (bp : Fin 768 → EReal)
    (hs : ∃ r : ℝ, s = (r : EReal)) (hninf : ninf = ⊥)
    (hx : ∀ b n k, ∃ r : ℝ, x b n k = (r : EReal)) (hkv : ∀ b n k, ∃ r : ℝ, kv b n k = (r : EReal))
    (hwq : ∀ o k, ∃ r : ℝ, wq o k = (r : EReal)) (hwkv : ∀ o k, ∃ r : ℝ, wkv o k = (r : EReal)) :
    outKernel s ninf x kv wq wkv wp bp = outReference s ninf x kv wq wkv wp bp := by
  funext b n o
  unfold outKernel outReference attnRegion
  rw [qBefore_eq_qAfter s x wq hs hx hwq, projByHeads_eq_projFlat,
    attnSumThenDiv_eq_attnDivThenSum ninf _ _ _ hninf
      (heads_real _ (qAfter_real s x wq hs hx hwq))
      (keysOf_real _ (kvProj_real kv wkv hkv hwkv))
      (valsOf_real _ (kvProj_real kv wkv hkv hwkv))]

end Cert.AttnSpec
-- ==== Proof.Finite.lean ====
/-
  From the certificate's precondition to "every entry of every argument array is a real number", and the two
  literals of the attention kernel read as extended reals.

  The precondition is a printed predicate: for each of the six arrays, |x| < +∞ elementwise, reduced by "and"
  over all axes, the six results joined by "and", and the claim that the word is 1. Read backwards: the join
  being 1 gives each reduction 1; a full reduction by "and" being 1 gives each compared element 1; an element
  comparison max x (-x) < ⊤ on the extended reals excludes x = ⊤ and x = ⊥, so x is a real.

  The literals: a pattern whose exponent field is not all ones denotes a real (zero, subnormal or normal);
  the pattern with sign 1, exponent all ones and zero fraction denotes −∞.
-/
import proofs.«425593_j41592463294467_3_alg».proof.Defs
import proofs.«425593_j41592463294467_3_alg».proof.Proof.Gen.Pre_finite_inputs
import Idealize.ShloMosaic.Lib.ReduceAll
import Idealize.ShloMosaic.Lib.IdealHost

noncomputable section

namespace Cert.Finite

open Idealize.ShloMosaic
open Cert.Pre_finite_inputs (S_ S8x1024x768 S768x768 S1536x768 S768)

/-- The rank-0 shape has one index. -/
instance : Subsingleton S_.Idx := ⟨fun a b => funext fun d => d.elim0⟩

/-- A one-bit word made from a Boolean is 1 exactly when the Boolean is true. -/
theorem ofBool_eq_one (b : Bool) : BitVec.ofBool b = 1#1 ↔ b = true := by cases b <;> decide

/-! ## Bit patterns -/

/-- A pattern whose exponent field is not all ones denotes a real number. -/
theorem ieee_real (e m : Nat) {w : Nat} (b : BitVec w) (h : (b.extractLsb' m e).toNat ≠ 2 ^ e - 1) :
    ∃ r : ℝ, Ideal.ieee e m b = (r : EReal) := by
  unfold Ideal.ieee
  simp only []
  rw [if_neg h]
  split_ifs <;> exact ⟨_, rfl⟩

/-- The f32 pattern 0x7F800000 (sign 0, exponent all ones, fraction 0) is +∞. -/
theorem pinf_top : Ideal.ofBits .f32 0x7F800000#32 = (⊤ : EReal) := by
  simp [Ideal.ofBits, Ideal.ieee]

/-- The f32 pattern 0xFF800000 (sign 1, exponent all ones, fraction 0) is −∞. -/
theorem ninf_bot : Ideal.ofBits .f32 0xFF800000#32 = (⊥ : EReal) := by
  simp [Ideal.ofBits, Ideal.ieee]

/-- The f32 pattern 0x3DD105EC (the f32 nearest 1/√96, about 0.102062076; exponent field 123) is a real number. -/
theorem scale_real : ∃ r : ℝ, Ideal.ofBits .f32 0x3DD105EC#32 = (r : EReal) :=
  ieee_real 8 23 (0x3DD105EC#32 : BitVec 32) (by decide)

/-! ## One element, one array -/

/-- An extended real whose absolute value max x (-x) is below +∞ is a real. -/
theorem real_of_abs_lt_top (x : EReal) (h : Ideal.cmp .olt (max x (-x)) (⊤ : EReal) = 1#1) :
    ∃ r : ℝ, x = (r : EReal) := by
  unfold Ideal.cmp at h
  rw [ofBool_eq_one] at h
  have h' : max x (-x) < (⊤ : EReal) := of_decide_eq_true h
  induction x using EReal.rec with
  | bot => exact absurd h' (by simp)
  | coe r => exact ⟨r, rfl⟩
  | top => exact absurd h' (by simp)

/-- all(|a| < +∞) being 1 makes every entry of a a real: the reduction by "and" over all axes gives the
    comparison at each index, the broadcast scalar reads +∞ there, and the element fact concludes. -/
theorem real_of_all {s : Shape} {axes : List (Fin s.rank)} (a : FVec Ideal s .f32)
    (hb : S_.BroadcastsInDim s (![] : Fin 0 → Fin s.rank)) (hr : s.ReducesTo axes S_) (hu : 0 < S_.numel)
    (init : IVec S_ 1)
    (e : Host.reduce IntOp.andi
          (cmpf .olt (Host.absf a) (broadcastInDim s ![] hb (constant (F := Ideal) S_ .f32 0x7F800000#32)))
          init hr hu ValueIdx.ix0 = 1#1) :
    ∀ i : s.Idx, ∃ r : ℝ, a i = (r : EReal) := by
  intro i
  have hi := Host.reduce_andi_all _ init hr hu ValueIdx.ix0 e i
  have hbc : broadcastInDim s ![] hb (constant (F := Ideal) S_ .f32 0x7F800000#32) i = (⊤ : EReal) := by
    rw [ValueIdx.broadcastInDim_scalar_apply]
    exact pinf_top
  have hi' : Ideal.cmp .olt (max (a i) (-(a i))) (⊤ : EReal) = 1#1 := by
    rw [← hbc]; exact hi
  exact real_of_abs_lt_top _ hi'

/-! ## The precondition -/

/-- The printed precondition, read back: if finite_inputs of six arrays is the word 1, every entry of every one
    of them is a real number. -/
theorem real_of_fn [Cert.Pre_finite_inputs.Facts]
    (a0 a1 : FVec Ideal S8x1024x768 .f32) (a2 : FVec Ideal S768x768 .f32) (a3 : FVec Ideal S1536x768 .f32)
    (a4 : FVec Ideal S768x768 .f32) (a5 : FVec Ideal S768 .f32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  have e := congrFun h ValueIdx.ix0
  dsimp only [Cert.Pre_finite_inputs.fn, Cert.Pre_finite_inputs.fn_part1, andi] at e
  simp only [IntOp.andi_eq_one] at e
  obtain ⟨⟨⟨⟨⟨h0, h1⟩, h2⟩, h3⟩, h4⟩, h5⟩ := e
  exact ⟨real_of_all a0 _ _ _ _ h0, real_of_all a1 _ _ _ _ h1, real_of_all a2 _ _ _ _ h2,
    real_of_all a3 _ _ _ _ h3, real_of_all a4 _ _ _ _ h4, real_of_all a5 _ _ _ _ h5⟩

end Cert.Finite

end
-- ==== Proof.lean ====
/-
  The certificate's claims, assembled.

  The three frames: the two kernel programs run as six segments (three stretches of host operations, three kernel
  regions), launched once, with every argument array read back unchanged at the end; the reference is a straight line of
  host operations. The idealization rewrote nothing. For the equivalence: the idealized kernel's result array is the
  third region's output, which index by index is the head-by-head projection of softmax attention on the reread query
  projection (scale folded into the weight, division after the product with the values); the reference's result is the
  flat projection of the same attention with the scale applied to the product and the weights divided first. On inputs
  that are real numbers the two agree.
-/
import proofs.«425593_j41592463294467_3_alg».proof.Defs
import proofs.«425593_j41592463294467_3_alg».proof.Proof.Gen.Kernel
import proofs.«425593_j41592463294467_3_alg».proof.Proof.Gen.KernelIdeal
import proofs.«425593_j41592463294467_3_alg».proof.Proof.Gen.ReferenceIdeal
import proofs.«425593_j41592463294467_3_alg».proof.Proof.Gen.Pre_finite_inputs
import proofs.«425593_j41592463294467_3_alg».proof.Proof.K.Run
import proofs.«425593_j41592463294467_3_alg».proof.Proof.KI.Run
import proofs.«425593_j41592463294467_3_alg».proof.Proof.Val.Kernel
import proofs.«425593_j41592463294467_3_alg».proof.Proof.RefValue
import proofs.«425593_j41592463294467_3_alg».proof.Proof.RefFrame
import proofs.«425593_j41592463294467_3_alg».proof.Proof.Bridge
import proofs.«425593_j41592463294467_3_alg».proof.Proof.Finite
import Idealize.ShloMosaic.Adequacy
import Idealize.ShloMosaic.Init

noncomputable section

namespace Cert.Proof

open Idealize.ShloMosaic Idealize.SL.Sem Idealize.ShloMosaic.ValueIdx Idealize.ShloMosaic.TcCoe

/-- The word-level kernel program runs to the end and leaves its arguments as launched. -/
theorem frame_k : Cert.frame_Kernel (hKernel := Cert.Kernel.Gen.facts) (hPre_finite_inputs := Cert.Pre_finite_inputs.Gen.facts) :=
  fun m ρ _ => Cert.Kernel.Hand.frame m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The two idealized programs end with equal results on finite inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => (Cert.KernelIdeal.Hand.dat2 (F := Ideal) (Cert.KernelIdeal.Hand.V5 m ρ) c).arrAt 5 Cert.KernelIdeal.cfg2.N,
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, r2, r3, -, -⟩ := Cert.Finite.real_of_fn _ _ _ _ _ _ (hpre c)
  rw [Cert.ReferenceIdeal.Read.val_main_v29_eq, Cert.ReferenceIdeal.RefValue.ref_is_spec,
    (hagree c).1, (hagree c).2.1, (hagree c).2.2.1, (hagree c).2.2.2.1, (hagree c).2.2.2.2.1, (hagree c).2.2.2.2.2]
  funext i
  obtain ⟨b, n, o, rfl⟩ : ∃ (b : Fin 8) (n : Fin 1024) (o : Fin 768), i = ix3 b n o := ⟨i 0, i 1, i 2, eq_ix3 i⟩
  refine Eq.trans ?_ (Cert.KernelIdeal.Val.kernel_value m ρ c b n o).symm
  exact (congrFun (congrFun (congrFun (Cert.AttnSpec.outKernel_eq_outReference _ _ _ _ _ _ _ _ Cert.Finite.scale_real Cert.Finite.ninf_bot
    (fun b n k => r0 _) (fun b n k => r1 _) (fun o k => r2 _) (fun o k => r3 _)) b) n) o).symm

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, trivial, algebraic⟩

end Cert.Proof

end
